-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)
  ∧ IdealRules.named_const.Statement Cert.KernelIdeal.κ "inv_14" .f32 0x3D924925#32 ((1 / 14 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S_ : Shape := ⟨0, ![]⟩

class Facts : Prop where
  bcast_S_S4096x14x14x30 : S_.BroadcastsInDim S4096x14x14x30 (![] : Fin 0 → Fin S4096x14x14x30.rank)
  reducesTo_S4096x14x14x30_S_d0_1_2_3 : S4096x14x14x30.ReducesTo [0, 1, 2, 3] S_
  h_S_ : 0 < S_.numel
  bcast_S_S4096x14x14x4 : S_.BroadcastsInDim S4096x14x14x4 (![] : Fin 0 → Fin S4096x14x14x4.rank)
  reducesTo_S4096x14x14x4_S_d0_1_2_3 : S4096x14x14x4.ReducesTo [0, 1, 2, 3] S_
  bcast_S_S4096x14x14x20 : S_.BroadcastsInDim S4096x14x14x20 (![] : Fin 0 → Fin S4096x14x14x20.rank)
  reducesTo_S4096x14x14x20_S_d0_1_2_3 : S4096x14x14x20.ReducesTo [0, 1, 2, 3] S_

variable [Facts]

def fn {F : FTy → Type} [FloatOps F] (main_arg0 : FVec F S4096x14x14x30 .f32) (main_arg1 : FVec F S4096x14x14x4 .f32) (main_arg2 : FVec F S4096x14x14x20 .f32) (main_arg3 : IVec S4096x14x14 1) : IVec S_ 1 :=
  let main_v0 : FVec F S4096x14x14x30 .f32 := Host.absf main_arg0
  let main_cst : FVec F S_ .f32 := constant S_ .f32 0x7F800000#32
  let main_v1 : FVec F S4096x14x14x30 .f32 := broadcastInDim S4096x14x14x30 ![] bcast_S_S4096x14x14x30 main_cst
  let main_v2 : IVec S4096x14x14x30 1 := cmpf .olt main_v0 main_v1
  let main_c : IVec S_ 1 := constantI S_ 1 1#1
  let main_v3 : IVec S_ 1 := (fun x v => Host.reduce IntOp.andi x v reducesTo_S4096x14x14x30_S_d0_1_2_3 h_S_) main_v2 main_c
  let main_v4 : FVec F S4096x14x14x4 .f32 := Host.absf main_arg1
  let main_cst_0 : FVec F S_ .f32 := constant S_ .f32 0x7F800000#32
  let main_v5 : FVec F S4096x14x14x4 .f32 := broadcastInDim S4096x14x14x4 ![] bcast_S_S4096x14x14x4 main_cst_0
  let main_v6 : IVec S4096x14x14x4 1 := cmpf .olt main_v4 main_v5
  let main_c_1 : IVec S_ 1 := constantI S_ 1 1#1
  let main_v7 : IVec S_ 1 := (fun x v => Host.reduce IntOp.andi x v reducesTo_S4096x14x14x4_S_d0_1_2_3 h_S_) main_v6 main_c_1
  let main_v8 : IVec S_ 1 := andi main_v3 main_v7
  let main_v9 : FVec F S4096x14x14x20 .f32 := Host.absf main_arg2
  let main_cst_2 : FVec F S_ .f32 := constant S_ .f32 0x7F800000#32
  let main_v10 : FVec F S4096x14x14x20 .f32 := broadcastInDim S4096x14x14x20 ![] bcast_S_S4096x14x14x20 main_cst_2
  let main_v11 : IVec S4096x14x14x20 1 := cmpf .olt main_v9 main_v10
  let main_c_3 : IVec S_ 1 := constantI S_ 1 1#1
  let main_v12 : IVec S_ 1 := (fun x v => Host.reduce IntOp.andi x v reducesTo_S4096x14x14x20_S_d0_1_2_3 h_S_) main_v11 main_c_3
  let main_v13 : IVec S_ 1 := andi main_v8 main_v12
  main_v13
-- ==== Kernel.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S802816x30 : Shape := ⟨2, ![802816, 30]⟩
abbrev S802816x4 : Shape := ⟨2, ![802816, 4]⟩
abbrev S802816x20 : Shape := ⟨2, ![802816, 20]⟩
abbrev S802816x1 : Shape := ⟨2, ![802816, 1]⟩
abbrev S2x1x5 : Shape := ⟨3, ![2, 1, 5]⟩
abbrev S4096x30 : Shape := ⟨2, ![4096, 30]⟩
abbrev S4096x4 : Shape := ⟨2, ![4096, 4]⟩
abbrev S4096x20 : Shape := ⟨2, ![4096, 20]⟩
abbrev S4096x1 : Shape := ⟨2, ![4096, 1]⟩
abbrev S1x1x5 : Shape := ⟨3, ![1, 1, 5]⟩
abbrev S1x1 : Shape := ⟨2, ![1, 1]⟩
abbrev S30x4096 : Shape := ⟨2, ![30, 4096]⟩
abbrev S4x4096 : Shape := ⟨2, ![4, 4096]⟩
abbrev S20x4096 : Shape := ⟨2, ![20, 4096]⟩
abbrev S1x4096 : Shape := ⟨2, ![1, 4096]⟩
abbrev S4096 : Shape := ⟨1, ![4096]⟩
abbrev S1 : Shape := ⟨1, ![1]⟩
abbrev S1x5 : Shape := ⟨2, ![1, 5]⟩
abbrev S2x5 : Shape := ⟨2, ![2, 5]⟩
abbrev S_ : Shape := ⟨0, ![]⟩
abbrev S5 : Shape := ⟨1, ![5]⟩

abbrev nBuf : Space → Nat
  | .hbm => 13
  | .vmem => 14
  | .smem => 0
  | _ => 0

abbrev bufTy : (tb : Table) → Fin (tcTables nBuf tb) → BufTy
  | .hbm, ⟨0, _⟩ => ⟨S4096x14x14x30, .f32⟩
  | .hbm, ⟨1, _⟩ => ⟨S4096x14x14x4, .f32⟩
  | .hbm, ⟨2, _⟩ => ⟨S4096x14x14x20, .f32⟩
  | .hbm, ⟨3, _⟩ => ⟨S4096x14x14, .i1⟩
  | .hbm, ⟨4, _⟩ => ⟨S802816x30, .f32⟩
  | .hbm, ⟨5, _⟩ => ⟨S802816x4, .f32⟩
  | .hbm, ⟨6, _⟩ => ⟨S802816x20, .f32⟩
  | .hbm, ⟨7, _⟩ => ⟨S4096x14x14, .f32⟩
  | .hbm, ⟨8, _⟩ => ⟨S802816x1, .f32⟩
  | .hbm, ⟨9, _⟩ => ⟨S2x1x5, .f32⟩
  | .hbm, ⟨10, _⟩ => ⟨S2x5, .f32⟩
  | .hbm, ⟨11, _⟩ => ⟨S_, .f32⟩
  | .hbm, ⟨12, _⟩ => ⟨S5, .f32⟩
  | .local _ .vmem, ⟨0, _⟩ => ⟨S4096x30, .f32⟩
  | .local _ .vmem, ⟨1, _⟩ => ⟨S4096x30, .f32⟩
  | .local _ .vmem, ⟨2, _⟩ => ⟨S4096x4, .f32⟩
  | .local _ .vmem, ⟨3, _⟩ => ⟨S4096x4, .f32⟩
  | .local _ .vmem, ⟨4, _⟩ => ⟨S4096x20, .f32⟩
  | .local _ .vmem, ⟨5, _⟩ => ⟨S4096x20, .f32⟩
  | .local _ .vmem, ⟨6, _⟩ => ⟨S4096x1, .f32⟩
  | .local _ .vmem, ⟨7, _⟩ => ⟨S4096x1, .f32⟩
  | .local _ .vmem, ⟨8, _⟩ => ⟨S1x1x5, .f32⟩
  | .local _ .vmem, ⟨9, _⟩ => ⟨S1x1x5, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S4096x14x14x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 98], ![false, false]⟩

def k0_cond2 (i : grid0.Coords) : BitVec 1 :=
  let arg1 : BitVec 32 := BitVec.ofNat 32 (i 1).val
  let c97_i32 : BitVec 32 := 97#32
  let v172 : BitVec 1 := Scalar.cmpi .eq arg1 c97_i32
  let v173 : BitVec 32 := Scalar.extui v172
  let c0_i32_49 : BitVec 32 := 0#32
  let v174 : BitVec 1 := Scalar.cmpi .ne v173 c0_i32_49
  v174

def cc0_transform_0 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096x14x14x30_S802816x30 : S4096x14x14x30.ShapeCasts S802816x30
  shapeCasts_S4096x14x14x4_S802816x4 : S4096x14x14x4.ShapeCasts S802816x4
  shapeCasts_S4096x14x14x20_S802816x20 : S4096x14x14x20.ShapeCasts S802816x20
  shapeCasts_S4096x14x14_S802816x1 : S4096x14x14.ShapeCasts S802816x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x30_S4096x30_0_0 : ∀ a, (![0, 0] : Fin 2 → Nat) a + S4096x30.size a ≤ S4096x30.size a
  h_S4096x30 : 0 < S4096x30.numel
  shapeCasts_S4096x30_S4096x30 : S4096x30.ShapeCasts S4096x30
  transposes_S4096x30_p1_0_S30x4096 : S4096x30.Transposes [1, 0] S30x4096
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  transposes_S4096x4_p1_0_S4x4096 : S4096x4.Transposes [1, 0] S4x4096
  inb_S4096x20_S4096x20_0_0 : ∀ a, (![0, 0] : Fin 2 → Nat) a + S4096x20.size a ≤ S4096x20.size a
  h_S4096x20 : 0 < S4096x20.numel
  shapeCasts_S4096x20_S4096x20 : S4096x20.ShapeCasts S4096x20
  transposes_S4096x20_p1_0_S20x4096 : S4096x20.Transposes [1, 0] S20x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  transposes_S4096x1_p1_0_S1x4096 : S4096x1.Transposes [1, 0] S1x4096
  slices_S30x4096_o0_0_S1x4096 : S30x4096.Slices ![0, 0] S1x4096
  slices_S30x4096_o1_0_S1x4096 : S30x4096.Slices ![1, 0] S1x4096
  slices_S30x4096_o2_0_S1x4096 : S30x4096.Slices ![2, 0] S1x4096
  slices_S30x4096_o3_0_S1x4096 : S30x4096.Slices ![3, 0] S1x4096
  slices_S30x4096_o4_0_S1x4096 : S30x4096.Slices ![4, 0] S1x4096
  slices_S30x4096_o5_0_S1x4096 : S30x4096.Slices ![5, 0] S1x4096
  slices_S30x4096_o6_0_S1x4096 : S30x4096.Slices ![6, 0] S1x4096
  slices_S30x4096_o7_0_S1x4096 : S30x4096.Slices ![7, 0] S1x4096
  slices_S30x4096_o8_0_S1x4096 : S30x4096.Slices ![8, 0] S1x4096
  slices_S30x4096_o9_0_S1x4096 : S30x4096.Slices ![9, 0] S1x4096
  slices_S30x4096_o10_0_S20x4096 : S30x4096.Slices ![10, 0] S20x4096
  slices_S4x4096_o0_0_S1x4096 : S4x4096.Slices ![0, 0] S1x4096
  slices_S4x4096_o1_0_S1x4096 : S4x4096.Slices ![1, 0] S1x4096
  slices_S4x4096_o2_0_S1x4096 : S4x4096.Slices ![2, 0] S1x4096
  slices_S4x4096_o3_0_S1x4096 : S4x4096.Slices ![3, 0] S1x4096
  broadcasts_S1x4096_S20x4096 : S1x4096.Broadcasts S20x4096
  reduces_S20x4096_S4096 : S20x4096.Reduces [0] S4096
  shapeCasts_S4096_S1x4096 : S4096.ShapeCasts S1x4096
  reduces_S1x4096_S1 : S1x4096.Reduces [1] S1
  shapeCasts_S1_S1x1 : S1.ShapeCasts S1x1
  concatenates_S1x1_S1x1_S1x1_S1x1_S1x1_S1x5_d1 : Shape.Concatenates [S1x1, S1x1, S1x1, S1x1, S1x1] S1x5 1
  shapeCasts_S1x5_S1x1x5 : S1x5.ShapeCasts S1x1x5
  inb_S1x1x5_S1x1x5_0_0_0 : ∀ a, (![0, 0, 0] : Fin 3 → Nat) a + S1x1x5.size a ≤ S1x1x5.size a
  h_S1x1x5 : 0 < S1x1x5.numel
  shapeCasts_S2x1x5_S2x5 : S2x1x5.ShapeCasts S2x5
  reducesTo_S2x5_S5_d0 : S2x5.ReducesTo [0] S5
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x30.size a ≤ S802816x30.size a
  hwx0_0 : ∀ i : grid0.Coords, EltTy.bits .f32 = 32 ∨ (Rect.block (s := S802816x30) S4096x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S802816x4.size a
  hwx0_1 : ∀ i : grid0.Coords, EltTy.bits .f32 = 32 ∨ (Rect.block (s := S802816x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x20.size a ≤ S802816x20.size a
  hwx0_2 : ∀ i : grid0.Coords, EltTy.bits .f32 = 32 ∨ (Rect.block (s := S802816x20) S4096x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S802816x1.size a
  hwx0_3 : ∀ i : grid0.Coords, EltTy.bits .f32 = 32 ∨ (Rect.block (s := S802816x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x5.size a ≤ S2x1x5.size a
  hwx0_4 : ∀ i : grid0.Coords, EltTy.bits .f32 = 32 ∨ (Rect.block (s := S2x1x5) S1x1x5.size (cc0_transform_4 i) (hinb0_4 i)).WholeWords (EltTy.packing .f32)

variable [Facts₀]

abbrev win0_0 : Pipeline.Window sig grid0 :=
  Pipeline.Window.ofSpec (Memref.whole main_v0) S4096x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S4096x14x14x1 : Shape := ⟨4, ![4096, 14, 14, 1]⟩
abbrev S_ : Shape := ⟨0, ![]⟩
abbrev S4096x14x14x2 : Shape := ⟨4, ![4096, 14, 14, 2]⟩
abbrev S1 : Shape := ⟨1, ![1]⟩
abbrev S5 : Shape := ⟨1, ![5]⟩

abbrev nBuf : Space → Nat
  | .hbm => 315
  | .vmem => 0
  | .smem => 0
  | _ => 0

abbrev hbmTy0_0 (i : Nat) : BufTy := match i % 128 with
  | 0 => ⟨S4096x14x14x30, .f32⟩
  | 1 => ⟨S4096x14x14x4, .f32⟩
  | 2 => ⟨S4096x14x14x20, .f32⟩
  | 3 => ⟨S4096x14x14, .i1⟩
  | 4 => ⟨S4096x14x14, .f32⟩
  | 5 => ⟨S4096x14x14x20, .f32⟩
  | 6 => ⟨S4096x14x14x1, .f32⟩
  | 7 => ⟨S4096x14x14x20, .f32⟩
  | 8 => ⟨S4096x14x14x20, .f32⟩
  | 9 => ⟨S4096x14x14x20, .f32⟩
  | 10 => ⟨S4096x14x14x20, .f32⟩
  | 11 => ⟨S_, .f32⟩
  | 12 => ⟨S_, .f32⟩
  | 13 => ⟨S_, .f32⟩
  | 14 => ⟨S_, .f32⟩
  | 15 => ⟨S_, .f32⟩
  | 16 => ⟨S4096x14x14, .f32⟩
  | 17 => ⟨S4096x14x14, .f32⟩
  | 18 => ⟨S4096x14x14x1, .f32⟩
  | 19 => ⟨S4096x14x14, .f32⟩
  | 20 => ⟨S4096x14x14, .f32⟩
  | 21 => ⟨S4096x14x14x1, .f32⟩
  | 22 => ⟨S4096x14x14, .f32⟩
  | 23 => ⟨S4096x14x14, .f32⟩
  | 24 => ⟨S4096x14x14, .f32⟩
  | 25 => ⟨S4096x14x14, .f32⟩
  | 26 => ⟨S_, .f32⟩
  | 27 => ⟨S_, .f32⟩
  | 28 => ⟨S_, .f32⟩
  | 29 => ⟨S_, .f32⟩
  | 30 => ⟨S4096x14x14x4, .f32⟩
  | 31 => ⟨S4096x14x14x1, .f32⟩
  | 32 => ⟨S4096x14x14, .f32⟩
  | 33 => ⟨S4096x14x14x1, .f32⟩
  | 34 => ⟨S4096x14x14, .f32⟩
  | 35 => ⟨S4096x14x14x1, .f32⟩
  | 36 => ⟨S4096x14x14, .f32⟩
  | 37 => ⟨S4096x14x14x1, .f32⟩
  | 38 => ⟨S4096x14x14, .f32⟩
  | 39 => ⟨S_, .f32⟩
  | 40 => ⟨S4096x14x14, .f32⟩
  | 41 => ⟨S4096x14x14, .f32⟩
  | 42 => ⟨S_, .f32⟩
  | 43 => ⟨S4096x14x14, .f32⟩
  | 44 => ⟨S4096x14x14, .f32⟩
  | 45 => ⟨S4096x14x14, .f32⟩
  | 46 => ⟨S_, .f32⟩
  | 47 => ⟨S4096x14x14, .f32⟩
  | 48 => ⟨S4096x14x14, .f32⟩
  | 49 => ⟨S_, .f32⟩
  | 50 => ⟨S4096x14x14, .f32⟩
  | 51 => ⟨S4096x14x14, .f32⟩
  | 52 => ⟨S4096x14x14, .f32⟩
  | 53 => ⟨S_, .f32⟩
  | 54 => ⟨S4096x14x14, .f32⟩
  | 55 => ⟨S4096x14x14, .f32⟩
  | 56 => ⟨S_, .f32⟩
  | 57 => ⟨S4096x14x14, .f32⟩
  | 58 => ⟨S4096x14x14, .f32⟩
  | 59 => ⟨S4096x14x14, .f32⟩
  | 60 => ⟨S_, .f32⟩
  | 61 => ⟨S4096x14x14, .f32⟩
  | 62 => ⟨S4096x14x14, .f32⟩
  | 63 => ⟨S_, .f32⟩
  | 64 => ⟨S4096x14x14, .f32⟩
  | 65 => ⟨S4096x14x14, .f32⟩
  | 66 => ⟨S4096x14x14, .f32⟩
  | 67 => ⟨S4096x14x14x1, .f32⟩
  | 68 => ⟨S4096x14x14x1, .f32⟩
  | 69 => ⟨S4096x14x14x1, .f32⟩
  | 70 => ⟨S4096x14x14x1, .f32⟩
  | 71 => ⟨S4096x14x14x4, .f32⟩
  | 72 => ⟨S4096x14x14x4, .f32⟩
  | 73 => ⟨S4096x14x14x1, .f32⟩
  | 74 => ⟨S4096x14x14, .f32⟩
  | 75 => ⟨S4096x14x14x1, .f32⟩
  | 76 => ⟨S4096x14x14, .f32⟩
  | 77 => ⟨S4096x14x14x1, .f32⟩
  | 78 => ⟨S4096x14x14, .f32⟩
  | 79 => ⟨S4096x14x14x1, .f32⟩
  | 80 => ⟨S4096x14x14, .f32⟩
  | 81 => ⟨S_, .f32⟩
  | 82 => ⟨S4096x14x14, .f32⟩
  | 83 => ⟨S4096x14x14, .f32⟩
  | 84 => ⟨S_, .f32⟩
  | 85 => ⟨S4096x14x14, .f32⟩
  | 86 => ⟨S4096x14x14, .f32⟩
  | 87 => ⟨S4096x14x14, .f32⟩
  | 88 => ⟨S_, .f32⟩
  | 89 => ⟨S4096x14x14, .f32⟩
  | 90 => ⟨S4096x14x14, .f32⟩
  | 91 => ⟨S_, .f32⟩
  | 92 => ⟨S4096x14x14, .f32⟩
  | 93 => ⟨S4096x14x14, .f32⟩
  | 94 => ⟨S4096x14x14, .f32⟩
  | 95 => ⟨S_, .f32⟩
  | 96 => ⟨S4096x14x14, .f32⟩
  | 97 => ⟨S4096x14x14, .f32⟩
  | 98 => ⟨S_, .f32⟩
  | 99 => ⟨S4096x14x14, .f32⟩
  | 100 => ⟨S4096x14x14, .f32⟩
  | 101 => ⟨S4096x14x14, .f32⟩
  | 102 => ⟨S_, .f32⟩
  | 103 => ⟨S4096x14x14, .f32⟩
  | 104 => ⟨S4096x14x14, .f32⟩
  | 105 => ⟨S_, .f32⟩
  | 106 => ⟨S4096x14x14, .f32⟩
  | 107 => ⟨S4096x14x14, .f32⟩
  | 108 => ⟨S4096x14x14, .f32⟩
  | 109 => ⟨S4096x14x14x1, .f32⟩
  | 110 => ⟨S4096x14x14x1, .f32⟩
  | 111 => ⟨S4096x14x14x1, .f32⟩
  | 112 => ⟨S4096x14x14x1, .f32⟩
  | 113 => ⟨S4096x14x14x4, .f32⟩
  | 114 => ⟨S4096x14x14x1, .f32⟩
  | 115 => ⟨S4096x14x14, .f32⟩
  | 116 => ⟨S4096x14x14x1, .f32⟩
  | 117 => ⟨S4096x14x14, .f32⟩
  | 118 => ⟨S4096x14x14x1, .f32⟩
  | 119 => ⟨S4096x14x14, .f32⟩
  | 120 => ⟨S4096x14x14x1, .f32⟩
  | 121 => ⟨S4096x14x14, .f32⟩
  | 122 => ⟨S_, .f32⟩
  | 123 => ⟨S4096x14x14, .f32⟩
  | 124 => ⟨S4096x14x14, .f32⟩
  | 125 => ⟨S_, .f32⟩
  | 126 => ⟨S4096x14x14, .f32⟩
  | 127 => ⟨S4096x14x14, .f32⟩
  | _ => ⟨S4096x14x14x30, .f32⟩

abbrev hbmTy0_1 (i : Nat) : BufTy := match i % 128 with
  | 0 => ⟨S4096x14x14, .f32⟩
  | 1 => ⟨S_, .f32⟩
  | 2 => ⟨S4096x14x14, .f32⟩
  | 3 => ⟨S4096x14x14, .f32⟩
  | 4 => ⟨S_, .f32⟩
  | 5 => ⟨S4096x14x14, .f32⟩
  | 6 => ⟨S4096x14x14, .f32⟩
  | 7 => ⟨S4096x14x14, .f32⟩
  | 8 => ⟨S_, .f32⟩
  | 9 => ⟨S4096x14x14, .f32⟩
  | 10 => ⟨S4096x14x14, .f32⟩
  | 11 => ⟨S_, .f32⟩
  | 12 => ⟨S4096x14x14, .f32⟩
  | 13 => ⟨S4096x14x14, .f32⟩
  | 14 => ⟨S4096x14x14, .f32⟩
  | 15 => ⟨S_, .f32⟩
  | 16 => ⟨S4096x14x14, .f32⟩
  | 17 => ⟨S4096x14x14, .f32⟩
  | 18 => ⟨S_, .f32⟩
  | 19 => ⟨S4096x14x14, .f32⟩
  | 20 => ⟨S4096x14x14, .f32⟩
  | 21 => ⟨S4096x14x14, .f32⟩
  | 22 => ⟨S4096x14x14x1, .f32⟩
  | 23 => ⟨S4096x14x14x1, .f32⟩
  | 24 => ⟨S4096x14x14x1, .f32⟩
  | 25 => ⟨S4096x14x14x1, .f32⟩
  | 26 => ⟨S4096x14x14x4, .f32⟩
  | 27 => ⟨S4096x14x14x1, .f32⟩
  | 28 => ⟨S4096x14x14, .f32⟩
  | 29 => ⟨S4096x14x14x1, .f32⟩
  | 30 => ⟨S4096x14x14, .f32⟩
  | 31 => ⟨S4096x14x14x1, .f32⟩
  | 32 => ⟨S4096x14x14, .f32⟩
  | 33 => ⟨S4096x14x14x1, .f32⟩
  | 34 => ⟨S4096x14x14, .f32⟩
  | 35 => ⟨S_, .f32⟩
  | 36 => ⟨S4096x14x14, .f32⟩
  | 37 => ⟨S4096x14x14, .f32⟩
  | 38 => ⟨S_, .f32⟩
  | 39 => ⟨S4096x14x14, .f32⟩
  | 40 => ⟨S4096x14x14, .f32⟩
  | 41 => ⟨S4096x14x14, .f32⟩
  | 42 => ⟨S_, .f32⟩
  | 43 => ⟨S4096x14x14, .f32⟩
  | 44 => ⟨S4096x14x14, .f32⟩
  | 45 => ⟨S_, .f32⟩
  | 46 => ⟨S4096x14x14, .f32⟩
  | 47 => ⟨S4096x14x14, .f32⟩
  | 48 => ⟨S4096x14x14, .f32⟩
  | 49 => ⟨S_, .f32⟩
  | 50 => ⟨S4096x14x14, .f32⟩
  | 51 => ⟨S4096x14x14, .f32⟩
  | 52 => ⟨S_, .f32⟩
  | 53 => ⟨S4096x14x14, .f32⟩
  | 54 => ⟨S4096x14x14, .f32⟩
  | 55 => ⟨S4096x14x14, .f32⟩
  | 56 => ⟨S_, .f32⟩
  | 57 => ⟨S4096x14x14, .f32⟩
  | 58 => ⟨S4096x14x14, .f32⟩
  | 59 => ⟨S_, .f32⟩
  | 60 => ⟨S4096x14x14, .f32⟩
  | 61 => ⟨S4096x14x14, .f32⟩
  | 62 => ⟨S4096x14x14, .f32⟩
  | 63 => ⟨S4096x14x14x1, .f32⟩
  | 64 => ⟨S4096x14x14x1, .f32⟩
  | 65 => ⟨S4096x14x14x1, .f32⟩
  | 66 => ⟨S4096x14x14x1, .f32⟩
  | 67 => ⟨S4096x14x14x4, .f32⟩
  | 68 => ⟨S4096x14x14x2, .f32⟩
  | 69 => ⟨S4096x14x14x2, .f32⟩
  | 70 => ⟨S4096x14x14x2, .f32⟩
  | 71 => ⟨S4096x14x14x2, .f32⟩
  | 72 => ⟨S4096x14x14x2, .f32⟩
  | 73 => ⟨S4096x14x14x2, .f32⟩
  | 74 => ⟨S4096x14x14x2, .f32⟩
  | 75 => ⟨S_, .f32⟩
  | 76 => ⟨S_, .f32⟩
  | 77 => ⟨S4096x14x14x2, .f32⟩
  | 78 => ⟨S4096x14x14x2, .f32⟩
  | 79 => ⟨S4096x14x14x1, .f32⟩
  | 80 => ⟨S4096x14x14, .f32⟩
  | 81 => ⟨S4096x14x14x1, .f32⟩
  | 82 => ⟨S4096x14x14, .f32⟩
  | 83 => ⟨S4096x14x14, .f32⟩
  | 84 => ⟨S4096x14x14x1, .f32⟩
  | 85 => ⟨S4096x14x14, .f32⟩
  | 86 => ⟨S4096x14x14x1, .f32⟩
  | 87 => ⟨S4096x14x14, .f32⟩
  | 88 => ⟨S4096x14x14, .f32⟩
  | 89 => ⟨S4096x14x14x1, .f32⟩
  | 90 => ⟨S4096x14x14, .f32⟩
  | 91 => ⟨S4096x14x14x1, .f32⟩
  | 92 => ⟨S4096x14x14, .f32⟩
  | 93 => ⟨S4096x14x14, .f32⟩
  | 94 => ⟨S4096x14x14, .f32⟩
  | 95 => ⟨S4096x14x14x1, .f32⟩
  | 96 => ⟨S4096x14x14, .f32⟩
  | 97 => ⟨S4096x14x14x1, .f32⟩
  | 98 => ⟨S4096x14x14, .f32⟩
  | 99 => ⟨S4096x14x14, .f32⟩
  | 100 => ⟨S4096x14x14x1, .f32⟩
  | 101 => ⟨S4096x14x14, .f32⟩
  | 102 => ⟨S4096x14x14x1, .f32⟩
  | 103 => ⟨S4096x14x14, .f32⟩
  | 104 => ⟨S4096x14x14, .f32⟩
  | 105 => ⟨S4096x14x14, .f32⟩
  | 106 => ⟨S4096x14x14, .f32⟩
  | 107 => ⟨S4096x14x14, .f32⟩
  | 108 => ⟨S4096x14x14, .f32⟩
  | 109 => ⟨S4096x14x14x2, .f32⟩
  | 110 => ⟨S4096x14x14x2, .f32⟩
  | 111 => ⟨S4096x14x14x2, .f32⟩
  | 112 => ⟨S4096x14x14x2, .f32⟩
  | 113 => ⟨S4096x14x14x2, .f32⟩
  | 114 => ⟨S4096x14x14x2, .f32⟩
  | 115 => ⟨S4096x14x14x2, .f32⟩
  | 116 => ⟨S_, .f32⟩
  | 117 => ⟨S_, .f32⟩
  | 118 => ⟨S4096x14x14x2, .f32⟩
  | 119 => ⟨S4096x14x14x2, .f32⟩
  | 120 => ⟨S4096x14x14x1, .f32⟩
  | 121 => ⟨S4096x14x14, .f32⟩
  | 122 => ⟨S4096x14x14x1, .f32⟩
  | 123 => ⟨S4096x14x14, .f32⟩
  | 124 => ⟨S4096x14x14, .f32⟩
  | 125 => ⟨S4096x14x14x1, .f32⟩
  | 126 => ⟨S4096x14x14, .f32⟩
  | 127 => ⟨S4096x14x14x1, .f32⟩
  | _ => ⟨S4096x14x14x30, .f32⟩

abbrev hbmTy0_2 (i : Nat) : BufTy := match i % 128 with
  | 0 => ⟨S4096x14x14, .f32⟩
  | 1 => ⟨S4096x14x14, .f32⟩
  | 2 => ⟨S4096x14x14x1, .f32⟩
  | 3 => ⟨S4096x14x14, .f32⟩
  | 4 => ⟨S4096x14x14x1, .f32⟩
  | 5 => ⟨S4096x14x14, .f32⟩
  | 6 => ⟨S4096x14x14, .f32⟩
  | 7 => ⟨S4096x14x14, .f32⟩
  | 8 => ⟨S4096x14x14x1, .f32⟩
  | 9 => ⟨S4096x14x14, .f32⟩
  | 10 => ⟨S4096x14x14x1, .f32⟩
  | 11 => ⟨S4096x14x14, .f32⟩
  | 12 => ⟨S4096x14x14, .f32⟩
  | 13 => ⟨S4096x14x14x1, .f32⟩
  | 14 => ⟨S4096x14x14, .f32⟩
  | 15 => ⟨S4096x14x14x1, .f32⟩
  | 16 => ⟨S4096x14x14, .f32⟩
  | 17 => ⟨S4096x14x14, .f32⟩
  | 18 => ⟨S4096x14x14, .f32⟩
  | 19 => ⟨S4096x14x14, .f32⟩
  | 20 => ⟨S4096x14x14, .f32⟩
  | 21 => ⟨S4096x14x14, .f32⟩
  | 22 => ⟨S4096x14x14, .f32⟩
  | 23 => ⟨S4096x14x14, .i1⟩
  | 24 => ⟨S4096x14x14x1, .i1⟩
  | 25 => ⟨S4096x14x14x4, .i1⟩
  | 26 => ⟨S4096x14x14x4, .f32⟩
  | 27 => ⟨S4096x14x14x1, .f32⟩
  | 28 => ⟨S4096x14x14x2, .f32⟩
  | 29 => ⟨S4096x14x14x2, .f32⟩
  | 30 => ⟨S4096x14x14x2, .f32⟩
  | 31 => ⟨S4096x14x14x2, .f32⟩
  | 32 => ⟨S4096x14x14x2, .f32⟩
  | 33 => ⟨S4096x14x14x2, .f32⟩
  | 34 => ⟨S_, .f32⟩
  | 35 => ⟨S_, .f32⟩
  | 36 => ⟨S_, .f32⟩
  | 37 => ⟨S_, .f32⟩
  | 38 => ⟨S4096x14x14x1, .f32⟩
  | 39 => ⟨S4096x14x14, .f32⟩
  | 40 => ⟨S4096x14x14x1, .f32⟩
  | 41 => ⟨S4096x14x14, .f32⟩
  | 42 => ⟨S4096x14x14, .f32⟩
  | 43 => ⟨S4096x14x14, .f32⟩
  | 44 => ⟨S4096x14x14, .f32⟩
  | 45 => ⟨S4096x14x14, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1, .f32⟩
  | 54 => ⟨S1, .f32⟩
  | 55 => ⟨S1, .f32⟩
  | 56 => ⟨S1, .f32⟩
  | 57 => ⟨S1, .f32⟩
  | 58 => ⟨S5, .f32⟩
  | _ => ⟨S4096x14x14x30, .f32⟩

abbrev hbmTy (i : Nat) : BufTy := match i / 128 with
  | 0 => hbmTy0_0 i
  | 1 => hbmTy0_1 i
  | 2 => hbmTy0_2 i
  | _ => ⟨S4096x14x14x30, .f32⟩

abbrev bufTy : (tb : Table) → Fin (tcTables nBuf tb) → BufTy
  | .hbm, ⟨i, _⟩ => hbmTy i
  | _, _ => ⟨S4096x14x14x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_20 : Ref sig .tc := ⟨.hbm, 122, rfl⟩
abbrev main_v97 : Ref sig .tc := ⟨.hbm, 123, rfl⟩
abbrev main_v98 : Ref sig .tc := ⟨.hbm, 124, rfl⟩
abbrev main_cst_21 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_24 : Ref sig .tc := ⟨.hbm, 136, rfl⟩
abbrev main_v107 : Ref sig .tc := ⟨.hbm, 137, rfl⟩
abbrev main_v108 : Ref sig .tc := ⟨.hbm, 138, rfl⟩
abbrev main_cst_25 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_26 : Ref sig .tc := ⟨.hbm, 143, rfl⟩
abbrev main_v112 : Ref sig .tc := ⟨.hbm, 144, rfl⟩
abbrev main_v113 : Ref sig .tc := ⟨.hbm, 145, rfl⟩
abbrev main_cst_27 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_28 : Ref sig .tc := ⟨.hbm, 163, rfl⟩
abbrev main_v130 : Ref sig .tc := ⟨.hbm, 164, rfl⟩
abbrev main_v131 : Ref sig .tc := ⟨.hbm, 165, rfl⟩
abbrev main_cst_29 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_30 : Ref sig .tc := ⟨.hbm, 170, rfl⟩
abbrev main_v135 : Ref sig .tc := ⟨.hbm, 171, rfl⟩
abbrev main_v136 : Ref sig .tc := ⟨.hbm, 172, rfl⟩
abbrev main_cst_31 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_32 : Ref sig .tc := ⟨.hbm, 177, rfl⟩
abbrev main_v140 : Ref sig .tc := ⟨.hbm, 178, rfl⟩
abbrev main_v141 : Ref sig .tc := ⟨.hbm, 179, rfl⟩
abbrev main_cst_33 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_34 : Ref sig .tc := ⟨.hbm, 184, rfl⟩
abbrev main_v145 : Ref sig .tc := ⟨.hbm, 185, rfl⟩
abbrev main_v146 : Ref sig .tc := ⟨.hbm, 186, rfl⟩
abbrev main_cst_35 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_36 : Ref sig .tc := ⟨.hbm, 203, rfl⟩
abbrev main_call0_v0 : Ref sig .tc := ⟨.hbm, 204, rfl⟩
abbrev main_call0_v1 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_cst_37 : Ref sig .tc := ⟨.hbm, 244, rfl⟩
abbrev main_call1_v0 : Ref sig .tc := ⟨.hbm, 245, rfl⟩
abbrev main_call1_v1 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_call2_v0 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_cst_38 : Ref sig .tc := ⟨.hbm, 290, rfl⟩
abbrev main_v242 : Ref sig .tc := ⟨.hbm, 291, rfl⟩
abbrev main_cst_39 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_cst_40 : Ref sig .tc := ⟨.hbm, 302, rfl⟩
abbrev main_v252 : Ref sig .tc := ⟨.hbm, 303, rfl⟩
abbrev main_cst_41 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩

abbrev nD : Nat := 1
abbrev τ : Topo := Topo.v7x

variable {F : FTy → Type} [FloatOps F]

class Facts₀ : Prop where
  slices_S4096x14x14x30_S4096x14x14x20_0_0_0_10 : S4096x14x14x30.Slices ![0, 0, 0, 10] S4096x14x14x20
  bcast_S4096x14x14_S4096x14x14x1_0_1_2 : S4096x14x14.BroadcastsInDim S4096x14x14x1 (![0, 1, 2] : Fin 3 → Fin S4096x14x14x1.rank)
  bcast_S4096x14x14x1_S4096x14x14x20_0_1_2_3 : S4096x14x14x1.BroadcastsInDim S4096x14x14x20 (![0, 1, 2, 3] : Fin 4 → Fin S4096x14x14x20.rank)
  reducesTo_S4096x14x14x20_S_d0_1_2_3 : S4096x14x14x20.ReducesTo [0, 1, 2, 3] S_
  h_S_ : 0 < S_.numel
  bcast_S_S4096x14x14 : S_.BroadcastsInDim S4096x14x14 (![] : Fin 0 → Fin S4096x14x14.rank)
  slices_S4096x14x14x30_S4096x14x14x1_0_0_0_4 : S4096x14x14x30.Slices ![0, 0, 0, 4] S4096x14x14x1
  shapeCasts_S4096x14x14x1_S4096x14x14 : S4096x14x14x1.ShapeCasts S4096x14x14
  slices_S4096x14x14x30_S4096x14x14x1_0_0_0_9 : S4096x14x14x30.Slices ![0, 0, 0, 9] S4096x14x14x1
  reducesTo_S4096x14x14_S_d0_1_2 : S4096x14x14.ReducesTo [0, 1, 2] S_
  slices_S4096x14x14x30_S4096x14x14x4_0_0_0_0 : S4096x14x14x30.Slices ![0, 0, 0, 0] S4096x14x14x4
  slices_S4096x14x14x4_S4096x14x14x1_0_0_0_0 : S4096x14x14x4.Slices ![0, 0, 0, 0] S4096x14x14x1
  slices_S4096x14x14x4_S4096x14x14x1_0_0_0_1 : S4096x14x14x4.Slices ![0, 0, 0, 1] S4096x14x14x1
  slices_S4096x14x14x4_S4096x14x14x1_0_0_0_2 : S4096x14x14x4.Slices ![0, 0, 0, 2] S4096x14x14x1
  slices_S4096x14x14x4_S4096x14x14x1_0_0_0_3 : S4096x14x14x4.Slices ![0, 0, 0, 3] S4096x14x14x1
  concatenates_S4096x14x14x1_S4096x14x14x1_S4096x14x14x1_S4096x14x14x1_S4096x14x14x4_d3 : Shape.Concatenates [S4096x14x14x1, S4096x14x14x1, S4096x14x14x1, S4096x14x14x1] S4096x14x14x4 3
  slices_S4096x14x14x30_S4096x14x14x4_0_0_0_5 : S4096x14x14x30.Slices ![0, 0, 0, 5] S4096x14x14x4
  slices_S4096x14x14x4_S4096x14x14x2_0_0_0_0 : S4096x14x14x4.Slices ![0, 0, 0, 0] S4096x14x14x2
  slices_S4096x14x14x4_S4096x14x14x2_0_0_0_2 : S4096x14x14x4.Slices ![0, 0, 0, 2] S4096x14x14x2
  bcast_S_S4096x14x14x2 : S_.BroadcastsInDim S4096x14x14x2 (![] : Fin 0 → Fin S4096x14x14x2.rank)
  slices_S4096x14x14x2_S4096x14x14x1_0_0_0_0 : S4096x14x14x2.Slices ![0, 0, 0, 0] S4096x14x14x1
  slices_S4096x14x14x2_S4096x14x14x1_0_0_0_1 : S4096x14x14x2.Slices ![0, 0, 0, 1] S4096x14x14x1
  bcast_S4096x14x14x1_S4096x14x14x4_0_1_2_3 : S4096x14x14x1.BroadcastsInDim S4096x14x14x4 (![0, 1, 2, 3] : Fin 4 → Fin S4096x14x14x4.rank)
  bcast_S4096x14x14x1_S4096x14x14x2_0_1_2_3 : S4096x14x14x1.BroadcastsInDim S4096x14x14x2 (![0, 1, 2, 3] : Fin 4 → Fin S4096x14x14x2.rank)
  reducesTo_S4096x14x14x2_S_d0_1_2_3 : S4096x14x14x2.ReducesTo [0, 1, 2, 3] S_
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.KernelTerms.lean ====
/-
  What one grid point adds to the four running sums, and what the last point of a half writes out, named as terms of the
  point's four input blocks: the 4096 x 30 predictions, the 4096 x 4 target boxes, the 4096 x 20 target classes and the
  4096 x 1 object flags of the tile.  Each running sum is a 1 x 1 vector; a point adds to it the sum over the tile's 4096
  cells of the cell's term.  The geometry of a tile (the corner coordinates of the three boxes, lane by lane) feeds the
  larger overlap ratio, the choice between the two predicted boxes and the squared corner distance.
-/
import proofs.«420472_j34711925687028_3_alg».proof.Proof.Gen.KernelIdeal.Skeleton

noncomputable section

namespace Cert.KernelIdeal.Tile

open Idealize.ShloMosaic Cert.KernelIdeal Cert.KernelIdeal.Gen

variable {F : FTy → Type} [FloatOps F] [Named F]
variable (x0 : Vec F S4096x30 .f32) (x1 : Vec F S4096x4 .f32) (x2 : Vec F S4096x20 .f32) (x3 : Vec F S4096x1 .f32)

/-- The larger of the two overlap ratios, lane by lane. -/
def vIou : FVec F S1x4096 .f32 :=
  k0_pay57 (k0_pay29 (k0_pay8 x0) (k0_pay10 x0)) (k0_pay30 (k0_pay9 x0) (k0_pay11 x0)) (k0_pay31 (k0_pay8 x0) (k0_pay10 x0))
    (k0_pay32 (k0_pay9 x0) (k0_pay11 x0)) (k0_pay37 (k0_pay13 x0) (k0_pay15 x0)) (k0_pay38 (k0_pay14 x0) (k0_pay16 x0))
    (k0_pay39 (k0_pay13 x0) (k0_pay15 x0)) (k0_pay40 (k0_pay14 x0) (k0_pay16 x0)) (k0_pay45 (k0_pay18 x1) (k0_pay20 x1))
    (k0_pay46 (k0_pay19 x1) (k0_pay21 x1)) (k0_pay47 (k0_pay18 x1) (k0_pay20 x1)) (k0_pay48 (k0_pay19 x1) (k0_pay21 x1))
    (k0_pay49 (k0_pay18 x1) (k0_pay20 x1)) (k0_pay50 (k0_pay19 x1) (k0_pay21 x1)) (k0_pay51 (k0_pay18 x1) (k0_pay20 x1))

/-- Whether the second predicted box's ratio is strictly the larger, lane by lane. -/
def vPick : IVec S1x4096 1 :=
  k0_pay58 (k0_pay29 (k0_pay8 x0) (k0_pay10 x0)) (k0_pay30 (k0_pay9 x0) (k0_pay11 x0)) (k0_pay31 (k0_pay8 x0) (k0_pay10 x0))
    (k0_pay32 (k0_pay9 x0) (k0_pay11 x0)) (k0_pay37 (k0_pay13 x0) (k0_pay15 x0)) (k0_pay38 (k0_pay14 x0) (k0_pay16 x0))
    (k0_pay39 (k0_pay13 x0) (k0_pay15 x0)) (k0_pay40 (k0_pay14 x0) (k0_pay16 x0)) (k0_pay45 (k0_pay18 x1) (k0_pay20 x1))
    (k0_pay46 (k0_pay19 x1) (k0_pay21 x1)) (k0_pay47 (k0_pay18 x1) (k0_pay20 x1)) (k0_pay48 (k0_pay19 x1) (k0_pay21 x1))
    (k0_pay49 (k0_pay18 x1) (k0_pay20 x1)) (k0_pay50 (k0_pay19 x1) (k0_pay21 x1)) (k0_pay51 (k0_pay18 x1) (k0_pay20 x1))

/-- The squared distance of the chosen box's low corner from the twice-transformed target's, lane by lane. -/
def vSq : FVec F S1x4096 .f32 :=
  k0_pay59 (k0_pay29 (k0_pay8 x0) (k0_pay10 x0)) (k0_pay30 (k0_pay9 x0) (k0_pay11 x0)) (k0_pay31 (k0_pay8 x0) (k0_pay10 x0))
    (k0_pay32 (k0_pay9 x0) (k0_pay11 x0)) (k0_pay37 (k0_pay13 x0) (k0_pay15 x0)) (k0_pay38 (k0_pay14 x0) (k0_pay16 x0))
    (k0_pay39 (k0_pay13 x0) (k0_pay15 x0)) (k0_pay40 (k0_pay14 x0) (k0_pay16 x0)) (k0_pay45 (k0_pay18 x1) (k0_pay20 x1))
    (k0_pay46 (k0_pay19 x1) (k0_pay21 x1)) (k0_pay47 (k0_pay18 x1) (k0_pay20 x1)) (k0_pay48 (k0_pay19 x1) (k0_pay21 x1))
    (k0_pay49 (k0_pay18 x1) (k0_pay20 x1)) (k0_pay50 (k0_pay19 x1) (k0_pay21 x1)) (k0_pay51 (k0_pay18 x1) (k0_pay20 x1))

/-- The four running sums after a point, from what they held before it. -/
def accCls (s : Vec F S1x1 .f32) : FVec F S1x1 .f32 := k0_pay60 (k0_pay22 x0 x2 x3) s
def accNoobj (s : Vec F S1x1 .f32) : FVec F S1x1 .f32 := k0_pay61 (k0_pay24 (k0_pay23 x0 x3)) s
def accReg (s : Vec F S1x1 .f32) : FVec F S1x1 .f32 := k0_pay62 (k0_pay7 x3) (vSq x0 x1) s
def accCont (s : Vec F S1x1 .f32) : FVec F S1x1 .f32 :=
  k0_pay63 (k0_pay7 x3) (k0_pay12 x0) (k0_pay17 x0) (vIou x0 x1) (vPick x0 x1) s

/-- The five numbers a half writes out, from its four finished sums (class, no-object, corner, confidence). -/
def outVec (a b c d : Vec F S1x1 .f32) : FVec F S1x1x5 .f32 := k0_pay64 a b c d

end Cert.KernelIdeal.Tile

end
-- ==== Proof.KernelPieces.lean ====
/-
  What each case of the body leaves in the four running sums and in the output block, as terms of the point's input
  blocks and of what the sums held before the point.  At the first point of a half the sums are reset to zero and the
  point's tile is added; at every other point the tile is added to what the point before left; the last point of a half
  also writes the five numbers computed from the four sums it has just finished.
-/
import proofs.«420472_j34711925687028_3_alg».proof.Proof.Gen.KernelIdeal.Frame
import proofs.«420472_j34711925687028_3_alg».proof.Proof.KernelTerms
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Tile

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- First point of a half: the class sum is reset and the tile added. -/
theorem sumA_0 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S4096x30 .f32) (x1 : Vec F S4096x4 .f32) (x2 : Vec F S4096x20 .f32) (x3 : Vec F S4096x1 .f32) :
    sout0_A_0 c i arg2 harg2 arg3 harg3 arg4 harg4 arg5 harg5 arg6 harg6 arg7 harg7 arg8 harg8 arg9 harg9 arg10 harg10 hc0 hc1 x0 x1 x2 x3 = accCls x0 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- First point of a half: the no-object sum is reset and the tile added. -/
theorem sumA_1 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S4096x30 .f32) (x1 : Vec F S4096x4 .f32) (x2 : Vec F S4096x20 .f32) (x3 : Vec F S4096x1 .f32) :
    sout0_A_1 c i arg2 harg2 arg3 harg3 arg4 harg4 arg5 harg5 arg6 harg6 arg7 harg7 arg8 harg8 arg9 harg9 arg10 harg10 hc0 hc1 x0 x1 x2 x3 = accNoobj x0 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- First point of a half: the corner sum is reset and the tile added. -/
theorem sumA_2 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S4096x30 .f32) (x1 : Vec F S4096x4 .f32) (x2 : Vec F S4096x20 .f32) (x3 : Vec F S4096x1 .f32) :
    sout0_A_2 c i arg2 harg2 arg3 harg3 arg4 harg4 arg5 harg5 arg6 harg6 arg7 harg7 arg8 harg8 arg9 harg9 arg10 harg10 hc0 hc1 x0 x1 x2 x3 = accReg x0 x1 x3 (k0_pay3 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- First point of a half: the confidence sum is reset and the tile added. -/
theorem sumA_3 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S4096x30 .f32) (x1 : Vec F S4096x4 .f32) (x2 : Vec F S4096x20 .f32) (x3 : Vec F S4096x1 .f32) :
    sout0_A_3 c i arg2 harg2 arg3 harg3 arg4 harg4 arg5 harg5 arg6 harg6 arg7 harg7 arg8 harg8 arg9 harg9 arg10 harg10 hc0 hc1 x0 x1 x2 x3 = accCont x0 x1 x3 (k0_pay4 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- A middle point: the tile is added to the class sum. -/
theorem sumB_0 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = accCls x0 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- A middle point: the tile is added to the no-object sum. -/
theorem sumB_1 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = accNoobj x0 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- A middle point: the tile is added to the corner sum. -/
theorem sumB_2 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = accReg x0 x1 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- A middle point: the tile is added to the confidence sum. -/
theorem sumB_3 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = accCont x0 x1 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- The last point of a half: the tile is added to the class sum. -/
theorem sumC_0 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = accCls x0 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- The last point of a half: the tile is added to the no-object sum. -/
theorem sumC_1 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = accNoobj x0 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- The last point of a half: the tile is added to the corner sum. -/
theorem sumC_2 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = accReg x0 x1 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- The last point of a half: the tile is added to the confidence sum. -/
theorem sumC_3 (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = accCont x0 x1 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

/-- The last point of a half writes the five numbers of the four sums it has just finished. -/
theorem outC (c : Dev nD) (i : grid0.Coords) (arg2 : Memref sig .tc .vmem S4096x30 .f32) (harg2 : arg2.IsWhole) (arg3 : Memref sig .tc .vmem S4096x4 .f32) (harg3 : arg3.IsWhole) (arg4 : Memref sig .tc .vmem S4096x20 .f32) (harg4 : arg4.IsWhole) (arg5 : Memref sig .tc .vmem S4096x1 .f32) (harg5 : arg5.IsWhole) (arg6 : Memref sig .tc .vmem S1x1x5 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S4096x30 .f32) (x1 : Vec F S4096x4 .f32) (x2 : Vec F S4096x20 .f32) (x3 : Vec F S4096x1 .f32) (xs0 : Vec F S1x1 .f32) (xs1 : Vec F S1x1 .f32) (xs2 : Vec F S1x1 .f32) (xs3 : Vec F S1x1 .f32) :
    out0_C_4 c i arg2 harg2 arg3 harg3 arg4 harg4 arg5 harg5 arg6 harg6 arg7 harg7 arg8 harg8 arg9 harg9 arg10 harg10 hc0 hc1 x0 x1 x2 x3 xs0 xs1 xs2 xs3
      = outVec (accCls x0 x2 x3 xs0) (accNoobj x0 x3 xs1) (accReg x0 x1 x3 xs2) (accCont x0 x1 x3 xs3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread,
    View.ld_unit_zero (S := S4096x30) hz, View.ld_unit_zero (S := S4096x4) hz, View.ld_unit_zero (S := S4096x20) hz,
    View.ld_unit_zero (S := S4096x1) hz, View.ld_unit_zero (S := S1x1) hz, View.ld_unit_zero (S := S1x1x5) hz3,
    View.readCov_unit_zero (S := S1x1) _ hz]
  rfl

end Cert.KernelIdeal.Gen

end
-- ==== Proof.Spec.lean ====
/-
  The loss on the extended reals, cell by cell.

  A cell of the 4096 x 14 x 14 grid carries 30 predicted numbers (two boxes of (x, y, w, h, confidence) and 20 class
  scores), a target box (x, y, w, h), 20 target class scores and an object flag m (0 or 1, as a real).  A box
  (x, y, w, h) is read in corner form (s x - w/2, s y - h/2, s x + w/2, s y + h/2), where s scales a centre coordinate
  by one fourteenth; the target box is put in corner form once against the first predicted box and, read again as
  (x, y, w, h), a second time against the second.  Four sums over all 802816 cells are taken: the class error
  m (p - c)^2 over the 20 classes, the no-object confidence (1 - m)(c0^2 + c1^2), the corner error m (dx^2 + dy^2) of
  the predicted box with the larger overlap ratio, and the confidence error m (conf - ratio)^2.  Each is divided by
  4096; the five results are the total and the four parts.

  Two spellings of the same numbers are defined.  One takes each sum over all cells at once and spells the products
  m ((p - c)(p - c)) and m (dx dx) + m (dy dy); the other takes the cells in two halves of 98 tiles of 4096 cells, divides
  each half's sums by 4096 before adding the halves, and spells the products (m (p - c))(p - c) and m (dx dx + dy dy).
  The scaling s is a parameter: division by fourteen in the first, multiplication by one fourteenth in the second.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The number of cells, 4096 * 14 * 14. -/
abbrev NR : Nat := 802816

/-- One half, one, zero, fourteen and 4096 as the binary32 patterns the programs carry. -/
def half : EReal := Ideal.ofBits .f32 0x3F000000#32
def one : EReal := Ideal.ofBits .f32 0x3F800000#32
def zero : EReal := Ideal.ofBits .f32 0x00000000#32
def fourteen : EReal := Ideal.ofBits .f32 0x41600000#32
def nBatch : EReal := Ideal.ofBits .f32 0x45800000#32

/-- Division by fourteen: the first spelling of the scaling. -/
def scaleDiv (x : EReal) : EReal := Ideal.div x fourteen
/-- Multiplication by the real one fourteenth: the second spelling of the scaling. -/
def scaleMul (x : EReal) : EReal := x * ((1 / 14 : ℝ) : EReal)

/-- What one cell carries. -/
structure Cell where
  p : Fin 30 → EReal
  b : Fin 4 → EReal
  c : Fin 20 → EReal
  m : EReal

/-- Channel 10 + k of the predictions: the score of class k. -/
abbrev clsCh (k : Fin 20) : Fin 30 := ⟨10 + k.val, by have := k.isLt; omega⟩

/-- The low and the high corner coordinate of a centre x and an extent w under the scaling sc. -/
def lo (sc : EReal → EReal) (x w : EReal) : EReal := sc x - half * w
def hi (sc : EReal → EReal) (x w : EReal) : EReal := sc x + half * w

/-- A length clipped below at zero. -/
def clip0 (x : EReal) : EReal := max zero x

/-- The overlap ratio of two boxes in corner form (x1, y1, x2, y2): the clipped intersection area over the two areas'
    sum less the intersection. -/
def iouOf (a1 a2 a3 a4 b1 b2 b3 b4 : EReal) : EReal :=
  Ideal.div (clip0 (min a3 b3 - max a1 b1) * clip0 (min a4 b4 - max a2 b2))
    ((a3 - a1) * (a4 - a2) + (b3 - b1) * (b4 - b2) - clip0 (min a3 b3 - max a1 b1) * clip0 (min a4 b4 - max a2 b2))

section cell
variable (sc : EReal → EReal) (q : Cell)

/-- The first predicted box in corner form. -/
def p0x1 : EReal := lo sc (q.p 0) (q.p 2)
def p0y1 : EReal := lo sc (q.p 1) (q.p 3)
def p0x2 : EReal := hi sc (q.p 0) (q.p 2)
def p0y2 : EReal := hi sc (q.p 1) (q.p 3)
/-- The second predicted box in corner form. -/
def p1x1 : EReal := lo sc (q.p 5) (q.p 7)
def p1y1 : EReal := lo sc (q.p 6) (q.p 8)
def p1x2 : EReal := hi sc (q.p 5) (q.p 7)
def p1y2 : EReal := hi sc (q.p 6) (q.p 8)
/-- The target box in corner form. -/
def t1x1 : EReal := lo sc (q.b 0) (q.b 2)
def t1y1 : EReal := lo sc (q.b 1) (q.b 3)
def t1x2 : EReal := hi sc (q.b 0) (q.b 2)
def t1y2 : EReal := hi sc (q.b 1) (q.b 3)
/-- The target's corner form read as (x, y, w, h) and put in corner form again. -/
def t2x1 : EReal := lo sc (t1x1 sc q) (t1x2 sc q)
def t2y1 : EReal := lo sc (t1y1 sc q) (t1y2 sc q)
def t2x2 : EReal := hi sc (t1x1 sc q) (t1x2 sc q)
def t2y2 : EReal := hi sc (t1y1 sc q) (t1y2 sc q)

/-- The overlap ratios of the two predicted boxes. -/
def iou0 : EReal :=
  iouOf (p0x1 sc q) (p0y1 sc q) (p0x2 sc q) (p0y2 sc q) (t1x1 sc q) (t1y1 sc q) (t1x2 sc q) (t1y2 sc q)
def iou1 : EReal :=
  iouOf (p1x1 sc q) (p1y1 sc q) (p1x2 sc q) (p1y2 sc q) (t2x1 sc q) (t2y1 sc q) (t2x2 sc q) (t2y2 sc q)
/-- The second box is chosen when its ratio is strictly the larger. -/
def pick : BitVec 1 := Ideal.cmp .ogt (iou1 sc q) (iou0 sc q)
def bestIou : EReal := max (iou0 sc q) (iou1 sc q)
def bestX : EReal := Scalar.select (pick sc q) (p1x1 sc q) (p0x1 sc q)
def bestY : EReal := Scalar.select (pick sc q) (p1y1 sc q) (p0y1 sc q)
def conf : EReal := Scalar.select (pick sc q) (q.p 9) (q.p 4)
/-- The chosen box's low corner less the twice-transformed target's. -/
def dX : EReal := bestX sc q - t2x1 sc q
def dY : EReal := bestY sc q - t2y1 sc q
/-- The chosen confidence less the larger ratio. -/
def dConf : EReal := conf sc q - bestIou sc q

/-- The class error of a cell, in the two spellings. -/
def clsA : EReal := ∑ k : Fin 20, q.m * ((q.p (clsCh k) - q.c k) * (q.p (clsCh k) - q.c k))
def clsB : EReal := ∑ k : Fin 20, q.m * (q.p (clsCh k) - q.c k) * (q.p (clsCh k) - q.c k)
/-- The no-object confidence of a cell. -/
def noobj : EReal := (one - q.m) * (q.p 4 * q.p 4 + q.p 9 * q.p 9)
/-- The corner error of a cell, in the two spellings. -/
def regA : EReal := q.m * (dX sc q * dX sc q) + q.m * (dY sc q * dY sc q)
def regB : EReal := q.m * (dX sc q * dX sc q + dY sc q * dY sc q)
/-- The confidence error of a cell, in the two spellings. -/
def contA : EReal := q.m * (dConf sc q * dConf sc q)
def contB : EReal := q.m * dConf sc q * dConf sc q

end cell

/-! ## The five results -/

/-- The five numbers from the four scaled sums: total, corner, confidence, no-object, class. -/
def five (cl no rg co : EReal) : Fin 5 → EReal
  | ⟨0, _⟩ => ((cl + no) + rg) + co
  | ⟨1, _⟩ => rg
  | ⟨2, _⟩ => co
  | ⟨3, _⟩ => no
  | ⟨4, _⟩ => cl
  | ⟨_ + 5, h⟩ => absurd h (Nat.not_lt.2 (Nat.le_add_left _ _))

/-- First spelling: a sum over all cells from zero, divided by 4096. -/
def allSum (f : Cell → EReal) (cells : Fin NR → Cell) : EReal := Ideal.div (zero + ∑ r : Fin NR, f (cells r)) nBatch

def resultA (cells : Fin NR → Cell) : Fin 5 → EReal :=
  five (allSum clsA cells) (allSum noobj cells) (allSum (regA scaleDiv) cells) (allSum (contA scaleDiv) cells)

/-- The cell at lane l of tile t. -/
abbrev rowOf (t : Fin 196) (l : Fin 4096) : Fin NR := ⟨t.val * 4096 + l.val, by have := t.isLt; have := l.isLt; show _ < 802816; omega⟩
/-- Tile s of half c. -/
abbrev tileOf (c : Fin 2) (s : Fin 98) : Fin 196 := ⟨c.val * 98 + s.val, by have := c.isLt; have := s.isLt; omega⟩

/-- Second spelling: a tile's sum over its 4096 cells, a half's sum over its 98 tiles, divided by 4096. -/
def tileSum (f : Cell → EReal) (cells : Fin NR → Cell) (t : Fin 196) : EReal := ∑ l : Fin 4096, f (cells (rowOf t l))
def halfSum (f : Cell → EReal) (cells : Fin NR → Cell) (c : Fin 2) : EReal :=
  Ideal.div (∑ s : Fin 98, tileSum f cells (tileOf c s)) nBatch

/-- The five numbers of one half. -/
def halfFive (cells : Fin NR → Cell) (c : Fin 2) : Fin 5 → EReal :=
  five (halfSum clsB cells c) (halfSum noobj cells c) (halfSum (regB scaleMul) cells c) (halfSum (contB scaleMul) cells c)

/-- The two halves added, from zero. -/
def resultB (cells : Fin NR → Cell) (k : Fin 5) : EReal := zero + ∑ c : Fin 2, halfFive cells c k

/-! ## The cells of the four arrays -/

/-- Cell r of the grid as an index of a 4096 x 14 x 14 array, and with a channel k of a 4096 x 14 x 14 x C array. -/
abbrev cell3 (r : Fin NR) : (⟨3, ![4096, 14, 14]⟩ : Shape).Idx :=
  ix3 ⟨r.val / 196, by have : r.val < 802816 := r.isLt; omega⟩ ⟨r.val / 14 % 14, Nat.mod_lt _ (by omega)⟩ ⟨r.val % 14, Nat.mod_lt _ (by omega)⟩
abbrev cell4 {C : Nat} (r : Fin NR) (k : Fin C) : (⟨4, ![4096, 14, 14, C]⟩ : Shape).Idx :=
  ix4 ⟨r.val / 196, by have : r.val < 802816 := r.isLt; omega⟩ ⟨r.val / 14 % 14, Nat.mod_lt _ (by omega)⟩ ⟨r.val % 14, Nat.mod_lt _ (by omega)⟩ k

/-- The cells of the four argument arrays: predictions, target boxes, target classes, and the object flags (one bit
    each, read as the real 0 or 1). -/
def cellsOf (x0 : (⟨4, ![4096, 14, 14, 30]⟩ : Shape).Idx → EReal) (x1 : (⟨4, ![4096, 14, 14, 4]⟩ : Shape).Idx → EReal)
    (x2 : (⟨4, ![4096, 14, 14, 20]⟩ : Shape).Idx → EReal) (x3 : (⟨3, ![4096, 14, 14]⟩ : Shape).Idx → BitVec 1)
    (r : Fin NR) : Cell where
  p k := x0 (cell4 r k)
  b k := x1 (cell4 r k)
  c k := x2 (cell4 r k)
  m := (((x3 (cell3 r)).toNat : ℝ) : EReal)

end Cert.LossSpec

end
-- ==== Proof.TileCell.lean ====
/-
  Lane l of a tile as a cell: row l of the tile's four blocks (the 30 predictions, the 4 target numbers, the 20 target
  class scores, and the object flag already read as a real).
-/
import proofs.«420472_j34711925687028_3_alg».proof.Proof.KernelTerms
import proofs.«420472_j34711925687028_3_alg».proof.Proof.Spec
import Idealize.ShloMosaic.Lib.ValueIdx

noncomputable section

namespace Cert.KernelIdeal.Tile

open Idealize.ShloMosaic Idealize.ShloMosaic.ValueIdx Cert.KernelIdeal Cert.KernelIdeal.Gen Cert.LossSpec

variable (x0 : Vec Ideal S4096x30 .f32) (x1 : Vec Ideal S4096x4 .f32) (x2 : Vec Ideal S4096x20 .f32) (x3 : Vec Ideal S4096x1 .f32)

/-- Row l of the four blocks. -/
def tileCell (l : Fin 4096) : Cell where
  p k := x0 (ix2 l k)
  b k := x1 (ix2 l k)
  c k := x2 (ix2 l k)
  m := x3 (ix2 l (0 : Fin 1))

end Cert.KernelIdeal.Tile

end
-- ==== Proof.KernelBlocks.lean ====
/-
  The cells of a tile, read off the four input windows.

  Before the launch the three float arrays are reshaped from 4096 x 14 x 14 x C to 802816 x C and the flags are read as
  reals and reshaped to 802816 x 1: row r of a reshaped array is cell r of the grid.  The window of each array at grid
  point t is the block of rows 4096 t … 4096 t + 4095, so lane l of point t's blocks is cell 4096 t + l.
-/
import proofs.«420472_j34711925687028_3_alg».proof.Proof.Gen.KernelIdeal.Frame
import proofs.«420472_j34711925687028_3_alg».proof.Proof.TileCell
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Tile Cert.LossSpec

variable (m : (ℓ : Loc nD τ sig) → Buf (Elt Ideal) ℓ)

/-- The four argument arrays of core c. -/
abbrev a0 (c : Dev nD) : FVec Ideal S4096x14x14x30 .f32 := m ((c : Thread nD τ).loc main_arg0)
abbrev a1 (c : Dev nD) : FVec Ideal S4096x14x14x4 .f32 := m ((c : Thread nD τ).loc main_arg1)
abbrev a2 (c : Dev nD) : FVec Ideal S4096x14x14x20 .f32 := m ((c : Thread nD τ).loc main_arg2)
abbrev a3 (c : Dev nD) : IVec S4096x14x14 1 := m ((c : Thread nD τ).loc main_arg3)

/-- The four reshaped arrays as the launch finds them. -/
theorem V_v0 (c : Dev nD) : (V m c main_v0 : FVec Ideal S802816x30 .f32)
    = shapeCast S802816x30 (a0 m c) shapeCasts_S4096x14x14x30_S802816x30 := by
  show StableHlo.after hostOps0 (fun b => m (c, b)) (Proc.devRef .tc main_v0) = _
  after_results
  rfl

theorem V_v1 (c : Dev nD) : (V m c main_v1 : FVec Ideal S802816x4 .f32)
    = shapeCast S802816x4 (a1 m c) shapeCasts_S4096x14x14x4_S802816x4 := by
  show StableHlo.after hostOps0 (fun b => m (c, b)) (Proc.devRef .tc main_v1) = _
  after_results
  rfl

theorem V_v2 (c : Dev nD) : (V m c main_v2 : FVec Ideal S802816x20 .f32)
    = shapeCast S802816x20 (a2 m c) shapeCasts_S4096x14x14x20_S802816x20 := by
  show StableHlo.after hostOps0 (fun b => m (c, b)) (Proc.devRef .tc main_v2) = _
  after_results
  rfl

theorem V_v4 (c : Dev nD) : (V m c main_v4 : FVec Ideal S802816x1 .f32)
    = shapeCast S802816x1 (uitofp (F := Ideal) .f32 (a3 m c)) shapeCasts_S4096x14x14_S802816x1 := by
  show StableHlo.after hostOps0 (fun b => m (c, b)) (Proc.devRef .tc main_v4) = _
  after_results
  rfl

/-- Row r, channel k of a reshaped float array is channel k of cell r. -/
theorem cast30_apply (x : FVec Ideal S4096x14x14x30 .f32) (r : Fin NR) (k : Fin 30) :
    shapeCast S802816x30 x shapeCasts_S4096x14x14x30_S802816x30 (ix2 r k) = x (cell4 r k) := by
  refine shapeCast_apply x _ (ix2 r k) (cell4 r k) ?_
  rw [Shape.rowMajor_val_four, Shape.rowMajor_val_two]
  have hr : r.val < 802816 := r.isLt
  show (((r.val / 196) * 14 + r.val / 14 % 14) * 14 + r.val % 14) * 30 + k.val = r.val * 30 + k.val
  omega

theorem cast4_apply (x : FVec Ideal S4096x14x14x4 .f32) (r : Fin NR) (k : Fin 4) :
    shapeCast S802816x4 x shapeCasts_S4096x14x14x4_S802816x4 (ix2 r k) = x (cell4 r k) := by
  refine shapeCast_apply x _ (ix2 r k) (cell4 r k) ?_
  rw [Shape.rowMajor_val_four, Shape.rowMajor_val_two]
  have hr : r.val < 802816 := r.isLt
  show (((r.val / 196) * 14 + r.val / 14 % 14) * 14 + r.val % 14) * 4 + k.val = r.val * 4 + k.val
  omega

theorem cast20_apply (x : FVec Ideal S4096x14x14x20 .f32) (r : Fin NR) (k : Fin 20) :
    shapeCast S802816x20 x shapeCasts_S4096x14x14x20_S802816x20 (ix2 r k) = x (cell4 r k) := by
  refine shapeCast_apply x _ (ix2 r k) (cell4 r k) ?_
  rw [Shape.rowMajor_val_four, Shape.rowMajor_val_two]
  have hr : r.val < 802816 := r.isLt
  show (((r.val / 196) * 14 + r.val / 14 % 14) * 14 + r.val % 14) * 20 + k.val = r.val * 20 + k.val
  omega

/-- Row r of the reshaped flags is the flag of cell r. -/
theorem cast1_apply (x : FVec Ideal S4096x14x14 .f32) (r : Fin NR) :
    shapeCast S802816x1 x shapeCasts_S4096x14x14_S802816x1 (ix2 r (0 : Fin 1)) = x (cell3 r) := by
  refine shapeCast_apply x _ (ix2 r (0 : Fin 1)) (cell3 r) ?_
  rw [Shape.rowMajor_val_three, Shape.rowMajor_val_two]
  have hr : r.val < 802816 := r.isLt
  show ((r.val / 196) * 14 + r.val / 14 % 14) * 14 + r.val % 14 = r.val * 1 + 0
  omega

/-- The grid point as a tile number. -/
abbrev tileNo (t : Fin cfg0.N) : Fin 196 := ⟨t.val, lt_of_lt_of_eq t.isLt N_0⟩

/-- Every window's block index at point t is (t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Lane l, channel k of the prediction block at point t is row 4096 t + l of the reshaped predictions. -/
theorem blk0_apply (c : Dev nD) (t : Fin cfg0.N) (l : Fin 4096) (k : Fin 30) :
    (iblk m c 0 t : Vec Ideal S4096x30 .f32) (ix2 l k) = (V m c main_v0 : FVec Ideal S802816x30 .f32) (ix2 (rowOf (tileNo t) l) k) := by
  unfold iblk
  rw [View.read_apply]
  show V m c main_v0 _ = V m c main_v0 _
  congr 1
  funext a
  apply Fin.ext
  match a with
  | ⟨0, _⟩ => show win0_0.index t 0 * 4096 + 1 * l.val = t.val * 4096 + l.val; rw [(idx_facts t).1.1]; omega
  | ⟨1, _⟩ => show win0_0.index t 1 * 30 + 1 * k.val = k.val; rw [(idx_facts t).1.2]; omega

theorem blk1_apply (c : Dev nD) (t : Fin cfg0.N) (l : Fin 4096) (k : Fin 4) :
    (iblk m c 1 t : Vec Ideal S4096x4 .f32) (ix2 l k) = (V m c main_v1 : FVec Ideal S802816x4 .f32) (ix2 (rowOf (tileNo t) l) k) := by
  unfold iblk
  rw [View.read_apply]
  show V m c main_v1 _ = V m c main_v1 _
  congr 1
  funext a
  apply Fin.ext
  match a with
  | ⟨0, _⟩ => show win0_1.index t 0 * 4096 + 1 * l.val = t.val * 4096 + l.val; rw [(idx_facts t).2.1.1]; omega
  | ⟨1, _⟩ => show win0_1.index t 1 * 4 + 1 * k.val = k.val; rw [(idx_facts t).2.1.2]; omega

theorem blk2_apply (c : Dev nD) (t : Fin cfg0.N) (l : Fin 4096) (k : Fin 20) :
    (iblk m c 2 t : Vec Ideal S4096x20 .f32) (ix2 l k) = (V m c main_v2 : FVec Ideal S802816x20 .f32) (ix2 (rowOf (tileNo t) l) k) := by
  unfold iblk
  rw [View.read_apply]
  show V m c main_v2 _ = V m c main_v2 _
  congr 1
  funext a
  apply Fin.ext
  match a with
  | ⟨0, _⟩ => show win0_2.index t 0 * 4096 + 1 * l.val = t.val * 4096 + l.val; rw [(idx_facts t).2.2.1.1]; omega
  | ⟨1, _⟩ => show win0_2.index t 1 * 20 + 1 * k.val = k.val; rw [(idx_facts t).2.2.1.2]; omega

theorem blk3_apply (c : Dev nD) (t : Fin cfg0.N) (l : Fin 4096) :
    (iblk m c 3 t : Vec Ideal S4096x1 .f32) (ix2 l (0 : Fin 1)) = (V m c main_v4 : FVec Ideal S802816x1 .f32) (ix2 (rowOf (tileNo t) l) (0 : Fin 1)) := by
  unfold iblk
  rw [View.read_apply]
  show V m c main_v4 _ = V m c main_v4 _
  congr 1
  funext a
  apply Fin.ext
  match a with
  | ⟨0, _⟩ => show win0_3.index t 0 * 4096 + 1 * l.val = t.val * 4096 + l.val; rw [(idx_facts t).2.2.2.1]; omega
  | ⟨1, _⟩ => show win0_3.index t 1 * 1 + 1 * 0 = 0; rw [(idx_facts t).2.2.2.2]

/-- The cells of the four arguments. -/
abbrev cells (c : Dev nD) : Fin NR → Cell := cellsOf (a0 m c) (a1 m c) (a2 m c) (a3 m c)

/-- Lane l of point t's blocks is cell 4096 t + l of the arguments. -/
theorem tileCell_iblk (c : Dev nD) (t : Fin cfg0.N) (l : Fin 4096) :
    tileCell (iblk m c 0 t) (iblk m c 1 t) (iblk m c 2 t) (iblk m c 3 t) l = cells m c (rowOf (tileNo t) l) := by
  unfold tileCell cells cellsOf
  congr 1
  · funext k; rw [blk0_apply, V_v0, cast30_apply]
  · funext k; rw [blk1_apply, V_v1, cast4_apply]
  · funext k; rw [blk2_apply, V_v2, cast20_apply]
  · rw [blk3_apply, V_v4, cast1_apply]; rfl

end Cert.KernelIdeal.Blocks

end
-- ==== Proof.KernelTileSums.lean ====
/-
  On the extended reals a grid point adds to the class sum the sum over its tile's 4096 cells of the cell's class
  error, and to the no-object sum that of the cell's no-object confidence; the reset stores zero; and the five numbers a
  half writes out are its four sums divided by 4096, total first.
-/
import proofs.«420472_j34711925687028_3_alg».proof.Proof.TileCell
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen Cert.LossSpec

variable (x0 : Vec Ideal S4096x30 .f32) (x1 : Vec Ideal S4096x4 .f32) (x2 : Vec Ideal S4096x20 .f32) (x3 : Vec Ideal S4096x1 .f32)

/-! ## The blocks read channel-major

A block is transposed so that a channel is a row of 4096 lanes: row k, lane l of the transposed block is entry (l, k)
of the block itself. -/

/-- The predictions, channel-major. -/
private theorem pay5_apply (k : Fin 30) (l : Fin 4096) : k0_pay5 (F := Ideal) x0 (ix2 k l) = x0 (ix2 l k) := by
  unfold k0_pay5
  refine (transpose_ix2_apply _ _ k l).trans ?_
  exact congrFun (shapeCast_self x0 _) (ix2 l k)

/-- The object flags as one row. -/
private theorem pay7_apply (l : Fin 4096) : k0_pay7 (F := Ideal) x3 (ix2 (0 : Fin 1) l) = x3 (ix2 l (0 : Fin 1)) := by
  unfold k0_pay7
  refine (transpose_ix2_apply _ _ (0 : Fin 1) l).trans ?_
  exact congrFun (shapeCast_self x3 _) (ix2 l (0 : Fin 1))

/-- The first box's confidence: channel 4. -/
private theorem pay12_apply (l : Fin 4096) : k0_pay12 (F := Ideal) x0 (ix2 (0 : Fin 1) l) = x0 (ix2 l (4 : Fin 30)) := by
  unfold k0_pay12
  refine (slice2_axis0_apply 4 _ _ (0 : Fin 1) l (4 : Fin 30) rfl).trans ?_
  exact pay5_apply x0 4 l

/-- The second box's confidence: channel 9. -/
private theorem pay17_apply (l : Fin 4096) : k0_pay17 (F := Ideal) x0 (ix2 (0 : Fin 1) l) = x0 (ix2 l (9 : Fin 30)) := by
  unfold k0_pay17
  refine (slice2_axis0_apply 9 _ _ (0 : Fin 1) l (9 : Fin 30) rfl).trans ?_
  exact pay5_apply x0 9 l

/-- The target classes, channel-major: row k, lane l is class score k of cell l. -/
private theorem clsT_apply (k : Fin 20) (l : Fin 4096) :
    transpose S20x4096 [1, 0] (shapeCast S4096x20 x2 shapeCasts_S4096x20_S4096x20) transposes_S4096x20_p1_0_S20x4096 (ix2 k l)
      = x2 (ix2 l k) := by
  refine (transpose_ix2_apply _ _ k l).trans ?_
  exact congrFun (shapeCast_self x2 _) (ix2 l k)

/-- Rows 10 to 29 of the channel-major predictions: row k, lane l is prediction 10 + k of cell l. -/
private theorem predCls_apply (k : Fin 20) (l : Fin 4096) :
    extractStridedSlice S20x4096 ![10, 0] (k0_pay5 (F := Ideal) x0) slices_S30x4096_o10_0_S20x4096 (ix2 k l)
      = x0 (ix2 l (clsCh k)) := by
  refine (slice2_axis0_apply 10 _ _ k l (clsCh k) rfl).trans ?_
  exact pay5_apply x0 (clsCh k) l

/-- The flags' row repeated over the 20 class channels. -/
private theorem flagB_apply (k : Fin 20) (l : Fin 4096) :
    broadcastTo S20x4096 (k0_pay7 (F := Ideal) x3) broadcasts_S1x4096_S20x4096 (ix2 k l) = x3 (ix2 l (0 : Fin 1)) := by
  refine (broadcastTo_1b_ab_apply _ _ k l).trans ?_
  exact pay7_apply x3 l

/-! ## Sums over the lanes

A row of 4096 lanes added up is the sum of its entries; a 20 x 4096 block added up over its channels and then over its
lanes is, lane by lane, the sum over the channels, summed over the lanes: the order of the two sums is the order the
cells' terms are written in, so nothing is exchanged. -/

/-- A row of 4096 lanes summed, then read as a 1 x 1 vector. -/
private theorem laneSum_apply (v : FVec Ideal S1x4096 .f32) (hφ : FKind.Formats .f32)
    (hacc : (0x00000000#32 : BitVec 32) = FKind.add.neutral .f32 hφ) (y : S1x1.Idx) :
    shapeCast S1x1 (multiReduction (F := Ideal) .add [1] S1 v 0x00000000#32 reduces_S1x4096_S1 hφ hacc) shapeCasts_S1_S1x1 y
      = ∑ l : Fin 4096, v (ix2 (0 : Fin 1) l) := by
  obtain ⟨p, q, rfl⟩ : ∃ (p : Fin 1) (q : Fin 1), y = ix2 p q := ⟨y 0, y 1, eq_ix2 y⟩
  refine (shapeCast_a_1a_apply _ _ p q).trans ?_
  refine (Ideal.multiReduction_add_single v 0x00000000#32 reduces_S1x4096_S1 hφ hacc (ix1 q)).trans ?_
  refine Finset.sum_congr rfl fun l _ => congrArg v ?_
  funext a
  match a with
  | ⟨0, _⟩ => exact Fin.ext (by have := q.isLt; show q.val = 0; omega)
  | ⟨1, _⟩ => rfl

/-- A 20 x 4096 block summed over its channels, then over its lanes, read as a 1 x 1 vector. -/
private theorem chanLaneSum_apply (w : FVec Ideal S20x4096 .f32) (hφ : FKind.Formats .f32)
    (hacc : (0x00000000#32 : BitVec 32) = FKind.add.neutral .f32 hφ) (y : S1x1.Idx) :
    shapeCast S1x1 (multiReduction (F := Ideal) .add [1] S1
        (shapeCast S1x4096 (multiReduction (F := Ideal) .add [0] S4096 w 0x00000000#32 reduces_S20x4096_S4096 hφ hacc)
          shapeCasts_S4096_S1x4096) 0x00000000#32 reduces_S1x4096_S1 hφ hacc) shapeCasts_S1_S1x1 y
      = ∑ l : Fin 4096, ∑ k : Fin 20, w (ix2 k l) := by
  refine (laneSum_apply _ hφ hacc y).trans ?_
  refine Finset.sum_congr rfl fun l _ => ?_
  refine (shapeCast_a_1a_apply _ _ (0 : Fin 1) l).trans ?_
  refine (Ideal.multiReduction_add_single w 0x00000000#32 reduces_S20x4096_S4096 hφ hacc (ix1 l)).trans ?_
  refine Finset.sum_congr rfl fun k _ => congrArg w ?_
  funext a
  match a with
  | ⟨0, _⟩ => rfl
  | ⟨1, _⟩ => rfl

/-! ## The two sums a point adds -/

/-- The no-object term of lane l: one less the flag, times the two confidences' squares added. -/
private theorem pay23_apply (l : Fin 4096) :
    k0_pay23 (F := Ideal) x0 x3 (ix2 (0 : Fin 1) l)
      = (LossSpec.one - x3 (ix2 l (0 : Fin 1)))
          * (x0 (ix2 l (4 : Fin 30)) * x0 (ix2 l (4 : Fin 30)) + x0 (ix2 l (9 : Fin 30)) * x0 (ix2 l (9 : Fin 30))) := by
  unfold k0_pay23
  show (Ideal.ofBits .f32 0x3F800000#32 - k0_pay7 (F := Ideal) x3 (ix2 (0 : Fin 1) l))
      * (k0_pay12 (F := Ideal) x0 (ix2 (0 : Fin 1) l) * k0_pay12 (F := Ideal) x0 (ix2 (0 : Fin 1) l)
        + k0_pay17 (F := Ideal) x0 (ix2 (0 : Fin 1) l) * k0_pay17 (F := Ideal) x0 (ix2 (0 : Fin 1) l)) = _
  rw [pay7_apply, pay12_apply, pay17_apply]
  rfl

/-- A row's lane sum as a 1 x 1 vector. -/
private theorem pay24_apply (v : FVec Ideal S1x4096 .f32) (y : S1x1.Idx) :
    k0_pay24 (F := Ideal) v y = ∑ l : Fin 4096, v (ix2 (0 : Fin 1) l) := by
  unfold k0_pay24
  exact laneSum_apply v _ _ y

/-- The tile's class error: over the lanes, over the 20 classes, the flag times the score's error, times the error. -/
private theorem pay22_apply (y : S1x1.Idx) :
    k0_pay22 (F := Ideal) x0 x2 x3 y
      = ∑ l : Fin 4096, ∑ k : Fin 20,
          x3 (ix2 l (0 : Fin 1)) * (x0 (ix2 l (clsCh k)) - x2 (ix2 l k)) * (x0 (ix2 l (clsCh k)) - x2 (ix2 l k)) := by
  unfold k0_pay22
  refine (chanLaneSum_apply _ _ _ y).trans ?_
  refine Finset.sum_congr rfl fun l _ => Finset.sum_congr rfl fun k _ => ?_
  show broadcastTo S20x4096 (k0_pay7 (F := Ideal) x3) broadcasts_S1x4096_S20x4096 (ix2 k l)
      * (extractStridedSlice S20x4096 ![10, 0] (k0_pay5 (F := Ideal) x0) slices_S30x4096_o10_0_S20x4096 (ix2 k l)
        - transpose S20x4096 [1, 0] (shapeCast S4096x20 x2 shapeCasts_S4096x20_S4096x20) transposes_S4096x20_p1_0_S20x4096 (ix2 k l))
      * (extractStridedSlice S20x4096 ![10, 0] (k0_pay5 (F := Ideal) x0) slices_S30x4096_o10_0_S20x4096 (ix2 k l)
        - transpose S20x4096 [1, 0] (shapeCast S4096x20 x2 shapeCasts_S4096x20_S4096x20) transposes_S4096x20_p1_0_S20x4096 (ix2 k l)) = _
  rw [flagB_apply, predCls_apply, clsT_apply]

/-- The class sum after a point: what it held, plus the tile's cells' class errors. -/
theorem accCls_apply (s : Vec Ideal S1x1 .f32) (y : S1x1.Idx) :
    accCls (F := Ideal) x0 x2 x3 s y = s y + ∑ l : Fin 4096, clsB (tileCell x0 x1 x2 x3 l) := by
  unfold accCls k0_pay60
  refine (congrFun (shapeCast_self _ _) y).trans ?_
  show s y + k0_pay22 (F := Ideal) x0 x2 x3 y = _
  rw [pay22_apply]
  rfl

/-- The no-object sum after a point. -/
theorem accNoobj_apply (s : Vec Ideal S1x1 .f32) (y : S1x1.Idx) :
    accNoobj (F := Ideal) x0 x3 s y = s y + ∑ l : Fin 4096, noobj (tileCell x0 x1 x2 x3 l) := by
  unfold accNoobj k0_pay61
  refine (congrFun (shapeCast_self _ _) y).trans ?_
  show s y + k0_pay24 (F := Ideal) (k0_pay23 (F := Ideal) x0 x3) y = _
  rw [pay24_apply]
  exact congrArg (s y + ·) (Finset.sum_congr rfl fun l _ => pay23_apply x0 x3 l)

/-- The reset stores the pattern of zero in each of the four sums. -/
theorem reset_apply (y : S1x1.Idx) :
    k0_pay1 (F := Ideal) y = LossSpec.zero ∧ k0_pay2 (F := Ideal) y = LossSpec.zero
    ∧ k0_pay3 (F := Ideal) y = LossSpec.zero ∧ k0_pay4 (F := Ideal) y = LossSpec.zero := by
  refine ⟨?_, ?_, ?_, ?_⟩
  · unfold k0_pay1
    exact congrFun (shapeCast_self _ _) y
  · unfold k0_pay2
    exact congrFun (shapeCast_self _ _) y
  · unfold k0_pay3
    exact congrFun (shapeCast_self _ _) y
  · unfold k0_pay4
    exact congrFun (shapeCast_self _ _) y

/-! ## The five numbers written out

Five 1 x 1 pieces are laid side by side into a row of five and the row is read as 1 x 1 x 5: entry n is piece n's one
value. -/

/-- The five-piece row, read as 1 x 1 x 5. -/
private theorem cat5_apply (p0 p1 p2 p3 p4 : FVec Ideal S1x1 .f32) (k : Fin 5) :
    shapeCast S1x1x5
        (concatenate S1x5 1 [⟨S1x1, p0⟩, ⟨S1x1, p1⟩, ⟨S1x1, p2⟩, ⟨S1x1, p3⟩, ⟨S1x1, p4⟩]
          concatenates_S1x1_S1x1_S1x1_S1x1_S1x1_S1x5_d1)
        shapeCasts_S1x5_S1x1x5 (ix3 (0 : Fin 1) (0 : Fin 1) k)
      = (match k with
          | ⟨0, _⟩ => p0 | ⟨1, _⟩ => p1 | ⟨2, _⟩ => p2 | ⟨3, _⟩ => p3 | ⟨4, _⟩ => p4
          | ⟨_ + 5, h⟩ => absurd h (Nat.not_lt.2 (Nat.le_add_left _ _))) (ix2 (0 : Fin 1) (0 : Fin 1)) := by
  refine (shapeCast_ab_1ab_apply _ _ (0 : Fin 1) (0 : Fin 1) k).trans ?_
  -- off the axis of concatenation a piece's only coordinate is 0, as the row's is
  have hi : ∀ (j : S1x5.Idx) (b : Fin S1x1.rank), b.cast (rfl : S1x1.rank = S1x5.rank) ≠ (1 : Fin S1x5.rank) →
      ((ix2 (0 : Fin 1) (0 : Fin 1) : S1x1.Idx) b).val = (j (b.cast (rfl : S1x1.rank = S1x5.rank))).val := by
    intro j b hb
    match b with
    | ⟨0, _⟩ => have h0 : (j 0).val < 1 := (j 0).isLt; show 0 = (j 0).val; omega
    | ⟨1, _⟩ => exact absurd rfl hb
  match k with
  | ⟨0, _⟩ =>
    exact concatenate_apply_piece (1 : Fin S1x5.rank) [⟨S1x1, p0⟩, ⟨S1x1, p1⟩, ⟨S1x1, p2⟩, ⟨S1x1, p3⟩, ⟨S1x1, p4⟩] _ _ 0
      (show 0 < 5 by omega) S1x1 p0 rfl rfl 0 rfl (ix2 (0 : Fin 1) (0 : Fin 1)) (hi _) rfl
  | ⟨1, _⟩ =>
    exact concatenate_apply_piece (1 : Fin S1x5.rank) [⟨S1x1, p0⟩, ⟨S1x1, p1⟩, ⟨S1x1, p2⟩, ⟨S1x1, p3⟩, ⟨S1x1, p4⟩] _ _ 1
      (show 1 < 5 by omega) S1x1 p1 rfl rfl 1 rfl (ix2 (0 : Fin 1) (0 : Fin 1)) (hi _) rfl
  | ⟨2, _⟩ =>
    exact concatenate_apply_piece (1 : Fin S1x5.rank) [⟨S1x1, p0⟩, ⟨S1x1, p1⟩, ⟨S1x1, p2⟩, ⟨S1x1, p3⟩, ⟨S1x1, p4⟩] _ _ 2
      (show 2 < 5 by omega) S1x1 p2 rfl rfl 2 rfl (ix2 (0 : Fin 1) (0 : Fin 1)) (hi _) rfl
  | ⟨3, _⟩ =>
    exact concatenate_apply_piece (1 : Fin S1x5.rank) [⟨S1x1, p0⟩, ⟨S1x1, p1⟩, ⟨S1x1, p2⟩, ⟨S1x1, p3⟩, ⟨S1x1, p4⟩] _ _ 3
      (show 3 < 5 by omega) S1x1 p3 rfl rfl 3 rfl (ix2 (0 : Fin 1) (0 : Fin 1)) (hi _) rfl
  | ⟨4, _⟩ =>
    exact concatenate_apply_piece (1 : Fin S1x5.rank) [⟨S1x1, p0⟩, ⟨S1x1, p1⟩, ⟨S1x1, p2⟩, ⟨S1x1, p3⟩, ⟨S1x1, p4⟩] _ _ 4
      (show 4 < 5 by omega) S1x1 p4 rfl rfl 4 rfl (ix2 (0 : Fin 1) (0 : Fin 1)) (hi _) rfl
  | ⟨_ + 5, h⟩ => exact absurd h (Nat.not_lt.2 (Nat.le_add_left _ _))

/-- The five numbers written out: the four sums over 4096, arranged total, corner, confidence, no-object, class. -/
theorem outVec_apply (a b c d : Vec Ideal S1x1 .f32) (k : Fin 5) :
    outVec (F := Ideal) a b c d (ix3 (0 : Fin 1) (0 : Fin 1) k)
      = five (Ideal.div (a (ix2 (0 : Fin 1) (0 : Fin 1))) nBatch) (Ideal.div (b (ix2 (0 : Fin 1) (0 : Fin 1))) nBatch)
          (Ideal.div (c (ix2 (0 : Fin 1) (0 : Fin 1))) nBatch) (Ideal.div (d (ix2 (0 : Fin 1) (0 : Fin 1))) nBatch) k := by
  unfold outVec k0_pay64
  refine (cat5_apply _ _ _ _ _ k).trans ?_
  match k with
  | ⟨0, _⟩ => rfl
  | ⟨1, _⟩ => rfl
  | ⟨2, _⟩ => rfl
  | ⟨3, _⟩ => rfl
  | ⟨4, _⟩ => rfl
  | ⟨_ + 5, h⟩ => exact absurd h (Nat.not_lt.2 (Nat.le_add_left _ _))

end Cert.KernelIdeal.Tile

end
-- ==== Proof.KernelTileBoxes.lean ====
/-
  On the extended reals a grid point adds to the corner sum the sum over its tile's cells of m (dx dx + dy dy), and to the
  confidence sum that of (m d) d, where lane by lane the three boxes are put in corner form with the centre scaled by the
  real one fourteenth, the two overlap ratios are compared, and the box with the strictly larger ratio is chosen.
-/
import proofs.«420472_j34711925687028_3_alg».proof.Proof.TileCell
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Tile

open Idealize.ShloMosaic Idealize.ShloMosaic.ValueIdx Cert.KernelIdeal Cert.KernelIdeal.Gen Cert.LossSpec

variable (x0 : Vec Ideal S4096x30 .f32) (x1 : Vec Ideal S4096x4 .f32) (x2 : Vec Ideal S4096x20 .f32) (x3 : Vec Ideal S4096x1 .f32)

/-! ## The named constant and the channel rows -/

/-- The named reciprocal is the real one fourteenth. -/
private theorem inv14 :
    Named.named (F := Ideal) Cert.KernelIdeal.κ "inv_14" (φ := .f32) 0x3D924925#32 = ((1 / 14 : ℝ) : EReal) :=
  IdealRules.named_const.ideal_named_scalar _ _ _ _ rfl

/-- A number times the named reciprocal is the number scaled. -/
private theorem mul_inv14 (x : EReal) :
    x * Named.named (F := Ideal) Cert.KernelIdeal.κ "inv_14" (φ := .f32) 0x3D924925#32 = scaleMul x :=
  congrArg (x * ·) inv14

/-- The transposed predictions at (k, l) are the block at (l, k). -/
private theorem pay5_apply (k : Fin 30) (l : Fin 4096) : k0_pay5 (F := Ideal) x0 (ix2 k l) = x0 (ix2 l k) := by
  unfold k0_pay5
  refine (transpose_ix2_apply _ _ k l).trans ?_
  rw [shapeCast_self]

/-- The transposed target boxes at (k, l) are the block at (l, k). -/
private theorem pay6_apply (k : Fin 4) (l : Fin 4096) : k0_pay6 (F := Ideal) x1 (ix2 k l) = x1 (ix2 l k) := by
  unfold k0_pay6
  refine (transpose_ix2_apply _ _ k l).trans ?_
  rw [shapeCast_self]

/-- The transposed flags at lane l are the flag of row l. -/
private theorem pay7_apply (l : Fin 4096) :
    k0_pay7 (F := Ideal) x3 (ix2 (0 : Fin 1) l) = (tileCell x0 x1 x2 x3 l).m := by
  unfold k0_pay7
  refine (transpose_ix2_apply _ _ (0 : Fin 1) l).trans ?_
  rw [shapeCast_self]
  rfl

/-- Row o of the transposed predictions, read at lane l, is channel o of row l. -/
private theorem chanP (o : Nat) (h : S30x4096.Slices ![o, 0] S1x4096) (k : Fin 30) (hk : k.val = o) (l : Fin 4096) :
    extractStridedSlice S1x4096 ![o, 0] (k0_pay5 (F := Ideal) x0) h (ix2 (0 : Fin 1) l)
      = (tileCell x0 x1 x2 x3 l).p k :=
  (slice2_axis0_apply o _ h (0 : Fin 1) l k (by rw [hk]; rfl)).trans (pay5_apply x0 k l)

/-- Row o of the transposed target boxes, read at lane l, is channel o of row l. -/
private theorem chanB (o : Nat) (h : S4x4096.Slices ![o, 0] S1x4096) (k : Fin 4) (hk : k.val = o) (l : Fin 4096) :
    extractStridedSlice S1x4096 ![o, 0] (k0_pay6 (F := Ideal) x1) h (ix2 (0 : Fin 1) l)
      = (tileCell x0 x1 x2 x3 l).b k :=
  (slice2_axis0_apply o _ h (0 : Fin 1) l k (by rw [hk]; rfl)).trans (pay6_apply x1 k l)

section lanes
variable (l : Fin 4096)

private theorem p0_lane : k0_pay8 (F := Ideal) x0 (ix2 (0 : Fin 1) l) = (tileCell x0 x1 x2 x3 l).p 0 := chanP x0 x1 x2 x3 0 slices_S30x4096_o0_0_S1x4096 0 rfl l
private theorem p1_lane : k0_pay9 (F := Ideal) x0 (ix2 (0 : Fin 1) l) = (tileCell x0 x1 x2 x3 l).p 1 := chanP x0 x1 x2 x3 1 slices_S30x4096_o1_0_S1x4096 1 rfl l
private theorem p2_lane : k0_pay10 (F := Ideal) x0 (ix2 (0 : Fin 1) l) = (tileCell x0 x1 x2 x3 l).p 2 := chanP x0 x1 x2 x3 2 slices_S30x4096_o2_0_S1x4096 2 rfl l
private theorem p3_lane : k0_pay11 (F := Ideal) x0 (ix2 (0 : Fin 1) l) = (tileCell x0 x1 x2 x3 l).p 3 := chanP x0 x1 x2 x3 3 slices_S30x4096_o3_0_S1x4096 3 rfl l
private theorem p4_lane : k0_pay12 (F := Ideal) x0 (ix2 (0 : Fin 1) l) = (tileCell x0 x1 x2 x3 l).p 4 := chanP x0 x1 x2 x3 4 slices_S30x4096_o4_0_S1x4096 4 rfl l
private theorem p5_lane : k0_pay13 (F := Ideal) x0 (ix2 (0 : Fin 1) l) = (tileCell x0 x1 x2 x3 l).p 5 := chanP x0 x1 x2 x3 5 slices_S30x4096_o5_0_S1x4096 5 rfl l
private theorem p6_lane : k0_pay14 (F := Ideal) x0 (ix2 (0 : Fin 1) l) = (tileCell x0 x1 x2 x3 l).p 6 := chanP x0 x1 x2 x3 6 slices_S30x4096_o6_0_S1x4096 6 rfl l
private theorem p7_lane : k0_pay15 (F := Ideal) x0 (ix2 (0 : Fin 1) l) = (tileCell x0 x1 x2 x3 l).p 7 := chanP x0 x1 x2 x3 7 slices_S30x4096_o7_0_S1x4096 7 rfl l
private theorem p8_lane : k0_pay16 (F := Ideal) x0 (ix2 (0 : Fin 1) l) = (tileCell x0 x1 x2 x3 l).p 8 := chanP x0 x1 x2 x3 8 slices_S30x4096_o8_0_S1x4096 8 rfl l
private theorem p9_lane : k0_pay17 (F := Ideal) x0 (ix2 (0 : Fin 1) l) = (tileCell x0 x1 x2 x3 l).p 9 := chanP x0 x1 x2 x3 9 slices_S30x4096_o9_0_S1x4096 9 rfl l
private theorem b0_lane : k0_pay18 (F := Ideal) x1 (ix2 (0 : Fin 1) l) = (tileCell x0 x1 x2 x3 l).b 0 := chanB x0 x1 x2 x3 0 slices_S4x4096_o0_0_S1x4096 0 rfl l
private theorem b1_lane : k0_pay19 (F := Ideal) x1 (ix2 (0 : Fin 1) l) = (tileCell x0 x1 x2 x3 l).b 1 := chanB x0 x1 x2 x3 1 slices_S4x4096_o1_0_S1x4096 1 rfl l
private theorem b2_lane : k0_pay20 (F := Ideal) x1 (ix2 (0 : Fin 1) l) = (tileCell x0 x1 x2 x3 l).b 2 := chanB x0 x1 x2 x3 2 slices_S4x4096_o2_0_S1x4096 2 rfl l
private theorem b3_lane : k0_pay21 (F := Ideal) x1 (ix2 (0 : Fin 1) l) = (tileCell x0 x1 x2 x3 l).b 3 := chanB x0 x1 x2 x3 3 slices_S4x4096_o3_0_S1x4096 3 rfl l

end lanes

/-! ## The lane-wise arithmetic, over any rows -/

section rows
variable (a b : FVec Ideal S1x4096 .f32) (i : S1x4096.Idx)

/-- Half an extent. -/
private theorem half_25 : k0_pay25 (F := Ideal) a i = half * a i := rfl
private theorem half_26 : k0_pay26 (F := Ideal) a i = half * a i := rfl
private theorem half_33 : k0_pay33 (F := Ideal) a i = half * a i := rfl
private theorem half_34 : k0_pay34 (F := Ideal) a i = half * a i := rfl
private theorem half_41 : k0_pay41 (F := Ideal) a i = half * a i := rfl
private theorem half_42 : k0_pay42 (F := Ideal) a i = half * a i := rfl

/-- A centre coordinate scaled. -/
private theorem scale_27 : k0_pay27 (F := Ideal) a i = scaleMul (a i) := mul_inv14 (a i)
private theorem scale_28 : k0_pay28 (F := Ideal) a i = scaleMul (a i) := mul_inv14 (a i)
private theorem scale_35 : k0_pay35 (F := Ideal) a i = scaleMul (a i) := mul_inv14 (a i)
private theorem scale_36 : k0_pay36 (F := Ideal) a i = scaleMul (a i) := mul_inv14 (a i)
private theorem scale_43 : k0_pay43 (F := Ideal) a i = scaleMul (a i) := mul_inv14 (a i)
private theorem scale_44 : k0_pay44 (F := Ideal) a i = scaleMul (a i) := mul_inv14 (a i)
private theorem scale_52 : k0_pay52 (F := Ideal) a i = scaleMul (a i) := mul_inv14 (a i)

/-- The low and the high corner coordinate of a centre row a and an extent row b. -/
private theorem lo_29 : k0_pay29 (F := Ideal) a b i = lo scaleMul (a i) (b i) := congrArg (· - half * b i) (scale_27 a i)
private theorem lo_30 : k0_pay30 (F := Ideal) a b i = lo scaleMul (a i) (b i) := congrArg (· - half * b i) (scale_28 a i)
private theorem hi_31 : k0_pay31 (F := Ideal) a b i = hi scaleMul (a i) (b i) := congrArg (· + half * b i) (scale_27 a i)
private theorem hi_32 : k0_pay32 (F := Ideal) a b i = hi scaleMul (a i) (b i) := congrArg (· + half * b i) (scale_28 a i)
private theorem lo_37 : k0_pay37 (F := Ideal) a b i = lo scaleMul (a i) (b i) := congrArg (· - half * b i) (scale_35 a i)
private theorem lo_38 : k0_pay38 (F := Ideal) a b i = lo scaleMul (a i) (b i) := congrArg (· - half * b i) (scale_36 a i)
private theorem hi_39 : k0_pay39 (F := Ideal) a b i = hi scaleMul (a i) (b i) := congrArg (· + half * b i) (scale_35 a i)
private theorem hi_40 : k0_pay40 (F := Ideal) a b i = hi scaleMul (a i) (b i) := congrArg (· + half * b i) (scale_36 a i)
private theorem lo_45 : k0_pay45 (F := Ideal) a b i = lo scaleMul (a i) (b i) := congrArg (· - half * b i) (scale_43 a i)
private theorem lo_46 : k0_pay46 (F := Ideal) a b i = lo scaleMul (a i) (b i) := congrArg (· - half * b i) (scale_44 a i)
private theorem hi_47 : k0_pay47 (F := Ideal) a b i = hi scaleMul (a i) (b i) := congrArg (· + half * b i) (scale_43 a i)
private theorem hi_48 : k0_pay48 (F := Ideal) a b i = hi scaleMul (a i) (b i) := congrArg (· + half * b i) (scale_44 a i)

/-- Half the target's high corner, and its low corner scaled. -/
private theorem half_49 : k0_pay49 (F := Ideal) a b i = half * hi scaleMul (a i) (b i) := congrArg (half * ·) (hi_47 a b i)
private theorem half_50 : k0_pay50 (F := Ideal) a b i = half * hi scaleMul (a i) (b i) := congrArg (half * ·) (hi_48 a b i)
private theorem scale_51 : k0_pay51 (F := Ideal) a b i = scaleMul (lo scaleMul (a i) (b i)) :=
  (mul_inv14 (k0_pay45 (F := Ideal) a b i)).trans (congrArg scaleMul (lo_45 a b i))

end rows

section ratios
variable (v54 v55 v56 v57 v66 v67 v68 v69 v78 v79 v80 v81 v83 v85 v87 : FVec Ideal S1x4096 .f32) (i : S1x4096.Idx)

/-- The first overlap ratio is the ratio of the two boxes' corner rows. -/
private theorem iou_55 :
    k0_pay55 (F := Ideal) v54 v55 v56 v57 v78 v79 v80 v81 i
      = iouOf (v54 i) (v55 i) (v56 i) (v57 i) (v78 i) (v79 i) (v80 i) (v81 i) := rfl

/-- The second overlap ratio is taken against the target's corner form put in corner form again. -/
private theorem iou_56 :
    k0_pay56 (F := Ideal) v66 v67 v68 v69 v79 v83 v85 v87 i
      = iouOf (v66 i) (v67 i) (v68 i) (v69 i) (v87 i - v83 i) (scaleMul (v79 i) - v85 i) (v87 i + v83 i)
          (scaleMul (v79 i) + v85 i) := by
  show iouOf (v66 i) (v67 i) (v68 i) (v69 i) (v87 i - v83 i) (k0_pay52 (F := Ideal) v79 i - v85 i) (v87 i + v83 i)
      (k0_pay52 (F := Ideal) v79 i + v85 i) = _
  rw [scale_52]

end ratios

/-! ## A lane against its cell -/

/-- The fifteen rows the geometry reads, at an index, are a cell's corner coordinates: the two predicted boxes', the
    target's, half the target's high corner, and the target's low abscissa scaled. -/
private structure Lane (v54 v55 v56 v57 v66 v67 v68 v69 v78 v79 v80 v81 v83 v85 v87 : FVec Ideal S1x4096 .f32)
    (i : S1x4096.Idx) (q : Cell) : Prop where
  h54 : v54 i = p0x1 scaleMul q
  h55 : v55 i = p0y1 scaleMul q
  h56 : v56 i = p0x2 scaleMul q
  h57 : v57 i = p0y2 scaleMul q
  h66 : v66 i = p1x1 scaleMul q
  h67 : v67 i = p1y1 scaleMul q
  h68 : v68 i = p1x2 scaleMul q
  h69 : v69 i = p1y2 scaleMul q
  h78 : v78 i = t1x1 scaleMul q
  h79 : v79 i = t1y1 scaleMul q
  h80 : v80 i = t1x2 scaleMul q
  h81 : v81 i = t1y2 scaleMul q
  h83 : v83 i = half * t1x2 scaleMul q
  h85 : v85 i = half * t1y2 scaleMul q
  h87 : v87 i = scaleMul (t1x1 scaleMul q)

section lane
variable {v54 v55 v56 v57 v66 v67 v68 v69 v78 v79 v80 v81 v83 v85 v87 : FVec Ideal S1x4096 .f32}
  {i : S1x4096.Idx} {q : Cell} (H : Lane v54 v55 v56 v57 v66 v67 v68 v69 v78 v79 v80 v81 v83 v85 v87 i q)
include H

/-- The first ratio of the lane is the cell's. -/
private theorem iou0_lane : k0_pay55 (F := Ideal) v54 v55 v56 v57 v78 v79 v80 v81 i = iou0 scaleMul q := by
  refine (iou_55 v54 v55 v56 v57 v78 v79 v80 v81 i).trans ?_
  rw [H.h54, H.h55, H.h56, H.h57, H.h78, H.h79, H.h80, H.h81]
  rfl

/-- The second ratio of the lane is the cell's. -/
private theorem iou1_lane : k0_pay56 (F := Ideal) v66 v67 v68 v69 v79 v83 v85 v87 i = iou1 scaleMul q := by
  refine (iou_56 v66 v67 v68 v69 v79 v83 v85 v87 i).trans ?_
  rw [H.h66, H.h67, H.h68, H.h69, H.h79, H.h83, H.h85, H.h87]
  rfl

/-- The larger ratio. -/
private theorem best_lane :
    k0_pay57 (F := Ideal) v54 v55 v56 v57 v66 v67 v68 v69 v78 v79 v80 v81 v83 v85 v87 i = bestIou scaleMul q :=
  congrArg₂ max (iou0_lane H) (iou1_lane H)

/-- The choice: the second box when its ratio is strictly the larger. -/
private theorem pick_lane :
    k0_pay58 (F := Ideal) v54 v55 v56 v57 v66 v67 v68 v69 v78 v79 v80 v81 v83 v85 v87 i = pick scaleMul q :=
  congrArg₂ (Ideal.cmp .ogt) (iou1_lane H) (iou0_lane H)

/-- The chosen low corner less the twice-transformed target's, squared and added over the two coordinates. -/
private theorem sq_lane :
    k0_pay59 (F := Ideal) v54 v55 v56 v57 v66 v67 v68 v69 v78 v79 v80 v81 v83 v85 v87 i
      = dX scaleMul q * dX scaleMul q + dY scaleMul q * dY scaleMul q := by
  have hX : Scalar.select (k0_pay58 (F := Ideal) v54 v55 v56 v57 v66 v67 v68 v69 v78 v79 v80 v81 v83 v85 v87 i) (v66 i) (v54 i)
      - (v87 i - v83 i) = dX scaleMul q := by
    rw [pick_lane H, H.h66, H.h54, H.h87, H.h83]; rfl
  have hY : Scalar.select (k0_pay58 (F := Ideal) v54 v55 v56 v57 v66 v67 v68 v69 v78 v79 v80 v81 v83 v85 v87 i) (v67 i) (v55 i)
      - (k0_pay52 (F := Ideal) v79 i - v85 i) = dY scaleMul q := by
    rw [scale_52, pick_lane H, H.h67, H.h55, H.h79, H.h85]; rfl
  exact congrArg₂ (· + ·) (congrArg₂ (· * ·) hX hX) (congrArg₂ (· * ·) hY hY)

end lane

/-- Lane l of the tile's fifteen rows is cell l of the tile. -/
private theorem lane_tile (l : Fin 4096) :
    Lane (k0_pay29 (F := Ideal) (k0_pay8 x0) (k0_pay10 x0)) (k0_pay30 (k0_pay9 x0) (k0_pay11 x0))
      (k0_pay31 (k0_pay8 x0) (k0_pay10 x0)) (k0_pay32 (k0_pay9 x0) (k0_pay11 x0))
      (k0_pay37 (k0_pay13 x0) (k0_pay15 x0)) (k0_pay38 (k0_pay14 x0) (k0_pay16 x0))
      (k0_pay39 (k0_pay13 x0) (k0_pay15 x0)) (k0_pay40 (k0_pay14 x0) (k0_pay16 x0))
      (k0_pay45 (k0_pay18 x1) (k0_pay20 x1)) (k0_pay46 (k0_pay19 x1) (k0_pay21 x1))
      (k0_pay47 (k0_pay18 x1) (k0_pay20 x1)) (k0_pay48 (k0_pay19 x1) (k0_pay21 x1))
      (k0_pay49 (k0_pay18 x1) (k0_pay20 x1)) (k0_pay50 (k0_pay19 x1) (k0_pay21 x1))
      (k0_pay51 (k0_pay18 x1) (k0_pay20 x1)) (ix2 (0 : Fin 1) l) (tileCell x0 x1 x2 x3 l) where
  h54 := (lo_29 _ _ _).trans (congrArg₂ (lo scaleMul) (p0_lane x0 x1 x2 x3 l) (p2_lane x0 x1 x2 x3 l))
  h55 := (lo_30 _ _ _).trans (congrArg₂ (lo scaleMul) (p1_lane x0 x1 x2 x3 l) (p3_lane x0 x1 x2 x3 l))
  h56 := (hi_31 _ _ _).trans (congrArg₂ (hi scaleMul) (p0_lane x0 x1 x2 x3 l) (p2_lane x0 x1 x2 x3 l))
  h57 := (hi_32 _ _ _).trans (congrArg₂ (hi scaleMul) (p1_lane x0 x1 x2 x3 l) (p3_lane x0 x1 x2 x3 l))
  h66 := (lo_37 _ _ _).trans (congrArg₂ (lo scaleMul) (p5_lane x0 x1 x2 x3 l) (p7_lane x0 x1 x2 x3 l))
  h67 := (lo_38 _ _ _).trans (congrArg₂ (lo scaleMul) (p6_lane x0 x1 x2 x3 l) (p8_lane x0 x1 x2 x3 l))
  h68 := (hi_39 _ _ _).trans (congrArg₂ (hi scaleMul) (p5_lane x0 x1 x2 x3 l) (p7_lane x0 x1 x2 x3 l))
  h69 := (hi_40 _ _ _).trans (congrArg₂ (hi scaleMul) (p6_lane x0 x1 x2 x3 l) (p8_lane x0 x1 x2 x3 l))
  h78 := (lo_45 _ _ _).trans (congrArg₂ (lo scaleMul) (b0_lane x0 x1 x2 x3 l) (b2_lane x0 x1 x2 x3 l))
  h79 := (lo_46 _ _ _).trans (congrArg₂ (lo scaleMul) (b1_lane x0 x1 x2 x3 l) (b3_lane x0 x1 x2 x3 l))
  h80 := (hi_47 _ _ _).trans (congrArg₂ (hi scaleMul) (b0_lane x0 x1 x2 x3 l) (b2_lane x0 x1 x2 x3 l))
  h81 := (hi_48 _ _ _).trans (congrArg₂ (hi scaleMul) (b1_lane x0 x1 x2 x3 l) (b3_lane x0 x1 x2 x3 l))
  h83 := (half_49 _ _ _).trans (congrArg (half * ·) (congrArg₂ (hi scaleMul) (b0_lane x0 x1 x2 x3 l) (b2_lane x0 x1 x2 x3 l)))
  h85 := (half_50 _ _ _).trans (congrArg (half * ·) (congrArg₂ (hi scaleMul) (b1_lane x0 x1 x2 x3 l) (b3_lane x0 x1 x2 x3 l)))
  h87 := (scale_51 _ _ _).trans (congrArg scaleMul (congrArg₂ (lo scaleMul) (b0_lane x0 x1 x2 x3 l) (b2_lane x0 x1 x2 x3 l)))

/-- The three lane-wise rows of the tile, at lane l, are cell l's larger ratio, choice and squared corner distance. -/
private theorem vIou_lane (l : Fin 4096) :
    vIou (F := Ideal) x0 x1 (ix2 (0 : Fin 1) l) = bestIou scaleMul (tileCell x0 x1 x2 x3 l) :=
  best_lane (lane_tile x0 x1 x2 x3 l)

private theorem vPick_lane (l : Fin 4096) :
    vPick (F := Ideal) x0 x1 (ix2 (0 : Fin 1) l) = pick scaleMul (tileCell x0 x1 x2 x3 l) :=
  pick_lane (lane_tile x0 x1 x2 x3 l)

private theorem vSq_lane (l : Fin 4096) :
    vSq (F := Ideal) x0 x1 (ix2 (0 : Fin 1) l)
      = dX scaleMul (tileCell x0 x1 x2 x3 l) * dX scaleMul (tileCell x0 x1 x2 x3 l)
        + dY scaleMul (tileCell x0 x1 x2 x3 l) * dY scaleMul (tileCell x0 x1 x2 x3 l) :=
  sq_lane (lane_tile x0 x1 x2 x3 l)

/-! ## The sums over the lanes -/

/-- Every index of a 1 x 1 vector is (0, 0). -/
private theorem idx11 (y : S1x1.Idx) : y = ix2 (0 : Fin 1) (0 : Fin 1) := by
  funext d
  match d with
  | ⟨0, _⟩ => exact Fin.ext (by have := idx2_lt0 y; show (y 0).val = 0; omega)
  | ⟨1, _⟩ => exact Fin.ext (by have := idx2_lt1 y; show (y 1).val = 0; omega)

/-- The sum over the lanes of a 1 x 4096 row, read as a 1 x 1 vector, is the sum of the row's 4096 entries. -/
private theorem laneSum_apply (v : FVec Ideal S1x4096 .f32) :
    shapeCast S1x1 (multiReduction (F := Ideal) .add [1] S1 v 0x00000000#32 reduces_S1x4096_S1 (.inl rfl) rfl)
      shapeCasts_S1_S1x1 (ix2 (0 : Fin 1) (0 : Fin 1)) = ∑ l : Fin 4096, v (ix2 (0 : Fin 1) l) := by
  refine (shapeCast_a_1a_apply _ _ (0 : Fin 1) (0 : Fin 1)).trans ?_
  refine (Ideal.multiReduction_add_single v _ reduces_S1x4096_S1 _ _ _).trans ?_
  refine Finset.sum_congr rfl fun k _ => congrArg v ?_
  funext d
  match d with
  | ⟨0, _⟩ => exact Fin.ext rfl
  | ⟨1, _⟩ => exact Fin.ext rfl

/-- The corner sum's step over any flag row and any squared-distance row. -/
private theorem pay62_apply (v14 v142 : FVec Ideal S1x4096 .f32) (s : Vec Ideal S1x1 .f32) (y : S1x1.Idx) :
    k0_pay62 (F := Ideal) v14 v142 s y
      = s y + ∑ l : Fin 4096, v14 (ix2 (0 : Fin 1) l) * v142 (ix2 (0 : Fin 1) l) := by
  obtain rfl := idx11 y
  unfold k0_pay62
  refine (congrFun (shapeCast_self _ _) _).trans ?_
  exact congrArg (s (ix2 (0 : Fin 1) (0 : Fin 1)) + ·) (laneSum_apply (mulf v14 v142))

/-- The confidence sum's step over any flag, confidence, ratio and choice rows. -/
private theorem pay63_apply (v14 v19 v24 v134 : FVec Ideal S1x4096 .f32) (v135 : IVec S1x4096 1)
    (s : Vec Ideal S1x1 .f32) (y : S1x1.Idx) :
    k0_pay63 (F := Ideal) v14 v19 v24 v134 v135 s y
      = s y + ∑ l : Fin 4096, v14 (ix2 (0 : Fin 1) l)
          * (Scalar.select (v135 (ix2 (0 : Fin 1) l)) (v24 (ix2 (0 : Fin 1) l)) (v19 (ix2 (0 : Fin 1) l))
              - v134 (ix2 (0 : Fin 1) l))
          * (Scalar.select (v135 (ix2 (0 : Fin 1) l)) (v24 (ix2 (0 : Fin 1) l)) (v19 (ix2 (0 : Fin 1) l))
              - v134 (ix2 (0 : Fin 1) l)) := by
  obtain rfl := idx11 y
  unfold k0_pay63
  refine (congrFun (shapeCast_self _ _) _).trans ?_
  exact congrArg (s (ix2 (0 : Fin 1) (0 : Fin 1)) + ·)
    (laneSum_apply (mulf (mulf v14 (subf (select v135 v24 v19) v134)) (subf (select v135 v24 v19) v134)))

/-- The corner sum after a point: what it held, plus the tile's cells' corner errors. -/
theorem accReg_apply (s : Vec Ideal S1x1 .f32) (y : S1x1.Idx) :
    accReg (F := Ideal) x0 x1 x3 s y = s y + ∑ l : Fin 4096, regB scaleMul (tileCell x0 x1 x2 x3 l) := by
  unfold accReg
  refine (pay62_apply _ _ s y).trans (congrArg (s y + ·) (Finset.sum_congr rfl fun l _ => ?_))
  exact congrArg₂ (· * ·) (pay7_apply x0 x1 x2 x3 l) (vSq_lane x0 x1 x2 x3 l)

/-- The confidence sum after a point. -/
theorem accCont_apply (s : Vec Ideal S1x1 .f32) (y : S1x1.Idx) :
    accCont (F := Ideal) x0 x1 x3 s y = s y + ∑ l : Fin 4096, contB scaleMul (tileCell x0 x1 x2 x3 l) := by
  unfold accCont
  refine (pay63_apply _ _ _ _ _ s y).trans (congrArg (s y + ·) (Finset.sum_congr rfl fun l _ => ?_))
  have hd : Scalar.select (vPick (F := Ideal) x0 x1 (ix2 (0 : Fin 1) l)) (k0_pay17 (F := Ideal) x0 (ix2 (0 : Fin 1) l))
      (k0_pay12 (F := Ideal) x0 (ix2 (0 : Fin 1) l)) - vIou (F := Ideal) x0 x1 (ix2 (0 : Fin 1) l)
        = dConf scaleMul (tileCell x0 x1 x2 x3 l) := by
    rw [vPick_lane x0 x1 x2 x3 l, p9_lane x0 x1 x2 x3 l, p4_lane x0 x1 x2 x3 l, vIou_lane x0 x1 x2 x3 l]
    rfl
  exact congrArg₂ (· * ·) (congrArg₂ (· * ·) (pay7_apply x0 x1 x2 x3 l) hd) hd

end Cert.KernelIdeal.Tile

end
-- ==== Proof.SpecLaws.lean ====
/-
  The two spellings of the five results are the same numbers.

  Scaling: division by fourteen is multiplication by one fourteenth on every extended real.  Cell by cell the class and
  the confidence errors differ by the grouping of a product, and the corner error by the distribution of m over a sum of
  two squares, which are non-negative whatever their argument.  The sum over all 802816 cells is the sum over the two
  halves of the 98 tiles of 4096 cells; division by 4096 is multiplication by a positive real and distributes over the sum
  of the halves; the pattern of zero is zero.
-/
import proofs.«420472_j34711925687028_3_alg».proof.Proof.Spec

noncomputable section

namespace Cert.LossSpec

open Idealize.ShloMosaic

/-! ## The patterns -/

/-- The pattern of fourteen denotes the real 14: exponent field 130, fraction field 6291456, so
    (2^23 + 6291456) * 2^(130 - 127 - 23) = 14680064 / 2^20 = 14. -/
theorem fourteen_eq : fourteen = ((14 : ℝ) : EReal) := by
  unfold fourteen
  simp [Ideal.ofBits, Ideal.ieee, -EReal.coe_mul]; norm_num

/-- The pattern of 4096 denotes the real 4096: exponent field 139, fraction field 0, so 2^23 * 2^(139 - 127 - 23) = 2^12. -/
theorem nBatch_eq : nBatch = ((4096 : ℝ) : EReal) := by
  unfold nBatch
  simp [Ideal.ofBits, Ideal.ieee, -EReal.coe_mul]; norm_num

/-- The pattern of zero denotes zero. -/
theorem zero_eq : zero = 0 := Ideal.ofBits_zero_f32

/-- Division by fourteen and multiplication by one fourteenth agree on every extended real. -/
theorem scaleMul_eq_scaleDiv : scaleMul = scaleDiv := by
  funext x
  unfold scaleMul scaleDiv
  rw [fourteen_eq, Ideal.div_coe (by norm_num)]

/-! ## The per-cell terms -/

/-- A square is non-negative on the extended reals: the squares of both infinities are the upper one. -/
theorem mul_self_nonneg' (d : EReal) : 0 ≤ d * d := by
  induction d using EReal.rec with
  | bot => simp
  | coe r => exact_mod_cast mul_self_nonneg r
  | top => simp

/-- A factor distributes over a sum of two squares. -/
theorem mul_add_squares (m a b : EReal) : m * (a * a + b * b) = m * (a * a) + m * (b * b) :=
  EReal.left_distrib_of_nonneg (mul_self_nonneg' a) (mul_self_nonneg' b)

theorem clsB_eq_clsA : clsB = clsA := by
  funext q
  unfold clsB clsA
  exact Finset.sum_congr rfl (fun k _ => mul_assoc _ _ _)

theorem contB_eq_contA (sc : EReal → EReal) : contB sc = contA sc := by
  funext q
  unfold contB contA
  exact mul_assoc _ _ _

theorem regB_eq_regA (sc : EReal → EReal) : regB sc = regA sc := by
  funext q
  unfold regB regA
  exact mul_add_squares _ _ _

/-! ## The cells in halves, tiles and lanes -/

/-- A half, a tile of it and a lane name one cell, and every cell is so named once. -/
def halfTileLaneEquiv : Fin 2 × Fin 98 × Fin 4096 ≃ Fin NR where
  toFun x := rowOf (tileOf x.1 x.2.1) x.2.2
  invFun r :=
    (⟨r.val / 401408, by have : r.val < 802816 := r.isLt; omega⟩,
     ⟨r.val / 4096 % 98, Nat.mod_lt _ (by omega)⟩,
     ⟨r.val % 4096, Nat.mod_lt _ (by omega)⟩)
  left_inv := by
    rintro ⟨c, s, l⟩
    have hc := c.isLt; have hs := s.isLt; have hl := l.isLt
    refine Prod.ext (Fin.ext ?_) (Prod.ext (Fin.ext ?_) (Fin.ext ?_)) <;> simp only [rowOf, tileOf] <;> omega
  right_inv := by
    intro r
    have : r.val < 802816 := r.isLt
    refine Fin.ext ?_
    simp only [rowOf, tileOf]
    omega

/-- A sum over all cells is the sum over the halves, their tiles and the tiles' lanes. -/
theorem sum_rows_tiles {M : Type*} [AddCommMonoid M] (g : Fin NR → M) :
    ∑ r : Fin NR, g r = ∑ c : Fin 2, ∑ s : Fin 98, ∑ l : Fin 4096, g (rowOf (tileOf c s) l) := by
  rw [← Fintype.sum_equiv halfTileLaneEquiv (fun x => g (halfTileLaneEquiv x)) g (fun _ => rfl), Fintype.sum_prod_type]
  refine Finset.sum_congr rfl (fun c _ => ?_)
  rw [Fintype.sum_prod_type]
  rfl

/-! ## The scaled sums -/

/-- Division by 4096 is multiplication by the real 1/4096. -/
theorem div_nBatch (x : EReal) : Ideal.div x nBatch = x * ((1 / 4096 : ℝ) : EReal) := by
  rw [nBatch_eq, Ideal.div_coe (by norm_num)]

/-- The two halves' scaled sums add to the scaled sum over all cells. -/
theorem halfSum_add (f : Cell → EReal) (cells : Fin NR → Cell) :
    halfSum f cells 0 + halfSum f cells 1 = allSum f cells := by
  unfold halfSum allSum tileSum
  rw [div_nBatch, div_nBatch, div_nBatch, zero_eq, zero_add,
    ← EReal.right_distrib_of_nonneg_of_ne_top (by exact_mod_cast (by norm_num : (0 : ℝ) ≤ 1 / 4096)) (EReal.coe_ne_top _),
    sum_rows_tiles (fun r => f (cells r)), Fin.sum_univ_two]

/-- A rearrangement of eight terms. -/
theorem add8 (a0 b0 c0 d0 a1 b1 c1 d1 : EReal) :
    (((a0 + b0) + c0) + d0) + (((a1 + b1) + c1) + d1) = (((a0 + a1) + (b0 + b1)) + (c0 + c1)) + (d0 + d1) := by
  abel

/-- The two spellings give the same five numbers for any cells. -/
theorem resultB_eq_resultA (cells : Fin NR → Cell) : resultB cells = resultA cells := by
  funext k
  unfold resultB resultA halfFive
  rw [zero_eq, zero_add, Fin.sum_univ_two, clsB_eq_clsA, regB_eq_regA, contB_eq_contA, scaleMul_eq_scaleDiv,
    ← halfSum_add clsA, ← halfSum_add noobj, ← halfSum_add (regA scaleDiv), ← halfSum_add (contA scaleDiv)]
  match k with
  | ⟨0, _⟩ => exact add8 _ _ _ _ _ _ _ _
  | ⟨1, _⟩ => rfl
  | ⟨2, _⟩ => rfl
  | ⟨3, _⟩ => rfl
  | ⟨4, _⟩ => rfl
  | ⟨_ + 5, h⟩ => exact absurd h (by omega)

end Cert.LossSpec

end
-- ==== Proof.RunningSum.lean ====
/-
  The running sum over the tiles of a half, in closed form.

  The tiles are taken in order 0, 1, …, 195; a running sum starts again from zero at the first tile of each half (tiles 0
  and 98) and otherwise adds the tile's sum to what it held.  After the last tile of half c it therefore holds zero plus
  the sum of the 98 tile sums of that half, and the half's scaled sum is that, divided by 4096.
-/
import proofs.«420472_j34711925687028_3_alg».proof.Proof.Spec
import proofs.«420472_j34711925687028_3_alg».proof.Proof.SpecLaws
import Mathlib.Algebra.BigOperators.Fin

noncomputable section

namespace Cert.LossSpec

open Idealize.ShloMosaic

/-- The running sum after tile n of a sequence of tile sums T: started again from zero whenever n is a multiple of 98. -/
def runSum (T : ℕ → EReal) : ℕ → EReal
  | 0 => zero + T 0
  | n + 1 => if (n + 1) % 98 = 0 then zero + T (n + 1) else runSum T n + T (n + 1)

/-- A tile's sum by its number (zero past the last tile). -/
def tileSumN (f : Cell → EReal) (cells : Fin NR → Cell) (t : ℕ) : EReal :=
  if h : t < 196 then tileSum f cells ⟨t, h⟩ else 0

/-- Within half c the running sum after its tile k is zero plus the half's first k + 1 tile sums: at k = 0 the tile's
    number is a multiple of 98 and the sum starts again; at a later tile the number is not a multiple of 98, so the
    tile's sum is added to what was held, and addition is associative. -/
theorem runSum_prefix (T : ℕ → EReal) (c : ℕ) :
    ∀ k, k < 98 → runSum T (c * 98 + k) = zero + ∑ s ∈ Finset.range (k + 1), T (c * 98 + s) := by
  intro k
  induction k with
  | zero =>
    intro _
    rw [Finset.sum_range_one]
    cases c with
    | zero => simp only [Nat.zero_mul, Nat.add_zero, runSum]
    | succ d =>
      obtain ⟨n, hn⟩ : ∃ n, (d + 1) * 98 + 0 = n + 1 := ⟨d * 98 + 97, by omega⟩
      rw [hn, runSum, if_pos (by omega)]
  | succ k ih =>
    intro hk
    have ih' := ih (by omega)
    rw [Finset.sum_range_succ _ (k + 1), ← add_assoc zero, ← ih']
    show runSum T ((c * 98 + k) + 1) = _
    rw [runSum, if_neg (by omega)]
    rfl

/-- After the last tile of half c the running sum is zero plus the half's 98 tile sums. -/
theorem runSum_last (T : ℕ → EReal) (c : ℕ) :
    runSum T (c * 98 + 97) = zero + ∑ s ∈ Finset.range 98, T (c * 98 + s) :=
  runSum_prefix T c 97 (by omega)

/-- So a half's scaled sum is the running sum after its last tile, divided by 4096. -/
theorem halfSum_eq_runSum (f : Cell → EReal) (cells : Fin NR → Cell) (c : Fin 2) :
    halfSum f cells c = Ideal.div (runSum (tileSumN f cells) (c.val * 98 + 97)) nBatch := by
  unfold halfSum
  rw [runSum_last, zero_eq, zero_add, Finset.sum_range]
  congr 1
  refine Finset.sum_congr rfl (fun s _ => ?_)
  have hc := c.isLt
  have hs := s.isLt
  unfold tileSumN
  rw [dif_pos (by omega)]

end Cert.LossSpec

end
-- ==== Proof.KernelInvariant.lean ====
/-
  The four running sums point by point, and what a half writes out.

  After grid point n each of the four 1 x 1 sums holds the specification's running sum of its tile sums: started again
  from zero at the first point of a half, the tile of every point added in order.  By induction on the point: the three
  cases of the body (first point of a half, a middle point, the last point of a half) each add the point's tile to what the
  point before left, or to zero.  At the last point of a half the body also writes the five numbers of the four finished
  sums: the half's sums divided by 4096, total first.
-/
import proofs.«420472_j34711925687028_3_alg».proof.Proof.KernelPieces
import proofs.«420472_j34711925687028_3_alg».proof.Proof.KernelBlocks
import proofs.«420472_j34711925687028_3_alg».proof.Proof.KernelTileSums
import proofs.«420472_j34711925687028_3_alg».proof.Proof.KernelTileBoxes
import proofs.«420472_j34711925687028_3_alg».proof.Proof.RunningSum

set_option maxRecDepth 16384

noncomputable section

namespace Cert.KernelIdeal.Sums

open Idealize.ShloMosaic Idealize.ShloMosaic.TcCoe Idealize.SL.Sem Idealize.ShloMosaic.ValueIdx
open Cert.KernelIdeal Cert.KernelIdeal.Gen Cert.KernelIdeal.Tile Cert.KernelIdeal.Blocks Cert.LossSpec

variable (m : (ℓ : Loc nD τ sig) → Buf (Elt Ideal) ℓ)

/-- What the point before t left (the output block and the four sums). -/
abbrev pv (c : Dev nD) (t : Fin cfg0.N) :=
  outsAt0 m c (t.val - 1) (Nat.lt_of_le_of_lt (Nat.sub_le _ _) t.isLt)

/-! ## One step of each sum in each case -/

theorem stepA_0 (c : Dev nD) (t : Fin cfg0.N) (h0 : t.val % 98 = 0) (h1 : ¬t.val % 98 = 97) :
    (outsAt0 m c t.val t.isLt).2.1 = accCls (iblk m c 0 t) (iblk m c 2 t) (iblk m c 3 t) (k0_pay1 (F := Ideal)) := by
  rw [outsAt0_A m c t h0 h1]
  dsimp only
  exact sumA_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem stepA_1 (c : Dev nD) (t : Fin cfg0.N) (h0 : t.val % 98 = 0) (h1 : ¬t.val % 98 = 97) :
    (outsAt0 m c t.val t.isLt).2.2.1 = accNoobj (iblk m c 0 t) (iblk m c 3 t) (k0_pay2 (F := Ideal)) := by
  rw [outsAt0_A m c t h0 h1]
  dsimp only
  exact sumA_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem stepA_2 (c : Dev nD) (t : Fin cfg0.N) (h0 : t.val % 98 = 0) (h1 : ¬t.val % 98 = 97) :
    (outsAt0 m c t.val t.isLt).2.2.2.1 = accReg (iblk m c 0 t) (iblk m c 1 t) (iblk m c 3 t) (k0_pay3 (F := Ideal)) := by
  rw [outsAt0_A m c t h0 h1]
  dsimp only
  exact sumA_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem stepA_3 (c : Dev nD) (t : Fin cfg0.N) (h0 : t.val % 98 = 0) (h1 : ¬t.val % 98 = 97) :
    (outsAt0 m c t.val t.isLt).2.2.2.2 = accCont (iblk m c 0 t) (iblk m c 1 t) (iblk m c 3 t) (k0_pay4 (F := Ideal)) := by
  rw [outsAt0_A m c t h0 h1]
  dsimp only
  exact sumA_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem stepB_0 (c : Dev nD) (t : Fin cfg0.N) (h0 : ¬t.val % 98 = 0) (h1 : ¬t.val % 98 = 97) :
    (outsAt0 m c t.val t.isLt).2.1 = accCls (iblk m c 0 t) (iblk m c 2 t) (iblk m c 3 t) (pv m c t).2.1 := by
  rw [outsAt0_B m c t h0 h1]
  dsimp only
  exact sumB_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (pv m c t).2.1 (pv m c t).2.2.1 (pv m c t).2.2.2.1 (pv m c t).2.2.2.2

theorem stepB_1 (c : Dev nD) (t : Fin cfg0.N) (h0 : ¬t.val % 98 = 0) (h1 : ¬t.val % 98 = 97) :
    (outsAt0 m c t.val t.isLt).2.2.1 = accNoobj (iblk m c 0 t) (iblk m c 3 t) (pv m c t).2.2.1 := by
  rw [outsAt0_B m c t h0 h1]
  dsimp only
  exact sumB_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (pv m c t).2.1 (pv m c t).2.2.1 (pv m c t).2.2.2.1 (pv m c t).2.2.2.2

theorem stepB_2 (c : Dev nD) (t : Fin cfg0.N) (h0 : ¬t.val % 98 = 0) (h1 : ¬t.val % 98 = 97) :
    (outsAt0 m c t.val t.isLt).2.2.2.1 = accReg (iblk m c 0 t) (iblk m c 1 t) (iblk m c 3 t) (pv m c t).2.2.2.1 := by
  rw [outsAt0_B m c t h0 h1]
  dsimp only
  exact sumB_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (pv m c t).2.1 (pv m c t).2.2.1 (pv m c t).2.2.2.1 (pv m c t).2.2.2.2

theorem stepB_3 (c : Dev nD) (t : Fin cfg0.N) (h0 : ¬t.val % 98 = 0) (h1 : ¬t.val % 98 = 97) :
    (outsAt0 m c t.val t.isLt).2.2.2.2 = accCont (iblk m c 0 t) (iblk m c 1 t) (iblk m c 3 t) (pv m c t).2.2.2.2 := by
  rw [outsAt0_B m c t h0 h1]
  dsimp only
  exact sumB_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (pv m c t).2.1 (pv m c t).2.2.1 (pv m c t).2.2.2.1 (pv m c t).2.2.2.2

theorem stepC_0 (c : Dev nD) (t : Fin cfg0.N) (h0 : ¬t.val % 98 = 0) (h1 : t.val % 98 = 97) :
    (outsAt0 m c t.val t.isLt).2.1 = accCls (iblk m c 0 t) (iblk m c 2 t) (iblk m c 3 t) (pv m c t).2.1 := by
  rw [outsAt0_C m c t h0 h1]
  dsimp only
  exact sumC_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (pv m c t).2.1 (pv m c t).2.2.1 (pv m c t).2.2.2.1 (pv m c t).2.2.2.2

theorem stepC_1 (c : Dev nD) (t : Fin cfg0.N) (h0 : ¬t.val % 98 = 0) (h1 : t.val % 98 = 97) :
    (outsAt0 m c t.val t.isLt).2.2.1 = accNoobj (iblk m c 0 t) (iblk m c 3 t) (pv m c t).2.2.1 := by
  rw [outsAt0_C m c t h0 h1]
  dsimp only
  exact sumC_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (pv m c t).2.1 (pv m c t).2.2.1 (pv m c t).2.2.2.1 (pv m c t).2.2.2.2

theorem stepC_2 (c : Dev nD) (t : Fin cfg0.N) (h0 : ¬t.val % 98 = 0) (h1 : t.val % 98 = 97) :
    (outsAt0 m c t.val t.isLt).2.2.2.1 = accReg (iblk m c 0 t) (iblk m c 1 t) (iblk m c 3 t) (pv m c t).2.2.2.1 := by
  rw [outsAt0_C m c t h0 h1]
  dsimp only
  exact sumC_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (pv m c t).2.1 (pv m c t).2.2.1 (pv m c t).2.2.2.1 (pv m c t).2.2.2.2

theorem stepC_3 (c : Dev nD) (t : Fin cfg0.N) (h0 : ¬t.val % 98 = 0) (h1 : t.val % 98 = 97) :
    (outsAt0 m c t.val t.isLt).2.2.2.2 = accCont (iblk m c 0 t) (iblk m c 1 t) (iblk m c 3 t) (pv m c t).2.2.2.2 := by
  rw [outsAt0_C m c t h0 h1]
  dsimp only
  exact sumC_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (pv m c t).2.1 (pv m c t).2.2.1 (pv m c t).2.2.2.1 (pv m c t).2.2.2.2

/-- The last point of a half writes the five numbers of the sums it has just finished. -/
theorem out_at (c : Dev nD) (t : Fin cfg0.N) (h0 : ¬t.val % 98 = 0) (h1 : t.val % 98 = 97) :
    (outsAt0 m c t.val t.isLt).1
      = outVec (outsAt0 m c t.val t.isLt).2.1 (outsAt0 m c t.val t.isLt).2.2.1 (outsAt0 m c t.val t.isLt).2.2.2.1
          (outsAt0 m c t.val t.isLt).2.2.2.2 := by
  rw [stepC_0 m c t h0 h1, stepC_1 m c t h0 h1, stepC_2 m c t h0 h1, stepC_3 m c t h0 h1, outsAt0_C m c t h0 h1]
  dsimp only
  exact outC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (pv m c t).2.1 (pv m c t).2.2.1 (pv m c t).2.2.2.1 (pv m c t).2.2.2.2

/-! ## The tile of a point -/

/-- The sum over the lanes of point t's blocks is tile t's sum over the arguments' cells. -/
theorem tile_eq (f : Cell → EReal) (c : Dev nD) (t : Fin cfg0.N) :
    ∑ l : Fin 4096, f (tileCell (iblk m c 0 t) (iblk m c 1 t) (iblk m c 2 t) (iblk m c 3 t) l) = tileSumN f (cells m c) t.val := by
  unfold tileSumN
  rw [dif_pos (lt_of_lt_of_eq t.isLt N_0)]
  unfold tileSum
  exact Finset.sum_congr rfl (fun l _ => by rw [tileCell_iblk])

/-- One step of the four sums at a point t, given what they held before (s) or zero. -/
theorem acc_values (c : Dev nD) (t : Fin cfg0.N) (s0 s1 s2 s3 : Vec Ideal S1x1 .f32) (y : S1x1.Idx) :
    accCls (iblk m c 0 t) (iblk m c 2 t) (iblk m c 3 t) s0 y = s0 y + tileSumN clsB (cells m c) t.val
    ∧ accNoobj (iblk m c 0 t) (iblk m c 3 t) s1 y = s1 y + tileSumN noobj (cells m c) t.val
    ∧ accReg (iblk m c 0 t) (iblk m c 1 t) (iblk m c 3 t) s2 y = s2 y + tileSumN (regB scaleMul) (cells m c) t.val
    ∧ accCont (iblk m c 0 t) (iblk m c 1 t) (iblk m c 3 t) s3 y = s3 y + tileSumN (contB scaleMul) (cells m c) t.val := by
  refine ⟨?_, ?_, ?_, ?_⟩
  · rw [accCls_apply (iblk m c 0 t) (iblk m c 1 t) (iblk m c 2 t) (iblk m c 3 t) s0 y, tile_eq]
  · rw [accNoobj_apply (iblk m c 0 t) (iblk m c 1 t) (iblk m c 2 t) (iblk m c 3 t) s1 y, tile_eq]
  · rw [accReg_apply (iblk m c 0 t) (iblk m c 1 t) (iblk m c 2 t) (iblk m c 3 t) s2 y, tile_eq]
  · rw [accCont_apply (iblk m c 0 t) (iblk m c 1 t) (iblk m c 2 t) (iblk m c 3 t) s3 y, tile_eq]

/-! ## The sums after every point -/

theorem runSum_zero (T : ℕ → EReal) : runSum T 0 = LossSpec.zero + T 0 := rfl
theorem runSum_succ_pos (T : ℕ → EReal) (n : ℕ) (h : (n + 1) % 98 = 0) : runSum T (n + 1) = LossSpec.zero + T (n + 1) := by
  rw [runSum, if_pos h]
theorem runSum_succ_neg (T : ℕ → EReal) (n : ℕ) (h : ¬(n + 1) % 98 = 0) : runSum T (n + 1) = runSum T n + T (n + 1) := by
  rw [runSum, if_neg h]

/-- After point n the four sums are the specification's running sums. -/
theorem sums_at (c : Dev nD) : ∀ (n : ℕ) (h : n < cfg0.N) (y : S1x1.Idx),
    (outsAt0 m c n h).2.1 y = runSum (tileSumN clsB (cells m c)) n
    ∧ (outsAt0 m c n h).2.2.1 y = runSum (tileSumN noobj (cells m c)) n
    ∧ (outsAt0 m c n h).2.2.2.1 y = runSum (tileSumN (regB scaleMul) (cells m c)) n
    ∧ (outsAt0 m c n h).2.2.2.2 y = runSum (tileSumN (contB scaleMul) (cells m c)) n
  | 0, h, y => by
    have h0 : (⟨0, h⟩ : Fin cfg0.N).val % 98 = 0 := rfl
    have h1 : ¬(⟨0, h⟩ : Fin cfg0.N).val % 98 = 97 := by show ¬(0 % 98 = 97); decide
    obtain ⟨a0, a1, a2, a3⟩ := acc_values m c ⟨0, h⟩ (k0_pay1 (F := Ideal)) (k0_pay2 (F := Ideal)) (k0_pay3 (F := Ideal)) (k0_pay4 (F := Ideal)) y
    obtain ⟨z0, z1, z2, z3⟩ := reset_apply y
    refine ⟨?_, ?_, ?_, ?_⟩
    · rw [runSum_zero, ← z0, ← a0]; exact congrFun (stepA_0 m c ⟨0, h⟩ h0 h1) y
    · rw [runSum_zero, ← z1, ← a1]; exact congrFun (stepA_1 m c ⟨0, h⟩ h0 h1) y
    · rw [runSum_zero, ← z2, ← a2]; exact congrFun (stepA_2 m c ⟨0, h⟩ h0 h1) y
    · rw [runSum_zero, ← z3, ← a3]; exact congrFun (stepA_3 m c ⟨0, h⟩ h0 h1) y
  | n + 1, h, y => by
    obtain ⟨i0, i1, i2, i3⟩ := sums_at c n (Nat.lt_of_succ_lt h) y
    by_cases h0 : (n + 1) % 98 = 0
    · have h1 : ¬(n + 1) % 98 = 97 := by omega
      obtain ⟨a0, a1, a2, a3⟩ := acc_values m c ⟨n + 1, h⟩ (k0_pay1 (F := Ideal)) (k0_pay2 (F := Ideal)) (k0_pay3 (F := Ideal)) (k0_pay4 (F := Ideal)) y
      obtain ⟨z0, z1, z2, z3⟩ := reset_apply y
      refine ⟨?_, ?_, ?_, ?_⟩
      · rw [runSum_succ_pos _ n h0, ← z0, ← a0]; exact congrFun (stepA_0 m c ⟨n + 1, h⟩ h0 h1) y
      · rw [runSum_succ_pos _ n h0, ← z1, ← a1]; exact congrFun (stepA_1 m c ⟨n + 1, h⟩ h0 h1) y
      · rw [runSum_succ_pos _ n h0, ← z2, ← a2]; exact congrFun (stepA_2 m c ⟨n + 1, h⟩ h0 h1) y
      · rw [runSum_succ_pos _ n h0, ← z3, ← a3]; exact congrFun (stepA_3 m c ⟨n + 1, h⟩ h0 h1) y
    · obtain ⟨a0, a1, a2, a3⟩ := acc_values m c ⟨n + 1, h⟩ (pv m c ⟨n + 1, h⟩).2.1 (pv m c ⟨n + 1, h⟩).2.2.1
        (pv m c ⟨n + 1, h⟩).2.2.2.1 (pv m c ⟨n + 1, h⟩).2.2.2.2 y
      have p0 : (pv m c ⟨n + 1, h⟩).2.1 y = runSum (tileSumN clsB (cells m c)) n := i0
      have p1 : (pv m c ⟨n + 1, h⟩).2.2.1 y = runSum (tileSumN noobj (cells m c)) n := i1
      have p2 : (pv m c ⟨n + 1, h⟩).2.2.2.1 y = runSum (tileSumN (regB scaleMul) (cells m c)) n := i2
      have p3 : (pv m c ⟨n + 1, h⟩).2.2.2.2 y = runSum (tileSumN (contB scaleMul) (cells m c)) n := i3
      by_cases h1 : (n + 1) % 98 = 97
      · refine ⟨?_, ?_, ?_, ?_⟩
        · rw [runSum_succ_neg _ n h0, ← p0, ← a0]; exact congrFun (stepC_0 m c ⟨n + 1, h⟩ h0 h1) y
        · rw [runSum_succ_neg _ n h0, ← p1, ← a1]; exact congrFun (stepC_1 m c ⟨n + 1, h⟩ h0 h1) y
        · rw [runSum_succ_neg _ n h0, ← p2, ← a2]; exact congrFun (stepC_2 m c ⟨n + 1, h⟩ h0 h1) y
        · rw [runSum_succ_neg _ n h0, ← p3, ← a3]; exact congrFun (stepC_3 m c ⟨n + 1, h⟩ h0 h1) y
      · refine ⟨?_, ?_, ?_, ?_⟩
        · rw [runSum_succ_neg _ n h0, ← p0, ← a0]; exact congrFun (stepB_0 m c ⟨n + 1, h⟩ h0 h1) y
        · rw [runSum_succ_neg _ n h0, ← p1, ← a1]; exact congrFun (stepB_1 m c ⟨n + 1, h⟩ h0 h1) y
        · rw [runSum_succ_neg _ n h0, ← p2, ← a2]; exact congrFun (stepB_2 m c ⟨n + 1, h⟩ h0 h1) y
        · rw [runSum_succ_neg _ n h0, ← p3, ← a3]; exact congrFun (stepB_3 m c ⟨n + 1, h⟩ h0 h1) y

/-! ## What a half writes out -/

/-- The half a last point belongs to. -/
abbrev halfOf (t : Fin cfg0.N) : Fin 2 := ⟨t.val / 98, by have := lt_of_lt_of_eq t.isLt N_0; omega⟩

/-- At the last point of a half the output block holds that half's five numbers. -/
theorem half_out (c : Dev nD) (t : Fin cfg0.N) (h1 : t.val % 98 = 97) (k : Fin 5) :
    (outsAt0 m c t.val t.isLt).1 (ix3 (0 : Fin 1) (0 : Fin 1) k) = halfFive (cells m c) (halfOf t) k := by
  have h0 : ¬t.val % 98 = 0 := by omega
  obtain ⟨e0, e1, e2, e3⟩ := sums_at m c t.val t.isLt (ix2 (0 : Fin 1) (0 : Fin 1))
  have ht : (halfOf t).val * 98 + 97 = t.val := by show t.val / 98 * 98 + 97 = t.val; omega
  rw [out_at m c t h0 h1, outVec_apply, e0, e1, e2, e3]
  unfold halfFive
  rw [halfSum_eq_runSum, halfSum_eq_runSum, halfSum_eq_runSum, halfSum_eq_runSum, ht]

end Cert.KernelIdeal.Sums

end
-- ==== Proof.KernelFinal.lean ====
/-
  The kernel's result on the extended reals is the second spelling of the specification.

  The output window's block is row c of the 2 x 1 x 5 output array, written back only after the last point of half c,
  when it holds that half's five numbers; the two write-backs cover the array.  After the launch the array is reshaped to
  2 x 5 and its two rows are added from zero: the five results.
-/
import proofs.«420472_j34711925687028_3_alg».proof.Proof.KernelInvariant
import Idealize.ShloMosaic.Lib.Pipeline.Value
import Idealize.ShloMosaic.Lib.StableHlo.Run
import Idealize.ShloMosaic.PureOps.Ideal.Laws

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Blocks Cert.KernelIdeal.Sums Cert.LossSpec

variable (m : (ℓ : Loc nD τ sig) → Buf (Elt Ideal) ℓ) (ρ : Dev nD → PrngReg)

/-- The output array after the launch: row c holds half c's five numbers. -/
def outArr (c : Dev nD) : FVec Ideal S2x1x5 .f32 := fun i => halfFive (cells m c) (i 0) (i 2)

/-- The output window's block index at point t is (t / 98, 0, 0). -/
theorem idx4_facts : ∀ t : Fin cfg0.N,
    win0_4.index t (0 : Fin 3) = t.val / 98 ∧ win0_4.index t (1 : Fin 3) = 0 ∧ win0_4.index t (2 : Fin 3) = 0 :=
  (by decide +kernel : ∀ t : Fin grid0.N, _)

/-- What the last point of a half writes back is that half's row of the output array. -/
theorem flushed_eq (c : Dev nD) (t : Fin cfg0.N) (hf : (cfg0.win 4).flush t = true) :
    (dats m 0 c).flushed 4 t = ((cfg0.win 4).blk t).view.read (Elt Ideal) (outArr m c) := by
  have h1 : t.val % 98 = 97 := (flush0_4 t).mp hf
  obtain ⟨e0, e1, e2⟩ := idx4_facts t
  show (cfg0.win 4).cut (grid0.coords t) ((dats m 0 c).after 4 t) = _
  rw [after0_4]
  funext y
  have h0 : (y 0).val < 1 := (y 0).isLt
  have h1' : (y 1).val < 1 := (y 1).isLt
  let k : Fin 5 := ⟨(y 2).val, (y 2).isLt⟩
  have hy : (y : S1x1x5.Idx) = ix3 (0 : Fin 1) (0 : Fin 1) k := by
    funext a
    match a with
    | ⟨0, _⟩ => exact Fin.ext (by show (y 0).val = 0; omega)
    | ⟨1, _⟩ => exact Fin.ext (by show (y 1).val = 0; omega)
    | ⟨2, _⟩ => rfl
  show (outsAt0 m c t.val t.isLt).1 y = outArr m c (((cfg0.win 4).blk t).view.emb y)
  refine (congrArg (outsAt0 m c t.val t.isLt).1 hy).trans ?_
  rw [half_out m c t h1 k]
  unfold outArr
  congr 1
  · apply Fin.ext
    show t.val / 98 = win0_4.index t 0 * 1 + 1 * (y 0).val
    rw [e0]; omega
  · apply Fin.ext
    show (y 2).val = win0_4.index t 2 * 5 + 1 * (y 2).val
    rw [e2]; omega

/-- The two write-backs cover the output array. -/
theorem cover (i : S2x1x5.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 5 := (i 2).isLt
  have hN : cfg0.N = 196 := N_0
  let t : Fin cfg0.N := ⟨(i 0).val * 98 + 97, by rw [hN]; omega⟩
  obtain ⟨e0, e1, e2⟩ := idx4_facts t
  have ht : t.val / 98 = (i 0).val := by show ((i 0).val * 98 + 97) / 98 = (i 0).val; omega
  refine ⟨t, (flush0_4 t).mpr (by show ((i 0).val * 98 + 97) % 98 = 97; omega), ?_⟩
  show i ∈ ((View.whole main_v5).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e0, ht]; omega
  | ⟨1, _⟩ =>
    show win0_4.index t 1 * 1 ≤ (i 1).val ∧ (i 1).val < win0_4.index t 1 * 1 + 1
    rw [e1]; omega
  | ⟨2, _⟩ =>
    show win0_4.index t 2 * 5 ≤ (i 2).val ∧ (i 2).val < win0_4.index t 2 * 5 + 5
    rw [e2]; omega

/-- So the output array ends holding each half's five numbers in its row. -/
theorem final (c : Dev nD) : (dats m 0 c).arrAt 4 cfg0.N = outArr m c :=
  (dats m 0 c).arrAt_eq_of_cover 4 (outArr m c) (flushed_eq m c) cover

/-- Row k of the output array, read through the reshape to 2 x 5 at the index the reduction lifts. -/
theorem cast_out (c : Dev nD) (j : S5.Idx) (hR : S2x5.Reduces [0] S5) (k : Fin 2) :
    shapeCast S2x5 (outArr m c) shapeCasts_S2x1x5_S2x5 (hR.lift j k) = halfFive (cells m c) k ⟨(j 0).val, (j 0).isLt⟩ := by
  refine (shapeCast_apply (outArr m c) _ (hR.lift j k) (ix3 k (0 : Fin 1) (⟨(j 0).val, (j 0).isLt⟩ : Fin 5)) ?_).trans rfl
  rw [Shape.rowMajor_val_three, Shape.rowMajor_val_two]
  show (k.val * 1 + 0) * 5 + (j 0).val = k.val * 5 + (j 0).val
  omega

/-- The result after the lines that follow the launch: the two rows added from zero. -/
theorem tail_eq (c : Dev nD) (j : S5.Idx) :
    Pipeline.afterTail₀ cfgs (dats m) 0 (V0 m) [hostOps1] c main_v7 j = resultB (cells m c) (j 0) := by
  have hR : S2x5.Reduces [0] S5 := by decide
  unfold Pipeline.afterTail₀
  show StableHlo.after hostOps1 _ (Proc.devRef .tc main_v7) j = _
  after_results
  rw [show Pipeline.withArrays (cfgs 0).spec c (V0 m c) (fun w => (dats m 0 c).arrAt w (cfgs 0).N) (Proc.devRef .tc main_v5)
      = outArr m c from (Pipeline.withArrays_arr spec0 launch0.win.arr_inj c _ _ 4).trans (final m c)]
  simp only [Host.reduceAdd, Ideal.hostReduceAdd_def]
  rw [Ideal.hostReduceAdd_single reducesTo_S2x5_S5_d0 hR _ _ j]
  show _ + ∑ k : Fin 2, shapeCast S2x5 (outArr m c) shapeCasts_S2x1x5_S2x5 (hR.lift j k) = _
  rw [Fin.sum_univ_two, cast_out m c j hR 0, cast_out m c j hR 1]
  unfold resultB
  rw [Fin.sum_univ_two]
  rfl

/-- The run, read: the result buffer at the second spelling of the specification, the arguments unchanged. -/
theorem run : θ_run defs (onTc (τ := τ) (main (F := Ideal))) ⟨m, fun _ => 0, ρ⟩ fun r => ∀ c : Dev nD,
      r.2.mem ((c.tc : Thread nD τ).loc main_v7) = (fun j => resultB (cells m c) (j 0) : FVec Ideal S5 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (funext fun j => tail_eq m c j),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefBoxes.lean ====
/-
  The reference's four boxes in corner form, read at a cell.

  The reference stacks the four corner coordinates of a box along a last axis of extent four.  At cell r and position k of
  that axis the stacked array holds the k-th corner coordinate of the cell's box: for the two predicted boxes and the
  target box computed from the cell's own numbers by division by fourteen and halving, for the second target box from
  the first target box's corner coordinates read again as centre and extent.
-/
import proofs.«420472_j34711925687028_3_alg».proof.Proof.RefRead
import proofs.«420472_j34711925687028_3_alg».proof.Proof.Spec
import Idealize.ShloMosaic.Lib.ValueIdx
import Idealize.ShloMosaic.Lib.Pipeline.Value

noncomputable section

namespace Cert.RefSide

open Idealize.ShloMosaic Idealize.ShloMosaic.ValueIdx Cert.ReferenceIdeal Cert.ReferenceIdeal.ReadP Cert.LossSpec

variable (x0 : FVec Ideal S4096x14x14x30 .f32) (x1 : FVec Ideal S4096x14x14x4 .f32)
  (x2 : FVec Ideal S4096x14x14x20 .f32) (x3 : IVec S4096x14x14 1)

/-! ## Cells and their grid coordinates

Cell r of the 4096 x 14 x 14 grid has the coordinates r / 196, r / 14 mod 14 and r mod 14; laying them out again in row-major
order gives r back, so dropping or adding a last axis of extent one keeps the cell. -/

private theorem cell_a (n : Nat) : ((n / 196 * 14 + n / 14 % 14) * 14 + n % 14) / 196 = n / 196 := by omega
private theorem cell_b (n : Nat) : ((n / 196 * 14 + n / 14 % 14) * 14 + n % 14) / 14 % 14 = n / 14 % 14 := by omega
private theorem cell_c (n : Nat) : ((n / 196 * 14 + n / 14 % 14) * 14 + n % 14) / 1 % 14 = n % 14 := by omega

/-- Two indices of a four-axis array are equal when their coordinates are: the first three compared through the
    row-major position of the cell, the last one outright. -/
local macro "cell_index " r:term : tactic =>
  `(tactic| exact funext fun a => Fin.ext (by
      match a with
      | ⟨0, _⟩ => exact cell_a (Fin.val $r)
      | ⟨1, _⟩ => exact cell_b (Fin.val $r)
      | ⟨2, _⟩ => exact cell_c (Fin.val $r)
      | ⟨3, _⟩ => rfl))

/-- Dropping the last axis of extent one of cell r at position 0 gives cell r. -/
private theorem drop_unit (r : Fin NR) : idx_main_v50 (cell4 r (0 : Fin 1)) = cell3 r :=
  funext fun a => by match a with | ⟨0, _⟩ => rfl | ⟨1, _⟩ => rfl | ⟨2, _⟩ => rfl

/-! ## A stack of four arrays read at a cell -/

/-- Four arrays with a last axis of extent one, stacked along that axis: at cell r and position k the stack holds the
    k-th array at cell r. -/
private theorem stack4 {α : Type} (y0 y1 y2 y3 : S4096x14x14x1.Idx → α)
    (h : Shape.Concatenates (([⟨S4096x14x14x1, y0⟩, ⟨S4096x14x14x1, y1⟩, ⟨S4096x14x14x1, y2⟩, ⟨S4096x14x14x1, y3⟩] :
      List ((s : Shape) × (s.Idx → α))).map (·.1)) S4096x14x14x4 3) (r : Fin NR) :
    concatenate S4096x14x14x4 3 [⟨S4096x14x14x1, y0⟩, ⟨S4096x14x14x1, y1⟩, ⟨S4096x14x14x1, y2⟩, ⟨S4096x14x14x1, y3⟩] h
        (cell4 r (0 : Fin 4)) = y0 (cell4 r (0 : Fin 1))
    ∧ concatenate S4096x14x14x4 3 [⟨S4096x14x14x1, y0⟩, ⟨S4096x14x14x1, y1⟩, ⟨S4096x14x14x1, y2⟩, ⟨S4096x14x14x1, y3⟩] h
        (cell4 r (1 : Fin 4)) = y1 (cell4 r (0 : Fin 1))
    ∧ concatenate S4096x14x14x4 3 [⟨S4096x14x14x1, y0⟩, ⟨S4096x14x14x1, y1⟩, ⟨S4096x14x14x1, y2⟩, ⟨S4096x14x14x1, y3⟩] h
        (cell4 r (2 : Fin 4)) = y2 (cell4 r (0 : Fin 1))
    ∧ concatenate S4096x14x14x4 3 [⟨S4096x14x14x1, y0⟩, ⟨S4096x14x14x1, y1⟩, ⟨S4096x14x14x1, y2⟩, ⟨S4096x14x14x1, y3⟩] h
        (cell4 r (3 : Fin 4)) = y3 (cell4 r (0 : Fin 1)) := by
  have off : ∀ (k : Fin 4) (b : Fin S4096x14x14x1.rank), b.cast (rfl : S4096x14x14x1.rank = S4096x14x14x4.rank) ≠ 3 →
      ((cell4 r (0 : Fin 1) : S4096x14x14x1.Idx) b).val
        = ((cell4 r k : S4096x14x14x4.Idx) (b.cast (rfl : S4096x14x14x1.rank = S4096x14x14x4.rank))).val := by
    intro k b hb
    match b, hb with
    | ⟨0, _⟩, _ => rfl
    | ⟨1, _⟩, _ => rfl
    | ⟨2, _⟩, _ => rfl
    | ⟨3, _⟩, hb => exact absurd (Fin.ext rfl) hb
  refine ⟨?_, ?_, ?_, ?_⟩
  · exact concatenate_apply_piece 3 _ h (cell4 r (0 : Fin 4)) 0 (show 0 < 4 by decide) S4096x14x14x1 y0 rfl rfl 0 rfl
      (cell4 r (0 : Fin 1)) (off 0) rfl
  · exact concatenate_apply_piece 3 _ h (cell4 r (1 : Fin 4)) 1 (show 1 < 4 by decide) S4096x14x14x1 y1 rfl rfl 1 rfl
      (cell4 r (0 : Fin 1)) (off 1) rfl
  · exact concatenate_apply_piece 3 _ h (cell4 r (2 : Fin 4)) 2 (show 2 < 4 by decide) S4096x14x14x1 y2 rfl rfl 2 rfl
      (cell4 r (0 : Fin 1)) (off 2) rfl
  · exact concatenate_apply_piece 3 _ h (cell4 r (3 : Fin 4)) 3 (show 3 < 4 by decide) S4096x14x14x1 y3 rfl rfl 3 rfl
      (cell4 r (0 : Fin 1)) (off 3) rfl

/-! ## The first predicted box

Its centre (x, y) and extent (w, h) at cell r are channels 0 to 3 of the predictions. -/

private theorem p0_c0 (r : Fin NR) : val_main_v23 (F := Ideal) x0 (cell3 r) = x0 (cell4 r (0 : Fin 30)) := by
  have e : idx_main_v21 (idx_main_v22 (idx_main_v23 (cell3 r))) = cell4 r (0 : Fin 30) := by cell_index r
  rw [val_main_v23_apply, val_main_v22_apply, val_main_v21_apply, e]
private theorem p0_c1 (r : Fin NR) : val_main_v25 (F := Ideal) x0 (cell3 r) = x0 (cell4 r (1 : Fin 30)) := by
  have e : idx_main_v21 (idx_main_v24 (idx_main_v25 (cell3 r))) = cell4 r (1 : Fin 30) := by cell_index r
  rw [val_main_v25_apply, val_main_v24_apply, val_main_v21_apply, e]
private theorem p0_c2 (r : Fin NR) : val_main_v27 (F := Ideal) x0 (cell3 r) = x0 (cell4 r (2 : Fin 30)) := by
  have e : idx_main_v21 (idx_main_v26 (idx_main_v27 (cell3 r))) = cell4 r (2 : Fin 30) := by cell_index r
  rw [val_main_v27_apply, val_main_v26_apply, val_main_v21_apply, e]
private theorem p0_c3 (r : Fin NR) : val_main_v29 (F := Ideal) x0 (cell3 r) = x0 (cell4 r (3 : Fin 30)) := by
  have e : idx_main_v21 (idx_main_v28 (idx_main_v29 (cell3 r))) = cell4 r (3 : Fin 30) := by cell_index r
  rw [val_main_v29_apply, val_main_v28_apply, val_main_v21_apply, e]

/-- The low corner: a centre coordinate over fourteen less half the extent. -/
private theorem p0_lo_x (r : Fin NR) :
    val_main_v34 (F := Ideal) x0 (cell3 r) = lo scaleDiv (x0 (cell4 r (0 : Fin 30))) (x0 (cell4 r (2 : Fin 30))) := by
  rw [val_main_v34_apply, val_main_v31_apply, val_main_v33_apply, val_main_v30_apply, val_main_cst_4_apply,
    val_main_v32_apply, val_main_cst_5_apply, p0_c0, p0_c2]
  rfl
private theorem p0_lo_y (r : Fin NR) :
    val_main_v39 (F := Ideal) x0 (cell3 r) = lo scaleDiv (x0 (cell4 r (1 : Fin 30))) (x0 (cell4 r (3 : Fin 30))) := by
  rw [val_main_v39_apply, val_main_v36_apply, val_main_v38_apply, val_main_v35_apply, val_main_cst_6_apply,
    val_main_v37_apply, val_main_cst_7_apply, p0_c1, p0_c3]
  rfl
/-- The high corner: a centre coordinate over fourteen plus half the extent. -/
private theorem p0_hi_x (r : Fin NR) :
    val_main_v44 (F := Ideal) x0 (cell3 r) = hi scaleDiv (x0 (cell4 r (0 : Fin 30))) (x0 (cell4 r (2 : Fin 30))) := by
  rw [val_main_v44_apply, val_main_v41_apply, val_main_v43_apply, val_main_v40_apply, val_main_cst_8_apply,
    val_main_v42_apply, val_main_cst_9_apply, p0_c0, p0_c2]
  rfl
private theorem p0_hi_y (r : Fin NR) :
    val_main_v49 (F := Ideal) x0 (cell3 r) = hi scaleDiv (x0 (cell4 r (1 : Fin 30))) (x0 (cell4 r (3 : Fin 30))) := by
  rw [val_main_v49_apply, val_main_v46_apply, val_main_v48_apply, val_main_v45_apply, val_main_cst_10_apply,
    val_main_v47_apply, val_main_cst_11_apply, p0_c1, p0_c3]
  rfl

/-- The stacked box at position k is the k-th corner coordinate. -/
private theorem p0_k0 (r : Fin NR) :
    val_main_v54 (F := Ideal) x0 (cell4 r (0 : Fin 4))
      = lo scaleDiv (x0 (cell4 r (0 : Fin 30))) (x0 (cell4 r (2 : Fin 30))) := by
  unfold val_main_v54
  refine ((stack4 _ _ _ _ _ r).1).trans ?_
  rw [val_main_v50_apply]
  exact (congrArg (val_main_v34 (F := Ideal) x0) (drop_unit r)).trans (p0_lo_x x0 r)
private theorem p0_k1 (r : Fin NR) :
    val_main_v54 (F := Ideal) x0 (cell4 r (1 : Fin 4))
      = lo scaleDiv (x0 (cell4 r (1 : Fin 30))) (x0 (cell4 r (3 : Fin 30))) := by
  unfold val_main_v54
  refine ((stack4 _ _ _ _ _ r).2.1).trans ?_
  rw [val_main_v51_apply]
  exact (congrArg (val_main_v39 (F := Ideal) x0) (drop_unit r)).trans (p0_lo_y x0 r)
private theorem p0_k2 (r : Fin NR) :
    val_main_v54 (F := Ideal) x0 (cell4 r (2 : Fin 4))
      = hi scaleDiv (x0 (cell4 r (0 : Fin 30))) (x0 (cell4 r (2 : Fin 30))) := by
  unfold val_main_v54
  refine ((stack4 _ _ _ _ _ r).2.2.1).trans ?_
  rw [val_main_v52_apply]
  exact (congrArg (val_main_v44 (F := Ideal) x0) (drop_unit r)).trans (p0_hi_x x0 r)
private theorem p0_k3 (r : Fin NR) :
    val_main_v54 (F := Ideal) x0 (cell4 r (3 : Fin 4))
      = hi scaleDiv (x0 (cell4 r (1 : Fin 30))) (x0 (cell4 r (3 : Fin 30))) := by
  unfold val_main_v54
  refine ((stack4 _ _ _ _ _ r).2.2.2).trans ?_
  rw [val_main_v53_apply]
  exact (congrArg (val_main_v49 (F := Ideal) x0) (drop_unit r)).trans (p0_hi_y x0 r)

/-- The first predicted box: corner coordinate k of cell r. -/
theorem p0_at (r : Fin NR) :
    val_main_v54 (F := Ideal) x0 (cell4 r (0 : Fin 4)) = p0x1 scaleDiv (cellsOf x0 x1 x2 x3 r)
    ∧ val_main_v54 (F := Ideal) x0 (cell4 r (1 : Fin 4)) = p0y1 scaleDiv (cellsOf x0 x1 x2 x3 r)
    ∧ val_main_v54 (F := Ideal) x0 (cell4 r (2 : Fin 4)) = p0x2 scaleDiv (cellsOf x0 x1 x2 x3 r)
    ∧ val_main_v54 (F := Ideal) x0 (cell4 r (3 : Fin 4)) = p0y2 scaleDiv (cellsOf x0 x1 x2 x3 r) :=
  ⟨p0_k0 x0 r, p0_k1 x0 r, p0_k2 x0 r, p0_k3 x0 r⟩

/-! ## The second predicted box

Its centre and extent at cell r are channels 5 to 8 of the predictions. -/

private theorem p1_c0 (r : Fin NR) : val_main_v57 (F := Ideal) x0 (cell3 r) = x0 (cell4 r (5 : Fin 30)) := by
  have e : idx_main_v55 (idx_main_v56 (idx_main_v57 (cell3 r))) = cell4 r (5 : Fin 30) := by cell_index r
  rw [val_main_v57_apply, val_main_v56_apply, val_main_v55_apply, e]
private theorem p1_c1 (r : Fin NR) : val_main_v59 (F := Ideal) x0 (cell3 r) = x0 (cell4 r (6 : Fin 30)) := by
  have e : idx_main_v55 (idx_main_v58 (idx_main_v59 (cell3 r))) = cell4 r (6 : Fin 30) := by cell_index r
  rw [val_main_v59_apply, val_main_v58_apply, val_main_v55_apply, e]
private theorem p1_c2 (r : Fin NR) : val_main_v61 (F := Ideal) x0 (cell3 r) = x0 (cell4 r (7 : Fin 30)) := by
  have e : idx_main_v55 (idx_main_v60 (idx_main_v61 (cell3 r))) = cell4 r (7 : Fin 30) := by cell_index r
  rw [val_main_v61_apply, val_main_v60_apply, val_main_v55_apply, e]
private theorem p1_c3 (r : Fin NR) : val_main_v63 (F := Ideal) x0 (cell3 r) = x0 (cell4 r (8 : Fin 30)) := by
  have e : idx_main_v55 (idx_main_v62 (idx_main_v63 (cell3 r))) = cell4 r (8 : Fin 30) := by cell_index r
  rw [val_main_v63_apply, val_main_v62_apply, val_main_v55_apply, e]

private theorem p1_lo_x (r : Fin NR) :
    val_main_v68 (F := Ideal) x0 (cell3 r) = lo scaleDiv (x0 (cell4 r (5 : Fin 30))) (x0 (cell4 r (7 : Fin 30))) := by
  rw [val_main_v68_apply, val_main_v65_apply, val_main_v67_apply, val_main_v64_apply, val_main_cst_12_apply,
    val_main_v66_apply, val_main_cst_13_apply, p1_c0, p1_c2]
  rfl
private theorem p1_lo_y (r : Fin NR) :
    val_main_v73 (F := Ideal) x0 (cell3 r) = lo scaleDiv (x0 (cell4 r (6 : Fin 30))) (x0 (cell4 r (8 : Fin 30))) := by
  rw [val_main_v73_apply, val_main_v70_apply, val_main_v72_apply, val_main_v69_apply, val_main_cst_14_apply,
    val_main_v71_apply, val_main_cst_15_apply, p1_c1, p1_c3]
  rfl
private theorem p1_hi_x (r : Fin NR) :
    val_main_v78 (F := Ideal) x0 (cell3 r) = hi scaleDiv (x0 (cell4 r (5 : Fin 30))) (x0 (cell4 r (7 : Fin 30))) := by
  rw [val_main_v78_apply, val_main_v75_apply, val_main_v77_apply, val_main_v74_apply, val_main_cst_16_apply,
    val_main_v76_apply, val_main_cst_17_apply, p1_c0, p1_c2]
  rfl
private theorem p1_hi_y (r : Fin NR) :
    val_main_v83 (F := Ideal) x0 (cell3 r) = hi scaleDiv (x0 (cell4 r (6 : Fin 30))) (x0 (cell4 r (8 : Fin 30))) := by
  rw [val_main_v83_apply, val_main_v80_apply, val_main_v82_apply, val_main_v79_apply, val_main_cst_18_apply,
    val_main_v81_apply, val_main_cst_19_apply, p1_c1, p1_c3]
  rfl

private theorem p1_k0 (r : Fin NR) :
    val_main_v88 (F := Ideal) x0 (cell4 r (0 : Fin 4))
      = lo scaleDiv (x0 (cell4 r (5 : Fin 30))) (x0 (cell4 r (7 : Fin 30))) := by
  unfold val_main_v88
  refine ((stack4 _ _ _ _ _ r).1).trans ?_
  rw [val_main_v84_apply]
  exact (congrArg (val_main_v68 (F := Ideal) x0) (drop_unit r)).trans (p1_lo_x x0 r)
private theorem p1_k1 (r : Fin NR) :
    val_main_v88 (F := Ideal) x0 (cell4 r (1 : Fin 4))
      = lo scaleDiv (x0 (cell4 r (6 : Fin 30))) (x0 (cell4 r (8 : Fin 30))) := by
  unfold val_main_v88
  refine ((stack4 _ _ _ _ _ r).2.1).trans ?_
  rw [val_main_v85_apply]
  exact (congrArg (val_main_v73 (F := Ideal) x0) (drop_unit r)).trans (p1_lo_y x0 r)
private theorem p1_k2 (r : Fin NR) :
    val_main_v88 (F := Ideal) x0 (cell4 r (2 : Fin 4))
      = hi scaleDiv (x0 (cell4 r (5 : Fin 30))) (x0 (cell4 r (7 : Fin 30))) := by
  unfold val_main_v88
  refine ((stack4 _ _ _ _ _ r).2.2.1).trans ?_
  rw [val_main_v86_apply]
  exact (congrArg (val_main_v78 (F := Ideal) x0) (drop_unit r)).trans (p1_hi_x x0 r)
private theorem p1_k3 (r : Fin NR) :
    val_main_v88 (F := Ideal) x0 (cell4 r (3 : Fin 4))
      = hi scaleDiv (x0 (cell4 r (6 : Fin 30))) (x0 (cell4 r (8 : Fin 30))) := by
  unfold val_main_v88
  refine ((stack4 _ _ _ _ _ r).2.2.2).trans ?_
  rw [val_main_v87_apply]
  exact (congrArg (val_main_v83 (F := Ideal) x0) (drop_unit r)).trans (p1_hi_y x0 r)

/-- The second predicted box. -/
theorem p1_at (r : Fin NR) :
    val_main_v88 (F := Ideal) x0 (cell4 r (0 : Fin 4)) = p1x1 scaleDiv (cellsOf x0 x1 x2 x3 r)
    ∧ val_main_v88 (F := Ideal) x0 (cell4 r (1 : Fin 4)) = p1y1 scaleDiv (cellsOf x0 x1 x2 x3 r)
    ∧ val_main_v88 (F := Ideal) x0 (cell4 r (2 : Fin 4)) = p1x2 scaleDiv (cellsOf x0 x1 x2 x3 r)
    ∧ val_main_v88 (F := Ideal) x0 (cell4 r (3 : Fin 4)) = p1y2 scaleDiv (cellsOf x0 x1 x2 x3 r) :=
  ⟨p1_k0 x0 r, p1_k1 x0 r, p1_k2 x0 r, p1_k3 x0 r⟩

/-! ## The target box

Its centre and extent at cell r are the four channels of the target boxes. -/

private theorem t1_c0 (r : Fin NR) : val_main_v90 (F := Ideal) x1 (cell3 r) = x1 (cell4 r (0 : Fin 4)) := by
  have e : idx_main_v89 (idx_main_v90 (cell3 r)) = cell4 r (0 : Fin 4) := by cell_index r
  rw [val_main_v90_apply, val_main_v89_apply, e]
private theorem t1_c1 (r : Fin NR) : val_main_v92 (F := Ideal) x1 (cell3 r) = x1 (cell4 r (1 : Fin 4)) := by
  have e : idx_main_v91 (idx_main_v92 (cell3 r)) = cell4 r (1 : Fin 4) := by cell_index r
  rw [val_main_v92_apply, val_main_v91_apply, e]
private theorem t1_c2 (r : Fin NR) : val_main_v94 (F := Ideal) x1 (cell3 r) = x1 (cell4 r (2 : Fin 4)) := by
  have e : idx_main_v93 (idx_main_v94 (cell3 r)) = cell4 r (2 : Fin 4) := by cell_index r
  rw [val_main_v94_apply, val_main_v93_apply, e]
private theorem t1_c3 (r : Fin NR) : val_main_v96 (F := Ideal) x1 (cell3 r) = x1 (cell4 r (3 : Fin 4)) := by
  have e : idx_main_v95 (idx_main_v96 (cell3 r)) = cell4 r (3 : Fin 4) := by cell_index r
  rw [val_main_v96_apply, val_main_v95_apply, e]

private theorem t1_lo_x (r : Fin NR) :
    val_main_v101 (F := Ideal) x1 (cell3 r) = lo scaleDiv (x1 (cell4 r (0 : Fin 4))) (x1 (cell4 r (2 : Fin 4))) := by
  rw [val_main_v101_apply, val_main_v98_apply, val_main_v100_apply, val_main_v97_apply, val_main_cst_20_apply,
    val_main_v99_apply, val_main_cst_21_apply, t1_c0, t1_c2]
  rfl
private theorem t1_lo_y (r : Fin NR) :
    val_main_v106 (F := Ideal) x1 (cell3 r) = lo scaleDiv (x1 (cell4 r (1 : Fin 4))) (x1 (cell4 r (3 : Fin 4))) := by
  rw [val_main_v106_apply, val_main_v103_apply, val_main_v105_apply, val_main_v102_apply, val_main_cst_22_apply,
    val_main_v104_apply, val_main_cst_23_apply, t1_c1, t1_c3]
  rfl
private theorem t1_hi_x (r : Fin NR) :
    val_main_v111 (F := Ideal) x1 (cell3 r) = hi scaleDiv (x1 (cell4 r (0 : Fin 4))) (x1 (cell4 r (2 : Fin 4))) := by
  rw [val_main_v111_apply, val_main_v108_apply, val_main_v110_apply, val_main_v107_apply, val_main_cst_24_apply,
    val_main_v109_apply, val_main_cst_25_apply, t1_c0, t1_c2]
  rfl
private theorem t1_hi_y (r : Fin NR) :
    val_main_v116 (F := Ideal) x1 (cell3 r) = hi scaleDiv (x1 (cell4 r (1 : Fin 4))) (x1 (cell4 r (3 : Fin 4))) := by
  rw [val_main_v116_apply, val_main_v113_apply, val_main_v115_apply, val_main_v112_apply, val_main_cst_26_apply,
    val_main_v114_apply, val_main_cst_27_apply, t1_c1, t1_c3]
  rfl

private theorem t1_k0 (r : Fin NR) :
    val_main_v121 (F := Ideal) x1 (cell4 r (0 : Fin 4))
      = lo scaleDiv (x1 (cell4 r (0 : Fin 4))) (x1 (cell4 r (2 : Fin 4))) := by
  unfold val_main_v121
  refine ((stack4 _ _ _ _ _ r).1).trans ?_
  rw [val_main_v117_apply]
  exact (congrArg (val_main_v101 (F := Ideal) x1) (drop_unit r)).trans (t1_lo_x x1 r)
private theorem t1_k1 (r : Fin NR) :
    val_main_v121 (F := Ideal) x1 (cell4 r (1 : Fin 4))
      = lo scaleDiv (x1 (cell4 r (1 : Fin 4))) (x1 (cell4 r (3 : Fin 4))) := by
  unfold val_main_v121
  refine ((stack4 _ _ _ _ _ r).2.1).trans ?_
  rw [val_main_v118_apply]
  exact (congrArg (val_main_v106 (F := Ideal) x1) (drop_unit r)).trans (t1_lo_y x1 r)
private theorem t1_k2 (r : Fin NR) :
    val_main_v121 (F := Ideal) x1 (cell4 r (2 : Fin 4))
      = hi scaleDiv (x1 (cell4 r (0 : Fin 4))) (x1 (cell4 r (2 : Fin 4))) := by
  unfold val_main_v121
  refine ((stack4 _ _ _ _ _ r).2.2.1).trans ?_
  rw [val_main_v119_apply]
  exact (congrArg (val_main_v111 (F := Ideal) x1) (drop_unit r)).trans (t1_hi_x x1 r)
private theorem t1_k3 (r : Fin NR) :
    val_main_v121 (F := Ideal) x1 (cell4 r (3 : Fin 4))
      = hi scaleDiv (x1 (cell4 r (1 : Fin 4))) (x1 (cell4 r (3 : Fin 4))) := by
  unfold val_main_v121
  refine ((stack4 _ _ _ _ _ r).2.2.2).trans ?_
  rw [val_main_v120_apply]
  exact (congrArg (val_main_v116 (F := Ideal) x1) (drop_unit r)).trans (t1_hi_y x1 r)

/-- The target box. -/
theorem t1_at (r : Fin NR) :
    val_main_v121 (F := Ideal) x1 (cell4 r (0 : Fin 4)) = t1x1 scaleDiv (cellsOf x0 x1 x2 x3 r)
    ∧ val_main_v121 (F := Ideal) x1 (cell4 r (1 : Fin 4)) = t1y1 scaleDiv (cellsOf x0 x1 x2 x3 r)
    ∧ val_main_v121 (F := Ideal) x1 (cell4 r (2 : Fin 4)) = t1x2 scaleDiv (cellsOf x0 x1 x2 x3 r)
    ∧ val_main_v121 (F := Ideal) x1 (cell4 r (3 : Fin 4)) = t1y2 scaleDiv (cellsOf x0 x1 x2 x3 r) :=
  ⟨t1_k0 x1 r, t1_k1 x1 r, t1_k2 x1 r, t1_k3 x1 r⟩

/-! ## The target box transformed a second time

The four numbers read here as centre and extent are the target box's own corner coordinates: low x, low y, high x,
high y, in the order the stack holds them. -/

private theorem t2_c0 (r : Fin NR) :
    val_main_v123 (F := Ideal) x1 (cell3 r) = lo scaleDiv (x1 (cell4 r (0 : Fin 4))) (x1 (cell4 r (2 : Fin 4))) := by
  have e : idx_main_v122 (idx_main_v123 (cell3 r)) = cell4 r (0 : Fin 4) := by cell_index r
  rw [val_main_v123_apply, val_main_v122_apply, e, t1_k0]
private theorem t2_c1 (r : Fin NR) :
    val_main_v125 (F := Ideal) x1 (cell3 r) = lo scaleDiv (x1 (cell4 r (1 : Fin 4))) (x1 (cell4 r (3 : Fin 4))) := by
  have e : idx_main_v124 (idx_main_v125 (cell3 r)) = cell4 r (1 : Fin 4) := by cell_index r
  rw [val_main_v125_apply, val_main_v124_apply, e, t1_k1]
private theorem t2_c2 (r : Fin NR) :
    val_main_v127 (F := Ideal) x1 (cell3 r) = hi scaleDiv (x1 (cell4 r (0 : Fin 4))) (x1 (cell4 r (2 : Fin 4))) := by
  have e : idx_main_v126 (idx_main_v127 (cell3 r)) = cell4 r (2 : Fin 4) := by cell_index r
  rw [val_main_v127_apply, val_main_v126_apply, e, t1_k2]
private theorem t2_c3 (r : Fin NR) :
    val_main_v129 (F := Ideal) x1 (cell3 r) = hi scaleDiv (x1 (cell4 r (1 : Fin 4))) (x1 (cell4 r (3 : Fin 4))) := by
  have e : idx_main_v128 (idx_main_v129 (cell3 r)) = cell4 r (3 : Fin 4) := by cell_index r
  rw [val_main_v129_apply, val_main_v128_apply, e, t1_k3]

private theorem t2_lo_x (r : Fin NR) :
    val_main_v134 (F := Ideal) x1 (cell3 r)
      = lo scaleDiv (lo scaleDiv (x1 (cell4 r (0 : Fin 4))) (x1 (cell4 r (2 : Fin 4))))
          (hi scaleDiv (x1 (cell4 r (0 : Fin 4))) (x1 (cell4 r (2 : Fin 4)))) := by
  rw [val_main_v134_apply, val_main_v131_apply, val_main_v133_apply, val_main_v130_apply, val_main_cst_28_apply,
    val_main_v132_apply, val_main_cst_29_apply, t2_c0, t2_c2]
  rfl
private theorem t2_lo_y (r : Fin NR) :
    val_main_v139 (F := Ideal) x1 (cell3 r)
      = lo scaleDiv (lo scaleDiv (x1 (cell4 r (1 : Fin 4))) (x1 (cell4 r (3 : Fin 4))))
          (hi scaleDiv (x1 (cell4 r (1 : Fin 4))) (x1 (cell4 r (3 : Fin 4)))) := by
  rw [val_main_v139_apply, val_main_v136_apply, val_main_v138_apply, val_main_v135_apply, val_main_cst_30_apply,
    val_main_v137_apply, val_main_cst_31_apply, t2_c1, t2_c3]
  rfl
private theorem t2_hi_x (r : Fin NR) :
    val_main_v144 (F := Ideal) x1 (cell3 r)
      = hi scaleDiv (lo scaleDiv (x1 (cell4 r (0 : Fin 4))) (x1 (cell4 r (2 : Fin 4))))
          (hi scaleDiv (x1 (cell4 r (0 : Fin 4))) (x1 (cell4 r (2 : Fin 4)))) := by
  rw [val_main_v144_apply, val_main_v141_apply, val_main_v143_apply, val_main_v140_apply, val_main_cst_32_apply,
    val_main_v142_apply, val_main_cst_33_apply, t2_c0, t2_c2]
  rfl
private theorem t2_hi_y (r : Fin NR) :
    val_main_v149 (F := Ideal) x1 (cell3 r)
      = hi scaleDiv (lo scaleDiv (x1 (cell4 r (1 : Fin 4))) (x1 (cell4 r (3 : Fin 4))))
          (hi scaleDiv (x1 (cell4 r (1 : Fin 4))) (x1 (cell4 r (3 : Fin 4)))) := by
  rw [val_main_v149_apply, val_main_v146_apply, val_main_v148_apply, val_main_v145_apply, val_main_cst_34_apply,
    val_main_v147_apply, val_main_cst_35_apply, t2_c1, t2_c3]
  rfl

private theorem t2_k0 (r : Fin NR) :
    val_main_v154 (F := Ideal) x1 (cell4 r (0 : Fin 4))
      = lo scaleDiv (lo scaleDiv (x1 (cell4 r (0 : Fin 4))) (x1 (cell4 r (2 : Fin 4))))
          (hi scaleDiv (x1 (cell4 r (0 : Fin 4))) (x1 (cell4 r (2 : Fin 4)))) := by
  unfold val_main_v154
  refine ((stack4 _ _ _ _ _ r).1).trans ?_
  rw [val_main_v150_apply]
  exact (congrArg (val_main_v134 (F := Ideal) x1) (drop_unit r)).trans (t2_lo_x x1 r)
private theorem t2_k1 (r : Fin NR) :
    val_main_v154 (F := Ideal) x1 (cell4 r (1 : Fin 4))
      = lo scaleDiv (lo scaleDiv (x1 (cell4 r (1 : Fin 4))) (x1 (cell4 r (3 : Fin 4))))
          (hi scaleDiv (x1 (cell4 r (1 : Fin 4))) (x1 (cell4 r (3 : Fin 4)))) := by
  unfold val_main_v154
  refine ((stack4 _ _ _ _ _ r).2.1).trans ?_
  rw [val_main_v151_apply]
  exact (congrArg (val_main_v139 (F := Ideal) x1) (drop_unit r)).trans (t2_lo_y x1 r)
private theorem t2_k2 (r : Fin NR) :
    val_main_v154 (F := Ideal) x1 (cell4 r (2 : Fin 4))
      = hi scaleDiv (lo scaleDiv (x1 (cell4 r (0 : Fin 4))) (x1 (cell4 r (2 : Fin 4))))
          (hi scaleDiv (x1 (cell4 r (0 : Fin 4))) (x1 (cell4 r (2 : Fin 4)))) := by
  unfold val_main_v154
  refine ((stack4 _ _ _ _ _ r).2.2.1).trans ?_
  rw [val_main_v152_apply]
  exact (congrArg (val_main_v144 (F := Ideal) x1) (drop_unit r)).trans (t2_hi_x x1 r)
private theorem t2_k3 (r : Fin NR) :
    val_main_v154 (F := Ideal) x1 (cell4 r (3 : Fin 4))
      = hi scaleDiv (lo scaleDiv (x1 (cell4 r (1 : Fin 4))) (x1 (cell4 r (3 : Fin 4))))
          (hi scaleDiv (x1 (cell4 r (1 : Fin 4))) (x1 (cell4 r (3 : Fin 4)))) := by
  unfold val_main_v154
  refine ((stack4 _ _ _ _ _ r).2.2.2).trans ?_
  rw [val_main_v153_apply]
  exact (congrArg (val_main_v149 (F := Ideal) x1) (drop_unit r)).trans (t2_hi_y x1 r)

/-- The target box transformed a second time. -/
theorem t2_at (r : Fin NR) :
    val_main_v154 (F := Ideal) x1 (cell4 r (0 : Fin 4)) = t2x1 scaleDiv (cellsOf x0 x1 x2 x3 r)
    ∧ val_main_v154 (F := Ideal) x1 (cell4 r (1 : Fin 4)) = t2y1 scaleDiv (cellsOf x0 x1 x2 x3 r)
    ∧ val_main_v154 (F := Ideal) x1 (cell4 r (2 : Fin 4)) = t2x2 scaleDiv (cellsOf x0 x1 x2 x3 r)
    ∧ val_main_v154 (F := Ideal) x1 (cell4 r (3 : Fin 4)) = t2y2 scaleDiv (cellsOf x0 x1 x2 x3 r) :=
  ⟨t2_k0 x1 r, t2_k1 x1 r, t2_k2 x1 r, t2_k3 x1 r⟩

end Cert.RefSide

end
-- ==== Proof.RefIou.lean ====
/-
  The reference's two overlap ratios, read at a cell: the first predicted box against the target box, the second
  against the twice-transformed target box, each the clipped intersection area over the union area.
-/
import proofs.«420472_j34711925687028_3_alg».proof.Proof.RefBoxes

noncomputable section

namespace Cert.RefSide

open Idealize.ShloMosaic Idealize.ShloMosaic.ValueIdx Cert.ReferenceIdeal Cert.ReferenceIdeal.ReadP Cert.LossSpec

variable (x0 : FVec Ideal S4096x14x14x30 .f32) (x1 : FVec Ideal S4096x14x14x4 .f32)
  (x2 : FVec Ideal S4096x14x14x20 .f32) (x3 : IVec S4096x14x14 1)

/-! ## Cell arithmetic

  A cell number n splits as n = (n / 196) * 196 + (n / 14 % 14) * 14 + n % 14.  Flattening the three coordinates back
  in row-major order and splitting again returns the same three coordinates. -/

private theorem cell_a0 (n : Nat) : ((n / 196 * 14 + n / 14 % 14) * 14 + n % 14) / 196 = n / 196 := by omega
private theorem cell_a1 (n : Nat) : ((n / 196 * 14 + n / 14 % 14) * 14 + n % 14) / 14 % 14 = n / 14 % 14 := by omega
private theorem cell_a2 (n : Nat) : ((n / 196 * 14 + n / 14 % 14) * 14 + n % 14) / 1 % 14 = n % 14 := by omega

/-- An index read through a reshape that appends a unit axis and then a slice of the last axis: the three cell
    coordinates agree by the arithmetic above, the channel by evaluation. -/
local macro "cell_idx " r:term : tactic => `(tactic| (funext a; match a with
  | ⟨0, _⟩ => exact Fin.ext (cell_a0 ($r).val)
  | ⟨1, _⟩ => exact Fin.ext (cell_a1 ($r).val)
  | ⟨2, _⟩ => exact Fin.ext (cell_a2 ($r).val)
  | ⟨3, _⟩ => rfl))

/-- An index read through a slice of the last axis alone: every coordinate agrees by evaluation. -/
local macro "chan_idx" : tactic => `(tactic| (funext a; match a with
  | ⟨0, _⟩ => rfl
  | ⟨1, _⟩ => rfl
  | ⟨2, _⟩ => rfl
  | ⟨3, _⟩ => rfl))

/-! ## The first ratio

  Write A k for corner coordinate k of the first predicted box and B k for that of the target box, k = 0, 1, 2, 3
  standing for x1, y1, x2, y2. -/

/-- The overlap's extent along x, clipped at zero: max 0 (min (A 2) (B 2) - max (A 0) (B 0)). -/
private theorem clipW0 (r : Fin NR) :
    val_main_v164 (F := Ideal) x0 x1 (cell3 r) =
      clip0 (min (val_main_v54 (F := Ideal) x0 (cell4 r (2 : Fin 4))) (val_main_v121 (F := Ideal) x1 (cell4 r (2 : Fin 4)))
        - max (val_main_v54 (F := Ideal) x0 (cell4 r (0 : Fin 4))) (val_main_v121 (F := Ideal) x1 (cell4 r (0 : Fin 4)))) := by
  rw [val_main_v164_apply, val_main_v163_apply,
    show idx_main_v163 (idx_main_v164 (cell3 r)) = cell4 r (0 : Fin 2) by cell_idx r,
    val_main_v162_apply, val_main_v161_apply, val_main_v160_apply, val_main_v157_apply,
    val_main_v158_apply, val_main_v159_apply, val_main_v155_apply, val_main_v156_apply,
    show idx_main_v158 (cell4 r (0 : Fin 2)) = cell4 r (2 : Fin 4) by chan_idx,
    show idx_main_v159 (cell4 r (0 : Fin 2)) = cell4 r (2 : Fin 4) by chan_idx,
    show idx_main_v155 (cell4 r (0 : Fin 2)) = cell4 r (0 : Fin 4) by chan_idx,
    show idx_main_v156 (cell4 r (0 : Fin 2)) = cell4 r (0 : Fin 4) by chan_idx,
    val_main_call0_v1_apply, val_main_call0_v0_apply, val_main_cst_36_apply]
  rfl

/-- The overlap's extent along y, clipped at zero: max 0 (min (A 3) (B 3) - max (A 1) (B 1)). -/
private theorem clipH0 (r : Fin NR) :
    val_main_v166 (F := Ideal) x0 x1 (cell3 r) =
      clip0 (min (val_main_v54 (F := Ideal) x0 (cell4 r (3 : Fin 4))) (val_main_v121 (F := Ideal) x1 (cell4 r (3 : Fin 4)))
        - max (val_main_v54 (F := Ideal) x0 (cell4 r (1 : Fin 4))) (val_main_v121 (F := Ideal) x1 (cell4 r (1 : Fin 4)))) := by
  rw [val_main_v166_apply, val_main_v165_apply,
    show idx_main_v165 (idx_main_v166 (cell3 r)) = cell4 r (1 : Fin 2) by cell_idx r,
    val_main_v162_apply, val_main_v161_apply, val_main_v160_apply, val_main_v157_apply,
    val_main_v158_apply, val_main_v159_apply, val_main_v155_apply, val_main_v156_apply,
    show idx_main_v158 (cell4 r (1 : Fin 2)) = cell4 r (3 : Fin 4) by chan_idx,
    show idx_main_v159 (cell4 r (1 : Fin 2)) = cell4 r (3 : Fin 4) by chan_idx,
    show idx_main_v155 (cell4 r (1 : Fin 2)) = cell4 r (1 : Fin 4) by chan_idx,
    show idx_main_v156 (cell4 r (1 : Fin 2)) = cell4 r (1 : Fin 4) by chan_idx,
    val_main_call0_v1_apply, val_main_call0_v0_apply, val_main_cst_36_apply]
  rfl

/-- The predicted box's area, (A 2 - A 0) (A 3 - A 1). -/
private theorem areaP0 (r : Fin NR) :
    val_main_v178 (F := Ideal) x0 (cell3 r) =
      (val_main_v54 (F := Ideal) x0 (cell4 r (2 : Fin 4)) - val_main_v54 (F := Ideal) x0 (cell4 r (0 : Fin 4)))
        * (val_main_v54 (F := Ideal) x0 (cell4 r (3 : Fin 4)) - val_main_v54 (F := Ideal) x0 (cell4 r (1 : Fin 4))) := by
  rw [val_main_v178_apply, val_main_v172_apply, val_main_v177_apply,
    val_main_v169_apply, val_main_v168_apply, val_main_v171_apply, val_main_v170_apply,
    val_main_v174_apply, val_main_v173_apply, val_main_v176_apply, val_main_v175_apply,
    show idx_main_v168 (idx_main_v169 (cell3 r)) = cell4 r (2 : Fin 4) by cell_idx r,
    show idx_main_v170 (idx_main_v171 (cell3 r)) = cell4 r (0 : Fin 4) by cell_idx r,
    show idx_main_v173 (idx_main_v174 (cell3 r)) = cell4 r (3 : Fin 4) by cell_idx r,
    show idx_main_v175 (idx_main_v176 (cell3 r)) = cell4 r (1 : Fin 4) by cell_idx r]
  rfl

/-- The target box's area, (B 2 - B 0) (B 3 - B 1). -/
private theorem areaT0 (r : Fin NR) :
    val_main_v189 (F := Ideal) x1 (cell3 r) =
      (val_main_v121 (F := Ideal) x1 (cell4 r (2 : Fin 4)) - val_main_v121 (F := Ideal) x1 (cell4 r (0 : Fin 4)))
        * (val_main_v121 (F := Ideal) x1 (cell4 r (3 : Fin 4)) - val_main_v121 (F := Ideal) x1 (cell4 r (1 : Fin 4))) := by
  rw [val_main_v189_apply, val_main_v183_apply, val_main_v188_apply,
    val_main_v180_apply, val_main_v179_apply, val_main_v182_apply, val_main_v181_apply,
    val_main_v185_apply, val_main_v184_apply, val_main_v187_apply, val_main_v186_apply,
    show idx_main_v179 (idx_main_v180 (cell3 r)) = cell4 r (2 : Fin 4) by cell_idx r,
    show idx_main_v181 (idx_main_v182 (cell3 r)) = cell4 r (0 : Fin 4) by cell_idx r,
    show idx_main_v184 (idx_main_v185 (cell3 r)) = cell4 r (3 : Fin 4) by cell_idx r,
    show idx_main_v186 (idx_main_v187 (cell3 r)) = cell4 r (1 : Fin 4) by cell_idx r]
  rfl

/-- The ratio in terms of the two boxes' corner coordinates. -/
private theorem iou0_read (r : Fin NR) :
    val_main_v192 (F := Ideal) x0 x1 (cell3 r) =
      iouOf (val_main_v54 (F := Ideal) x0 (cell4 r (0 : Fin 4))) (val_main_v54 (F := Ideal) x0 (cell4 r (1 : Fin 4)))
        (val_main_v54 (F := Ideal) x0 (cell4 r (2 : Fin 4))) (val_main_v54 (F := Ideal) x0 (cell4 r (3 : Fin 4)))
        (val_main_v121 (F := Ideal) x1 (cell4 r (0 : Fin 4))) (val_main_v121 (F := Ideal) x1 (cell4 r (1 : Fin 4)))
        (val_main_v121 (F := Ideal) x1 (cell4 r (2 : Fin 4))) (val_main_v121 (F := Ideal) x1 (cell4 r (3 : Fin 4))) := by
  rw [val_main_v192_apply, val_main_v191_apply, val_main_v190_apply, val_main_v167_apply,
    clipW0, clipH0, areaP0, areaT0]
  rfl

/-- The first predicted box's overlap ratio with the target box at cell r. -/
theorem iou0_at (r : Fin NR) :
    val_main_v192 (F := Ideal) x0 x1 (cell3 r) = iou0 scaleDiv (cellsOf x0 x1 x2 x3 r) := by
  obtain ⟨a0, a1, a2, a3⟩ := p0_at x0 x1 x2 x3 r
  obtain ⟨b0, b1, b2, b3⟩ := t1_at x0 x1 x2 x3 r
  rw [iou0_read, a0, a1, a2, a3, b0, b1, b2, b3]
  rfl

/-! ## The second ratio

  The same reading with A k the corner coordinates of the second predicted box and B k those of the target box
  transformed a second time. -/

/-- The overlap's extent along x, clipped at zero. -/
private theorem clipW1 (r : Fin NR) :
    val_main_v202 (F := Ideal) x0 x1 (cell3 r) =
      clip0 (min (val_main_v88 (F := Ideal) x0 (cell4 r (2 : Fin 4))) (val_main_v154 (F := Ideal) x1 (cell4 r (2 : Fin 4)))
        - max (val_main_v88 (F := Ideal) x0 (cell4 r (0 : Fin 4))) (val_main_v154 (F := Ideal) x1 (cell4 r (0 : Fin 4)))) := by
  rw [val_main_v202_apply, val_main_v201_apply,
    show idx_main_v201 (idx_main_v202 (cell3 r)) = cell4 r (0 : Fin 2) by cell_idx r,
    val_main_v200_apply, val_main_v199_apply, val_main_v198_apply, val_main_v195_apply,
    val_main_v196_apply, val_main_v197_apply, val_main_v193_apply, val_main_v194_apply,
    show idx_main_v196 (cell4 r (0 : Fin 2)) = cell4 r (2 : Fin 4) by chan_idx,
    show idx_main_v197 (cell4 r (0 : Fin 2)) = cell4 r (2 : Fin 4) by chan_idx,
    show idx_main_v193 (cell4 r (0 : Fin 2)) = cell4 r (0 : Fin 4) by chan_idx,
    show idx_main_v194 (cell4 r (0 : Fin 2)) = cell4 r (0 : Fin 4) by chan_idx,
    val_main_call1_v1_apply, val_main_call1_v0_apply, val_main_cst_37_apply]
  rfl

/-- The overlap's extent along y, clipped at zero. -/
private theorem clipH1 (r : Fin NR) :
    val_main_v204 (F := Ideal) x0 x1 (cell3 r) =
      clip0 (min (val_main_v88 (F := Ideal) x0 (cell4 r (3 : Fin 4))) (val_main_v154 (F := Ideal) x1 (cell4 r (3 : Fin 4)))
        - max (val_main_v88 (F := Ideal) x0 (cell4 r (1 : Fin 4))) (val_main_v154 (F := Ideal) x1 (cell4 r (1 : Fin 4)))) := by
  rw [val_main_v204_apply, val_main_v203_apply,
    show idx_main_v203 (idx_main_v204 (cell3 r)) = cell4 r (1 : Fin 2) by cell_idx r,
    val_main_v200_apply, val_main_v199_apply, val_main_v198_apply, val_main_v195_apply,
    val_main_v196_apply, val_main_v197_apply, val_main_v193_apply, val_main_v194_apply,
    show idx_main_v196 (cell4 r (1 : Fin 2)) = cell4 r (3 : Fin 4) by chan_idx,
    show idx_main_v197 (cell4 r (1 : Fin 2)) = cell4 r (3 : Fin 4) by chan_idx,
    show idx_main_v193 (cell4 r (1 : Fin 2)) = cell4 r (1 : Fin 4) by chan_idx,
    show idx_main_v194 (cell4 r (1 : Fin 2)) = cell4 r (1 : Fin 4) by chan_idx,
    val_main_call1_v1_apply, val_main_call1_v0_apply, val_main_cst_37_apply]
  rfl

/-- The predicted box's area. -/
private theorem areaP1 (r : Fin NR) :
    val_main_v216 (F := Ideal) x0 (cell3 r) =
      (val_main_v88 (F := Ideal) x0 (cell4 r (2 : Fin 4)) - val_main_v88 (F := Ideal) x0 (cell4 r (0 : Fin 4)))
        * (val_main_v88 (F := Ideal) x0 (cell4 r (3 : Fin 4)) - val_main_v88 (F := Ideal) x0 (cell4 r (1 : Fin 4))) := by
  rw [val_main_v216_apply, val_main_v210_apply, val_main_v215_apply,
    val_main_v207_apply, val_main_v206_apply, val_main_v209_apply, val_main_v208_apply,
    val_main_v212_apply, val_main_v211_apply, val_main_v214_apply, val_main_v213_apply,
    show idx_main_v206 (idx_main_v207 (cell3 r)) = cell4 r (2 : Fin 4) by cell_idx r,
    show idx_main_v208 (idx_main_v209 (cell3 r)) = cell4 r (0 : Fin 4) by cell_idx r,
    show idx_main_v211 (idx_main_v212 (cell3 r)) = cell4 r (3 : Fin 4) by cell_idx r,
    show idx_main_v213 (idx_main_v214 (cell3 r)) = cell4 r (1 : Fin 4) by cell_idx r]
  rfl

/-- The target box's area. -/
private theorem areaT1 (r : Fin NR) :
    val_main_v227 (F := Ideal) x1 (cell3 r) =
      (val_main_v154 (F := Ideal) x1 (cell4 r (2 : Fin 4)) - val_main_v154 (F := Ideal) x1 (cell4 r (0 : Fin 4)))
        * (val_main_v154 (F := Ideal) x1 (cell4 r (3 : Fin 4)) - val_main_v154 (F := Ideal) x1 (cell4 r (1 : Fin 4))) := by
  rw [val_main_v227_apply, val_main_v221_apply, val_main_v226_apply,
    val_main_v218_apply, val_main_v217_apply, val_main_v220_apply, val_main_v219_apply,
    val_main_v223_apply, val_main_v222_apply, val_main_v225_apply, val_main_v224_apply,
    show idx_main_v217 (idx_main_v218 (cell3 r)) = cell4 r (2 : Fin 4) by cell_idx r,
    show idx_main_v219 (idx_main_v220 (cell3 r)) = cell4 r (0 : Fin 4) by cell_idx r,
    show idx_main_v222 (idx_main_v223 (cell3 r)) = cell4 r (3 : Fin 4) by cell_idx r,
    show idx_main_v224 (idx_main_v225 (cell3 r)) = cell4 r (1 : Fin 4) by cell_idx r]
  rfl

/-- The ratio in terms of the two boxes' corner coordinates. -/
private theorem iou1_read (r : Fin NR) :
    val_main_v230 (F := Ideal) x0 x1 (cell3 r) =
      iouOf (val_main_v88 (F := Ideal) x0 (cell4 r (0 : Fin 4))) (val_main_v88 (F := Ideal) x0 (cell4 r (1 : Fin 4)))
        (val_main_v88 (F := Ideal) x0 (cell4 r (2 : Fin 4))) (val_main_v88 (F := Ideal) x0 (cell4 r (3 : Fin 4)))
        (val_main_v154 (F := Ideal) x1 (cell4 r (0 : Fin 4))) (val_main_v154 (F := Ideal) x1 (cell4 r (1 : Fin 4)))
        (val_main_v154 (F := Ideal) x1 (cell4 r (2 : Fin 4))) (val_main_v154 (F := Ideal) x1 (cell4 r (3 : Fin 4))) := by
  rw [val_main_v230_apply, val_main_v229_apply, val_main_v228_apply, val_main_v205_apply,
    clipW1, clipH1, areaP1, areaT1]
  rfl

/-- The second predicted box's overlap ratio with the twice-transformed target box at cell r. -/
theorem iou1_at (r : Fin NR) :
    val_main_v230 (F := Ideal) x0 x1 (cell3 r) = iou1 scaleDiv (cellsOf x0 x1 x2 x3 r) := by
  obtain ⟨a0, a1, a2, a3⟩ := p1_at x0 x1 x2 x3 r
  obtain ⟨b0, b1, b2, b3⟩ := t2_at x0 x1 x2 x3 r
  rw [iou1_read, a0, a1, a2, a3, b0, b1, b2, b3]
  rfl

end Cert.RefSide

end
-- ==== Proof.CellSums.lean ====
/-
  A sum over every index of a 4096 x 14 x 14 (x C) array is the sum over the 802816 cells (and the C channels): the cell
  number of (n, i, j) is (14 n + i) 14 + j, and every cell number below 802816 is one such.
-/
import proofs.«420472_j34711925687028_3_alg».proof.Proof.Spec
import Mathlib.Algebra.BigOperators.Group.Finset.Basic
import Mathlib.Algebra.BigOperators.Group.Finset.Sigma
import Mathlib.Logic.Equiv.Defs

noncomputable section

namespace Cert.LossSpec

open Idealize.ShloMosaic Idealize.ShloMosaic.ValueIdx

/-- The cell number 196 n + 14 i + j of the index (n, i, j); it is below 4096 * 196. -/
def cellNo3 (i : (⟨3, ![4096, 14, 14]⟩ : Shape).Idx) : Fin NR :=
  ⟨(i 0).val * 196 + (i 1).val * 14 + (i 2).val, by
    have h0 : (i 0).val < 4096 := (i 0).isLt
    have h1 : (i 1).val < 14 := (i 1).isLt
    have h2 : (i 2).val < 14 := (i 2).isLt
    show _ < 802816
    omega⟩

/-- The cell number of (n, i, j, k) is that of (n, i, j). -/
def cellNo4 {C : Nat} (i : (⟨4, ![4096, 14, 14, C]⟩ : Shape).Idx) : Fin NR :=
  ⟨(i 0).val * 196 + (i 1).val * 14 + (i 2).val, by
    have h0 : (i 0).val < 4096 := (i 0).isLt
    have h1 : (i 1).val < 14 := (i 1).isLt
    have h2 : (i 2).val < 14 := (i 2).isLt
    show _ < 802816
    omega⟩

/-- Indices of a 4096 x 14 x 14 array and cell numbers correspond one to one: quotient and remainders by 196 and 14
    recover (n, i, j) from 196 n + 14 i + j, and r = 196 (r / 196) + 14 (r / 14 mod 14) + r mod 14. -/
def cellEquiv3 : (⟨3, ![4096, 14, 14]⟩ : Shape).Idx ≃ Fin NR where
  toFun := cellNo3
  invFun := cell3
  left_inv i := by
    have h0 : (i 0).val < 4096 := (i 0).isLt
    have h1 : (i 1).val < 14 := (i 1).isLt
    have h2 : (i 2).val < 14 := (i 2).isLt
    funext a
    match a with
    | ⟨0, _⟩ =>
      apply Fin.ext
      show ((i 0).val * 196 + (i 1).val * 14 + (i 2).val) / 196 = (i 0).val
      omega
    | ⟨1, _⟩ =>
      apply Fin.ext
      show ((i 0).val * 196 + (i 1).val * 14 + (i 2).val) / 14 % 14 = (i 1).val
      omega
    | ⟨2, _⟩ =>
      apply Fin.ext
      show ((i 0).val * 196 + (i 1).val * 14 + (i 2).val) % 14 = (i 2).val
      omega
  right_inv r := by
    apply Fin.ext
    show r.val / 196 * 196 + r.val / 14 % 14 * 14 + r.val % 14 = r.val
    omega

/-- Indices of a 4096 x 14 x 14 x C array correspond one to one to pairs of a cell number and a channel. -/
def cellEquiv4 {C : Nat} : (⟨4, ![4096, 14, 14, C]⟩ : Shape).Idx ≃ Fin NR × Fin C where
  toFun i := (cellNo4 i, i 3)
  invFun p := cell4 p.1 p.2
  left_inv i := by
    have h0 : (i 0).val < 4096 := (i 0).isLt
    have h1 : (i 1).val < 14 := (i 1).isLt
    have h2 : (i 2).val < 14 := (i 2).isLt
    funext a
    match a with
    | ⟨0, _⟩ =>
      apply Fin.ext
      show ((i 0).val * 196 + (i 1).val * 14 + (i 2).val) / 196 = (i 0).val
      omega
    | ⟨1, _⟩ =>
      apply Fin.ext
      show ((i 0).val * 196 + (i 1).val * 14 + (i 2).val) / 14 % 14 = (i 1).val
      omega
    | ⟨2, _⟩ =>
      apply Fin.ext
      show ((i 0).val * 196 + (i 1).val * 14 + (i 2).val) % 14 = (i 2).val
      omega
    | ⟨3, _⟩ => rfl
  right_inv p := by
    refine Prod.ext ?_ rfl
    apply Fin.ext
    show p.1.val / 196 * 196 + p.1.val / 14 % 14 * 14 + p.1.val % 14 = p.1.val
    omega

/-- Every index of a 4096 x 14 x 14 array is one cell. -/
theorem sum_cells3 {M : Type*} [AddCommMonoid M] (g : (⟨3, ![4096, 14, 14]⟩ : Shape).Idx → M) :
    ∑ i, g i = ∑ r : Fin NR, g (cell3 r) := by
  rw [← Equiv.sum_comp cellEquiv3.symm g]
  rfl

/-- Every index of a 4096 x 14 x 14 x C array is one cell and one channel. -/
theorem sum_cells4 {M : Type*} [AddCommMonoid M] {C : Nat} (g : (⟨4, ![4096, 14, 14, C]⟩ : Shape).Idx → M) :
    ∑ i, g i = ∑ r : Fin NR, ∑ k : Fin C, g (cell4 r k) := by
  rw [← Equiv.sum_comp (cellEquiv4 (C := C)).symm g, Fintype.sum_prod_type]
  rfl

end Cert.LossSpec

end
-- ==== Proof.RefResult.lean ====
/-
  The reference's five results are the first spelling of the specification: each of its four sums over every index of a
  4096 x 14 x 14 (x C) array is the sum over the cells (and channels) of the cell's term, started from zero and divided
  by 4096; the five results are stacked total first.
-/
import proofs.«420472_j34711925687028_3_alg».proof.Proof.RefIou
import proofs.«420472_j34711925687028_3_alg».proof.Proof.CellSums
import Idealize.ShloMosaic.PureOps.Ideal.Laws
import Idealize.ShloMosaic.Lib.Pipeline.Value
import Mathlib.Algebra.BigOperators.Fin

noncomputable section

namespace Cert.RefSide

open Idealize.ShloMosaic Idealize.ShloMosaic.ValueIdx Cert.ReferenceIdeal Cert.ReferenceIdeal.ReadP Cert.LossSpec

variable (x0 : FVec Ideal S4096x14x14x30 .f32) (x1 : FVec Ideal S4096x14x14x4 .f32)
  (x2 : FVec Ideal S4096x14x14x20 .f32) (x3 : IVec S4096x14x14 1)

/-! ## Where the layout operations read

A broadcast of a per-cell array along a channel axis reads the cell; a slice of the channels reads the shifted channel; a
4096 x 14 x 14 array made from a one-channel slice reads that channel at the same cell, because the row-major number
(14 n + i) 14 + j of (n, i, j) has quotient n by 196, quotient i modulo 14 by 14 and remainder j by 14. -/

/-- Under the class term's two broadcasts the flag is read at the cell. -/
private theorem flag_cls (r : Fin NR) (k : Fin 20) : idx_main_v2 (idx_main_v5 (cell4 r k)) = cell3 r := by
  funext a; apply Fin.ext
  match a with
  | ⟨0, _⟩ => rfl
  | ⟨1, _⟩ => rfl
  | ⟨2, _⟩ => rfl

/-- Class score k is channel 10 + k of the predictions. -/
private theorem score_cls (r : Fin NR) (k : Fin 20) : idx_main_v1 (cell4 r k) = cell4 r (clsCh k) := by
  funext a; apply Fin.ext
  match a with
  | ⟨0, _⟩ => rfl
  | ⟨1, _⟩ => rfl
  | ⟨2, _⟩ => rfl
  | ⟨3, _⟩ => rfl

/-- The first confidence, channel 4, as a per-cell array (in the no-object term). -/
private theorem conf0_noobj (r : Fin NR) : idx_main_v11 (idx_main_v12 (cell3 r)) = cell4 r (4 : Fin 30) := by
  funext a; apply Fin.ext
  match a with
  | ⟨0, _⟩ => show ((r.val / 196 * 14 + r.val / 14 % 14) * 14 + r.val % 14) / 196 = r.val / 196; omega
  | ⟨1, _⟩ => show ((r.val / 196 * 14 + r.val / 14 % 14) * 14 + r.val % 14) / 14 % 14 = r.val / 14 % 14; omega
  | ⟨2, _⟩ => show ((r.val / 196 * 14 + r.val / 14 % 14) * 14 + r.val % 14) / 1 % 14 = r.val % 14; omega
  | ⟨3, _⟩ => rfl

/-- The second confidence, channel 9, as a per-cell array (in the no-object term). -/
private theorem conf1_noobj (r : Fin NR) : idx_main_v14 (idx_main_v15 (cell3 r)) = cell4 r (9 : Fin 30) := by
  funext a; apply Fin.ext
  match a with
  | ⟨0, _⟩ => show ((r.val / 196 * 14 + r.val / 14 % 14) * 14 + r.val % 14) / 196 = r.val / 196; omega
  | ⟨1, _⟩ => show ((r.val / 196 * 14 + r.val / 14 % 14) * 14 + r.val % 14) / 14 % 14 = r.val / 14 % 14; omega
  | ⟨2, _⟩ => show ((r.val / 196 * 14 + r.val / 14 % 14) * 14 + r.val % 14) / 1 % 14 = r.val % 14; omega
  | ⟨3, _⟩ => rfl

/-- The second confidence, channel 9, as a per-cell array (in the confidence term). -/
private theorem conf1_cont (r : Fin NR) : idx_main_v244 (idx_main_v245 (cell3 r)) = cell4 r (9 : Fin 30) := by
  funext a; apply Fin.ext
  match a with
  | ⟨0, _⟩ => show ((r.val / 196 * 14 + r.val / 14 % 14) * 14 + r.val % 14) / 196 = r.val / 196; omega
  | ⟨1, _⟩ => show ((r.val / 196 * 14 + r.val / 14 % 14) * 14 + r.val % 14) / 14 % 14 = r.val / 14 % 14; omega
  | ⟨2, _⟩ => show ((r.val / 196 * 14 + r.val / 14 % 14) * 14 + r.val % 14) / 1 % 14 = r.val % 14; omega
  | ⟨3, _⟩ => rfl

/-- The first confidence, channel 4, as a per-cell array (in the confidence term). -/
private theorem conf0_cont (r : Fin NR) : idx_main_v246 (idx_main_v247 (cell3 r)) = cell4 r (4 : Fin 30) := by
  funext a; apply Fin.ext
  match a with
  | ⟨0, _⟩ => show ((r.val / 196 * 14 + r.val / 14 % 14) * 14 + r.val % 14) / 196 = r.val / 196; omega
  | ⟨1, _⟩ => show ((r.val / 196 * 14 + r.val / 14 % 14) * 14 + r.val % 14) / 14 % 14 = r.val / 14 % 14; omega
  | ⟨2, _⟩ => show ((r.val / 196 * 14 + r.val / 14 % 14) * 14 + r.val % 14) / 1 % 14 = r.val % 14; omega
  | ⟨3, _⟩ => rfl

/-- Under the corner term's two broadcasts the flag is read at the cell. -/
private theorem flag_reg (r : Fin NR) (k : Fin 2) : idx_main_v235 (idx_main_v240 (cell4 r k)) = cell3 r := by
  funext a; apply Fin.ext
  match a with
  | ⟨0, _⟩ => rfl
  | ⟨1, _⟩ => rfl
  | ⟨2, _⟩ => rfl

/-- Under its two broadcasts the choice between the boxes is read at the cell. -/
private theorem pick_reg (r : Fin NR) (k : Fin 4) : idx_main_v233 (idx_main_call2_v0 (cell4 r k)) = cell3 r := by
  funext a; apply Fin.ext
  match a with
  | ⟨0, _⟩ => rfl
  | ⟨1, _⟩ => rfl
  | ⟨2, _⟩ => rfl

/-- The low corner is the first two of a box's four corner coordinates: of the chosen box … -/
private theorem best_lo0 (r : Fin NR) : idx_main_v236 (cell4 r (0 : Fin 2)) = cell4 r (0 : Fin 4) := by
  funext a; apply Fin.ext
  match a with
  | ⟨0, _⟩ => rfl
  | ⟨1, _⟩ => rfl
  | ⟨2, _⟩ => rfl
  | ⟨3, _⟩ => rfl
private theorem best_lo1 (r : Fin NR) : idx_main_v236 (cell4 r (1 : Fin 2)) = cell4 r (1 : Fin 4) := by
  funext a; apply Fin.ext
  match a with
  | ⟨0, _⟩ => rfl
  | ⟨1, _⟩ => rfl
  | ⟨2, _⟩ => rfl
  | ⟨3, _⟩ => rfl
/-- … and of the twice-transformed target box. -/
private theorem targ_lo0 (r : Fin NR) : idx_main_v237 (cell4 r (0 : Fin 2)) = cell4 r (0 : Fin 4) := by
  funext a; apply Fin.ext
  match a with
  | ⟨0, _⟩ => rfl
  | ⟨1, _⟩ => rfl
  | ⟨2, _⟩ => rfl
  | ⟨3, _⟩ => rfl
private theorem targ_lo1 (r : Fin NR) : idx_main_v237 (cell4 r (1 : Fin 2)) = cell4 r (1 : Fin 4) := by
  funext a; apply Fin.ext
  match a with
  | ⟨0, _⟩ => rfl
  | ⟨1, _⟩ => rfl
  | ⟨2, _⟩ => rfl
  | ⟨3, _⟩ => rfl

/-! ## The class error: the sum over cells and the 20 classes of m ((p - c)(p - c)) -/

/-- The class term at cell r and class k. -/
private theorem cls_at (r : Fin NR) (k : Fin 20) :
    val_main_v6 (F := Ideal) x0 x2 x3 (cell4 r k)
      = (cellsOf x0 x1 x2 x3 r).m * (((cellsOf x0 x1 x2 x3 r).p (clsCh k) - (cellsOf x0 x1 x2 x3 r).c k)
          * ((cellsOf x0 x1 x2 x3 r).p (clsCh k) - (cellsOf x0 x1 x2 x3 r).c k)) := by
  rw [val_main_v6_apply, val_main_v5_apply, val_main_v2_apply, val_main_v0_apply, flag_cls, val_main_v4_apply,
    val_main_v3_apply, val_main_v1_apply, score_cls]
  rfl

/-- A cell's 20 class terms add up to the cell's class error. -/
private theorem cls_cell (r : Fin NR) :
    ∑ k : Fin 20, val_main_v6 (F := Ideal) x0 x2 x3 (cell4 r k) = clsA (cellsOf x0 x1 x2 x3 r) :=
  Finset.sum_congr rfl fun k _ => cls_at x0 x1 x2 x3 r k

/-- The class result: the sum over every index, from zero, divided by 4096. -/
private theorem cls_sum (i : S_.Idx) :
    val_main_v8 (F := Ideal) x0 x2 x3 i = allSum clsA (cellsOf x0 x1 x2 x3) := by
  rw [val_main_v8_apply, val_main_v7_apply, val_main_cst_apply, val_main_cst_0_apply,
    sum_cells4 (val_main_v6 (F := Ideal) x0 x2 x3), Finset.sum_congr rfl fun r _ => cls_cell x0 x1 x2 x3 r]
  rfl

/-! ## The no-object confidence: the sum over cells of (1 - m)(c0 c0 + c1 c1) -/

/-- The no-object term at cell r. -/
private theorem noobj_at (r : Fin NR) :
    val_main_v18 (F := Ideal) x0 x3 (cell3 r) = noobj (cellsOf x0 x1 x2 x3 r) := by
  rw [val_main_v18_apply, val_main_v10_apply, val_main_v9_apply, val_main_cst_1_apply, val_main_v0_apply,
    val_main_v17_apply, val_main_v13_apply, val_main_v12_apply, val_main_v11_apply, conf0_noobj,
    val_main_v16_apply, val_main_v15_apply, val_main_v14_apply, conf1_noobj]
  rfl

/-- The no-object result. -/
private theorem noobj_sum (i : S_.Idx) :
    val_main_v20 (F := Ideal) x0 x3 i = allSum noobj (cellsOf x0 x1 x2 x3) := by
  rw [val_main_v20_apply, val_main_v19_apply, val_main_cst_2_apply, val_main_cst_3_apply,
    sum_cells3 (val_main_v18 (F := Ideal) x0 x3), Finset.sum_congr rfl fun r _ => noobj_at x0 x1 x2 x3 r]
  rfl

/-! ## The choice between the two predicted boxes -/

/-- The second box is chosen at cell r exactly when its overlap ratio is strictly the larger. -/
private theorem pick_at (r : Fin NR) :
    val_main_v232 (F := Ideal) x0 x1 (cell3 r) = pick scaleDiv (cellsOf x0 x1 x2 x3 r) := by
  rw [val_main_v232_apply, iou1_at x0 x1 x2 x3 r, iou0_at x0 x1 x2 x3 r]
  rfl

/-! ## The corner error: the sum over cells of m (dx dx) + m (dy dy) -/

/-- The corner term at cell r, first coordinate. -/
private theorem reg_at0 (r : Fin NR) :
    val_main_v241 (F := Ideal) x0 x1 x3 (cell4 r (0 : Fin 2))
      = (cellsOf x0 x1 x2 x3 r).m
          * (dX scaleDiv (cellsOf x0 x1 x2 x3 r) * dX scaleDiv (cellsOf x0 x1 x2 x3 r)) := by
  rw [val_main_v241_apply, val_main_v240_apply, val_main_v235_apply, val_main_v0_apply, flag_reg,
    val_main_v239_apply, val_main_v238_apply, val_main_v236_apply, best_lo0, val_main_v237_apply, targ_lo0,
    val_main_v234_apply, val_main_call2_v0_apply, val_main_v233_apply, pick_reg, pick_at x0 x1 x2 x3 r,
    (p0_at x0 x1 x2 x3 r).1, (p1_at x0 x1 x2 x3 r).1, (t2_at x0 x1 x2 x3 r).1]
  rfl

/-- The corner term at cell r, second coordinate. -/
private theorem reg_at1 (r : Fin NR) :
    val_main_v241 (F := Ideal) x0 x1 x3 (cell4 r (1 : Fin 2))
      = (cellsOf x0 x1 x2 x3 r).m
          * (dY scaleDiv (cellsOf x0 x1 x2 x3 r) * dY scaleDiv (cellsOf x0 x1 x2 x3 r)) := by
  rw [val_main_v241_apply, val_main_v240_apply, val_main_v235_apply, val_main_v0_apply, flag_reg,
    val_main_v239_apply, val_main_v238_apply, val_main_v236_apply, best_lo1, val_main_v237_apply, targ_lo1,
    val_main_v234_apply, val_main_call2_v0_apply, val_main_v233_apply, pick_reg, pick_at x0 x1 x2 x3 r,
    (p0_at x0 x1 x2 x3 r).2.1, (p1_at x0 x1 x2 x3 r).2.1, (t2_at x0 x1 x2 x3 r).2.1]
  rfl

/-- A cell's two corner terms add up to the cell's corner error. -/
private theorem reg_cell (r : Fin NR) :
    ∑ k : Fin 2, val_main_v241 (F := Ideal) x0 x1 x3 (cell4 r k) = regA scaleDiv (cellsOf x0 x1 x2 x3 r) := by
  rw [Fin.sum_univ_two, reg_at0 x0 x1 x2 x3 r, reg_at1 x0 x1 x2 x3 r]
  rfl

/-- The corner result. -/
private theorem reg_sum (i : S_.Idx) :
    val_main_v243 (F := Ideal) x0 x1 x3 i = allSum (regA scaleDiv) (cellsOf x0 x1 x2 x3) := by
  rw [val_main_v243_apply, val_main_v242_apply, val_main_cst_38_apply, val_main_cst_39_apply,
    sum_cells4 (val_main_v241 (F := Ideal) x0 x1 x3), Finset.sum_congr rfl fun r _ => reg_cell x0 x1 x2 x3 r]
  rfl

/-! ## The confidence error: the sum over cells of m ((conf - ratio)(conf - ratio)) -/

/-- The confidence term at cell r. -/
private theorem cont_at (r : Fin NR) :
    val_main_v251 (F := Ideal) x0 x1 x3 (cell3 r) = contA scaleDiv (cellsOf x0 x1 x2 x3 r) := by
  rw [val_main_v251_apply, val_main_v0_apply, val_main_v250_apply, val_main_v249_apply, val_main_v248_apply,
    val_main_v245_apply, val_main_v244_apply, conf1_cont, val_main_v247_apply, val_main_v246_apply, conf0_cont,
    val_main_v231_apply, pick_at x0 x1 x2 x3 r, iou0_at x0 x1 x2 x3 r, iou1_at x0 x1 x2 x3 r]
  rfl

/-- The confidence result. -/
private theorem cont_sum (i : S_.Idx) :
    val_main_v253 (F := Ideal) x0 x1 x3 i = allSum (contA scaleDiv) (cellsOf x0 x1 x2 x3) := by
  rw [val_main_v253_apply, val_main_v252_apply, val_main_cst_40_apply, val_main_cst_41_apply,
    sum_cells3 (val_main_v251 (F := Ideal) x0 x1 x3), Finset.sum_congr rfl fun r _ => cont_at x0 x1 x2 x3 r]
  rfl

/-! ## The five results -/

/-- The total: class plus no-object, plus corner, plus confidence. -/
private theorem total_sum (i : S_.Idx) :
    val_main_v256 (F := Ideal) x0 x1 x2 x3 i
      = ((allSum clsA (cellsOf x0 x1 x2 x3) + allSum noobj (cellsOf x0 x1 x2 x3))
          + allSum (regA scaleDiv) (cellsOf x0 x1 x2 x3)) + allSum (contA scaleDiv) (cellsOf x0 x1 x2 x3) := by
  rw [val_main_v256_apply, val_main_v255_apply, val_main_v254_apply, cls_sum x0 x1 x2 x3, noobj_sum x0 x1 x2 x3,
    reg_sum x0 x1 x2 x3, cont_sum x0 x1 x2 x3]
  rfl

/-- No coordinate of a one-element piece lies off the joined axis. -/
private theorem off_axis (hr : S1.rank = S5.rank) (i : S1.Idx) (j : S5.Idx) :
    ∀ b : Fin S1.rank, b.cast hr ≠ (0 : Fin S5.rank) → (i b).val = (j (b.cast hr)).val := by
  intro b hb
  refine (hb (Fin.ext ?_)).elim
  have h : b.val < 1 := b.isLt
  show b.val = 0
  omega

/-- The reference's result array is the specification's first spelling at the cells of the four arguments. -/
theorem ref_result :
    val_main_v262 (F := Ideal) x0 x1 x2 x3 = fun j => resultA (cellsOf x0 x1 x2 x3) (j 0) := by
  funext j
  obtain ⟨k, rfl⟩ : ∃ k : Fin 5, j = ValueIdx.ix1 k := ⟨j 0, ValueIdx.eq_ix1 j⟩
  unfold val_main_v262
  match k with
  | ⟨0, hk⟩ =>
    refine (concatenate_apply_piece (0 : Fin S5.rank) _ _ (ix1 ⟨0, hk⟩) 0 (by show 0 < 5; decide) S1
      (val_main_v257 (F := Ideal) x0 x1 x2 x3) rfl rfl 0 rfl (ix1 (0 : Fin 1)) (off_axis rfl _ _) rfl).trans ?_
    rw [val_main_v257_apply, total_sum x0 x1 x2 x3]
    rfl
  | ⟨1, hk⟩ =>
    refine (concatenate_apply_piece (0 : Fin S5.rank) _ _ (ix1 ⟨1, hk⟩) 1 (by show 1 < 5; decide) S1
      (val_main_v258 (F := Ideal) x0 x1 x3) rfl rfl 1 rfl (ix1 (0 : Fin 1)) (off_axis rfl _ _) rfl).trans ?_
    rw [val_main_v258_apply, reg_sum x0 x1 x2 x3]
    rfl
  | ⟨2, hk⟩ =>
    refine (concatenate_apply_piece (0 : Fin S5.rank) _ _ (ix1 ⟨2, hk⟩) 2 (by show 2 < 5; decide) S1
      (val_main_v259 (F := Ideal) x0 x1 x3) rfl rfl 2 rfl (ix1 (0 : Fin 1)) (off_axis rfl _ _) rfl).trans ?_
    rw [val_main_v259_apply, cont_sum x0 x1 x2 x3]
    rfl
  | ⟨3, hk⟩ =>
    refine (concatenate_apply_piece (0 : Fin S5.rank) _ _ (ix1 ⟨3, hk⟩) 3 (by show 3 < 5; decide) S1
      (val_main_v260 (F := Ideal) x0 x3) rfl rfl 3 rfl (ix1 (0 : Fin 1)) (off_axis rfl _ _) rfl).trans ?_
    rw [val_main_v260_apply, noobj_sum x0 x1 x2 x3]
    rfl
  | ⟨4, hk⟩ =>
    refine (concatenate_apply_piece (0 : Fin S5.rank) _ _ (ix1 ⟨4, hk⟩) 4 (by show 4 < 5; decide) S1
      (val_main_v261 (F := Ideal) x0 x2 x3) rfl rfl 4 rfl (ix1 (0 : Fin 1)) (off_axis rfl _ _) rfl).trans ?_
    rw [val_main_v261_apply, cls_sum x0 x1 x2 x3]
    rfl

end Cert.RefSide

end
-- ==== Proof.RefCuts.lean ====
/-
  What the reference's buffers hold at each cut of its operation list into six windows: the four argument arrays as
  launched, and every buffer written before the cut and read after it at its stage, the function of the argument arrays
  that the operations before the cut compute for it.  Cut 0 is the launch, cut 6 the end, where the result buffer holds
  the last stage.
-/
import proofs.«420472_j34711925687028_3_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- What holds at cut 0. -/
def Cut0 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3

/-- What holds at cut 1. -/
def Cut1 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_cst_11) = val_main_cst_11 (F := F)
  ∧ W (Proc.devRef .tc main_v0) = val_main_v0 (F := F) x3
  ∧ W (Proc.devRef .tc main_v8) = val_main_v8 (F := F) x0 x2 x3
  ∧ W (Proc.devRef .tc main_v20) = val_main_v20 (F := F) x0 x3
  ∧ W (Proc.devRef .tc main_v29) = val_main_v29 (F := F) x0
  ∧ W (Proc.devRef .tc main_v34) = val_main_v34 (F := F) x0
  ∧ W (Proc.devRef .tc main_v39) = val_main_v39 (F := F) x0
  ∧ W (Proc.devRef .tc main_v44) = val_main_v44 (F := F) x0
  ∧ W (Proc.devRef .tc main_v46) = val_main_v46 (F := F) x0

/-- What holds at cut 2. -/
def Cut2 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = val_main_v0 (F := F) x3
  ∧ W (Proc.devRef .tc main_v8) = val_main_v8 (F := F) x0 x2 x3
  ∧ W (Proc.devRef .tc main_v20) = val_main_v20 (F := F) x0 x3
  ∧ W (Proc.devRef .tc main_v54) = val_main_v54 (F := F) x0
  ∧ W (Proc.devRef .tc main_v88) = val_main_v88 (F := F) x0
  ∧ W (Proc.devRef .tc main_v90) = val_main_v90 (F := F) x1
  ∧ W (Proc.devRef .tc main_v92) = val_main_v92 (F := F) x1
  ∧ W (Proc.devRef .tc main_v94) = val_main_v94 (F := F) x1
  ∧ W (Proc.devRef .tc main_v96) = val_main_v96 (F := F) x1
  ∧ W (Proc.devRef .tc main_v97) = val_main_v97 (F := F)

/-- What holds at cut 3. -/
def Cut3 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = val_main_v0 (F := F) x3
  ∧ W (Proc.devRef .tc main_v8) = val_main_v8 (F := F) x0 x2 x3
  ∧ W (Proc.devRef .tc main_v20) = val_main_v20 (F := F) x0 x3
  ∧ W (Proc.devRef .tc main_v54) = val_main_v54 (F := F) x0
  ∧ W (Proc.devRef .tc main_v88) = val_main_v88 (F := F) x0
  ∧ W (Proc.devRef .tc main_v121) = val_main_v121 (F := F) x1
  ∧ W (Proc.devRef .tc main_v125) = val_main_v125 (F := F) x1
  ∧ W (Proc.devRef .tc main_v129) = val_main_v129 (F := F) x1
  ∧ W (Proc.devRef .tc main_v134) = val_main_v134 (F := F) x1
  ∧ W (Proc.devRef .tc main_v139) = val_main_v139 (F := F) x1
  ∧ W (Proc.devRef .tc main_v144) = val_main_v144 (F := F) x1

/-- What holds at cut 4. -/
def Cut4 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = val_main_v0 (F := F) x3
  ∧ W (Proc.devRef .tc main_v8) = val_main_v8 (F := F) x0 x2 x3
  ∧ W (Proc.devRef .tc main_v20) = val_main_v20 (F := F) x0 x3
  ∧ W (Proc.devRef .tc main_v54) = val_main_v54 (F := F) x0
  ∧ W (Proc.devRef .tc main_v88) = val_main_v88 (F := F) x0
  ∧ W (Proc.devRef .tc main_v154) = val_main_v154 (F := F) x1
  ∧ W (Proc.devRef .tc main_v192) = val_main_v192 (F := F) x0 x1
  ∧ W (Proc.devRef .tc main_v200) = val_main_v200 (F := F) x0 x1

/-- What holds at cut 5. -/
def Cut5 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v8) = val_main_v8 (F := F) x0 x2 x3
  ∧ W (Proc.devRef .tc main_v20) = val_main_v20 (F := F) x0 x3
  ∧ W (Proc.devRef .tc main_v243) = val_main_v243 (F := F) x0 x1 x3
  ∧ W (Proc.devRef .tc main_v253) = val_main_v253 (F := F) x0 x1 x3
  ∧ W (Proc.devRef .tc main_v256) = val_main_v256 (F := F) x0 x1 x2 x3

/-- What holds at cut 6. -/
def Cut6 (W : Valuation τ sig (Elt F)) (x0 : (⟨S4096x14x14x30, .f32⟩ : BufTy).Contents (Elt F)) (x1 : (⟨S4096x14x14x4, .f32⟩ : BufTy).Contents (Elt F))
    (x2 : (⟨S4096x14x14x20, .f32⟩ : BufTy).Contents (Elt F)) (x3 : (⟨S4096x14x14, .i1⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v262) = val_main_v262 (F := F) x0 x1 x2 x3

end Cert.ReferenceIdeal.RunP

end
-- ==== Proof.RefWinA.lean ====
/-
  The reference's first two windows of operations: from the launch, the object flags as reals, the class and the
  no-object sums, and the two predicted boxes in corner form with the target box's four numbers on the way.
-/
import proofs.«420472_j34711925687028_3_alg».proof.Proof.RefOps
import proofs.«420472_j34711925687028_3_alg».proof.Proof.RefCuts
import Idealize.ShloMosaic.Lib.StableHlo.Run

set_option maxRecDepth 8192

noncomputable section

namespace Cert.ReferenceIdeal.RunP

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]
variable (W : Valuation τ sig (Elt F)) (x0 : (⟨S4096x14x14x30, .f32⟩ : BufTy).Contents (Elt F)) (x1 : (⟨S4096x14x14x4, .f32⟩ : BufTy).Contents (Elt F))
  (x2 : (⟨S4096x14x14x20, .f32⟩ : BufTy).Contents (Elt F)) (x3 : (⟨S4096x14x14, .i1⟩ : BufTy).Contents (Elt F))

/-- A buffer that no operation of a line writes holds after the line what it held before it: each operation writes its
    own result buffer only, and that is another reference. -/
local macro "untouched " o:ident : tactic =>
  `(tactic| exact after_of_forall_not_mem _ _ (List.forall_iff_forall_mem.mp (by
      simp only [$o:ident, List.Forall, nullary_writes, unary_writes, binary_writes, reshape_writes, nary_writes,
        Finset.mem_singleton]
      repeat' apply And.intro
      all_goals exact devRef_ne_of_ne (by decide))))

/-! ## Window 0

The four argument arrays are written by no operation.  Each buffer that a later window reads is computed by the
operations from the argument arrays alone, and its stage is that same composition of pure operations. -/

private theorem w0_arg0 : after ops0 W (Proc.devRef .tc main_arg0) = W (Proc.devRef .tc main_arg0) := by
  untouched ops0
private theorem w0_arg1 : after ops0 W (Proc.devRef .tc main_arg1) = W (Proc.devRef .tc main_arg1) := by
  untouched ops0
private theorem w0_arg2 : after ops0 W (Proc.devRef .tc main_arg2) = W (Proc.devRef .tc main_arg2) := by
  untouched ops0
private theorem w0_arg3 : after ops0 W (Proc.devRef .tc main_arg3) = W (Proc.devRef .tc main_arg3) := by
  untouched ops0

/-- The constant one half, written last in the window. -/
private theorem w0_cst_11 : after ops0 W (Proc.devRef .tc main_cst_11) = val_main_cst_11 (F := F) := by
  after_results_simp <;> rfl

/-- The object flags as reals. -/
private theorem w0_v0 (h3 : W (Proc.devRef .tc main_arg3) = x3) :
    after ops0 W (Proc.devRef .tc main_v0) = val_main_v0 (F := F) x3 := by
  subst h3
  after_results_simp <;> rfl

/-- The class sum: the squared differences of the twenty class scores from the third argument array, kept where the
    flag is set, summed over everything and divided by 4096. -/
private theorem w0_v8 (h0 : W (Proc.devRef .tc main_arg0) = x0) (h2 : W (Proc.devRef .tc main_arg2) = x2)
    (h3 : W (Proc.devRef .tc main_arg3) = x3) :
    after ops0 W (Proc.devRef .tc main_v8) = val_main_v8 (F := F) x0 x2 x3 := by
  subst h0 h2 h3
  after_results_simp <;> rfl

/-- The no-object sum: the squares of the two confidences added, kept where the flag is not set, summed over everything
    and divided by 4096. -/
private theorem w0_v20 (h0 : W (Proc.devRef .tc main_arg0) = x0) (h3 : W (Proc.devRef .tc main_arg3) = x3) :
    after ops0 W (Proc.devRef .tc main_v20) = val_main_v20 (F := F) x0 x3 := by
  subst h0 h3
  after_results_simp <;> rfl

/-- The fourth of the first box's four numbers. -/
private theorem w0_v29 (h0 : W (Proc.devRef .tc main_arg0) = x0) :
    after ops0 W (Proc.devRef .tc main_v29) = val_main_v29 (F := F) x0 := by
  subst h0
  after_results_simp <;> rfl

/-- The first of the first box's numbers over the grid size, less half the third. -/
private theorem w0_v34 (h0 : W (Proc.devRef .tc main_arg0) = x0) :
    after ops0 W (Proc.devRef .tc main_v34) = val_main_v34 (F := F) x0 := by
  subst h0
  after_results_simp <;> rfl

/-- The second of the first box's numbers over the grid size, less half the fourth. -/
private theorem w0_v39 (h0 : W (Proc.devRef .tc main_arg0) = x0) :
    after ops0 W (Proc.devRef .tc main_v39) = val_main_v39 (F := F) x0 := by
  subst h0
  after_results_simp <;> rfl

/-- The first of the first box's numbers over the grid size, plus half the third. -/
private theorem w0_v44 (h0 : W (Proc.devRef .tc main_arg0) = x0) :
    after ops0 W (Proc.devRef .tc main_v44) = val_main_v44 (F := F) x0 := by
  subst h0
  after_results_simp <;> rfl

/-- The second of the first box's numbers over the grid size; half the fourth is added to it in the next window. -/
private theorem w0_v46 (h0 : W (Proc.devRef .tc main_arg0) = x0) :
    after ops0 W (Proc.devRef .tc main_v46) = val_main_v46 (F := F) x0 := by
  subst h0
  after_results_simp <;> rfl

/-- Window 0 carries what holds at cut 0 to what holds at cut 1. -/
theorem win0 (h : Cut0 W x0 x1 x2 x3) : Cut1 (after ops0 W) x0 x1 x2 x3 := by
  unfold Cut0 at h
  obtain ⟨h0, h1, h2, h3⟩ := h
  unfold Cut1
  exact ⟨(w0_arg0 W).trans h0, (w0_arg1 W).trans h1, (w0_arg2 W).trans h2, (w0_arg3 W).trans h3,
    w0_cst_11 W, w0_v0 W x3 h3, w0_v8 W x0 x2 x3 h0 h2 h3, w0_v20 W x0 x3 h0 h3, w0_v29 W x0 h0, w0_v34 W x0 h0,
    w0_v39 W x0 h0, w0_v44 W x0 h0, w0_v46 W x0 h0⟩

open Lean in
/-- A list of `n` placeholders, to be filled by unification with a stretch of a line. -/
local macro "holes% " n:num : term => do
  let hs : Array (TSyntax `term) ← (Array.range n.getNat).mapM fun _ => `(_)
  `([$hs,*])

/-! ## Running a line in parts

A line of operations run from a valuation is its first `n` operations run from it and then the rest run from what those
left.  When each operation writes exactly the reference at its place in a list of references, a reference outside that
list keeps its contents, and the same holds of any stretch of the line against the same stretch of the list.  So a
buffer's contents after a line are its contents after the line's operations up to the one that writes it, and what a
stretch computes depends only on what the operations before it left in the buffers it reads. -/

private theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

private theorem after_split (n : Nat) (ops : List (HloOp τ sig (Elt F))) (V : Valuation τ sig (Elt F)) :
    after ops V = after (ops.drop n) (after (ops.take n) V) :=
  (congrArg (fun l => after l V) (List.take_append_drop n ops)).symm.trans (after_append _ _ V)

/-- Each operation of the line writes exactly the reference at its place in the list. -/
private def WritesAt (ops : List (HloOp τ sig (Elt F))) (rs : List (Ref sig .tc)) : Prop :=
  ops.map HloOp.writes = rs.map fun r => ({Proc.devRef (τ := τ) .tc r} : Finset (DevRef τ sig))

private theorem WritesAt.take {ops : List (HloOp τ sig (Elt F))} {rs : List (Ref sig .tc)} (h : WritesAt ops rs)
    (n : Nat) : WritesAt (ops.take n) (rs.take n) := by
  unfold WritesAt at h ⊢
  rw [List.map_take, h, List.map_take]

private theorem WritesAt.drop {ops : List (HloOp τ sig (Elt F))} {rs : List (Ref sig .tc)} (h : WritesAt ops rs)
    (n : Nat) : WritesAt (ops.drop n) (rs.drop n) := by
  unfold WritesAt at h ⊢
  rw [List.map_drop, h, List.map_drop]

/-- A reference the line does not write keeps its contents. -/
private theorem after_keep {ops : List (HloOp τ sig (Elt F))} {rs : List (Ref sig .tc)} (h : WritesAt ops rs)
    {r : Ref sig .tc} (hr : r ∉ rs) (V : Valuation τ sig (Elt F)) :
    after ops V (Proc.devRef .tc r) = V (Proc.devRef .tc r) := by
  refine after_of_forall_not_mem ops V fun op hop hb => ?_
  have hm : op.writes ∈ ops.map HloOp.writes := List.mem_map_of_mem hop
  rw [h, List.mem_map] at hm
  obtain ⟨r', hr', e⟩ := hm
  rw [← e, Finset.mem_singleton] at hb
  exact hr (Proc.devRef_injective _ hb ▸ hr')

/-- A buffer's contents after the line are its contents after the first `n` operations, when none after them writes it. -/
private theorem after_upto {ops : List (HloOp τ sig (Elt F))} {rs : List (Ref sig .tc)} (h : WritesAt ops rs) (n : Nat)
    {r : Ref sig .tc} (hr : r ∉ rs.drop n) (V : Valuation τ sig (Elt F)) :
    after ops V (Proc.devRef .tc r) = after (ops.take n) V (Proc.devRef .tc r) := by
  rw [after_split n ops V]
  exact after_keep (h.drop n) hr _

/-! ## Window 1

The argument arrays and the three buffers of window 0 that later windows still read are written by no operation here.
The window is three stretches: the first eight operations finish the first box's corner form from the numbers of
cut 1; the next forty-two compute the second box from the first argument array alone; the last ten take the target
box's four numbers from the second argument array and set the grid size. -/

/-- The references the operations of window 1 write, in order. -/
private noncomputable def wr1 : List (Ref sig .tc) :=
  [main_v47, main_v48, main_v49, main_v50, main_v51, main_v52, main_v53, main_v54, main_v55, main_v56, main_v57,
   main_v58, main_v59, main_v60, main_v61, main_v62, main_v63, main_cst_12, main_v64, main_v65, main_cst_13, main_v66,
   main_v67, main_v68, main_cst_14, main_v69, main_v70, main_cst_15, main_v71, main_v72, main_v73, main_cst_16,
   main_v74, main_v75, main_cst_17, main_v76, main_v77, main_v78, main_cst_18, main_v79, main_v80, main_cst_19,
   main_v81, main_v82, main_v83, main_v84, main_v85, main_v86, main_v87, main_v88, main_v89, main_v90, main_v91,
   main_v92, main_v93, main_v94, main_v95, main_v96, main_cst_20, main_v97]

private theorem wr1_spec : WritesAt (F := F) ops1 wr1 := by
  unfold WritesAt
  rfl

private theorem w1_arg0 : after ops1 W (Proc.devRef .tc main_arg0) = W (Proc.devRef .tc main_arg0) :=
  after_keep wr1_spec (by decide) W
private theorem w1_arg1 : after ops1 W (Proc.devRef .tc main_arg1) = W (Proc.devRef .tc main_arg1) :=
  after_keep wr1_spec (by decide) W
private theorem w1_arg2 : after ops1 W (Proc.devRef .tc main_arg2) = W (Proc.devRef .tc main_arg2) :=
  after_keep wr1_spec (by decide) W
private theorem w1_arg3 : after ops1 W (Proc.devRef .tc main_arg3) = W (Proc.devRef .tc main_arg3) :=
  after_keep wr1_spec (by decide) W
private theorem w1_v0 : after ops1 W (Proc.devRef .tc main_v0) = W (Proc.devRef .tc main_v0) :=
  after_keep wr1_spec (by decide) W
private theorem w1_v8 : after ops1 W (Proc.devRef .tc main_v8) = W (Proc.devRef .tc main_v8) :=
  after_keep wr1_spec (by decide) W
private theorem w1_v20 : after ops1 W (Proc.devRef .tc main_v20) = W (Proc.devRef .tc main_v20) :=
  after_keep wr1_spec (by decide) W

/-- The first box's four corner numbers, each with a last axis of one, after the first seven operations.  Three are
    numbers of cut 1 given that axis; the fourth is first finished, as the second number over the grid size plus one
    half times the fourth number, all three from cut 1. -/
private theorem w1_box1 (hc : W (Proc.devRef .tc main_cst_11) = val_main_cst_11 (F := F))
    (h29 : W (Proc.devRef .tc main_v29) = val_main_v29 (F := F) x0)
    (h34 : W (Proc.devRef .tc main_v34) = val_main_v34 (F := F) x0)
    (h39 : W (Proc.devRef .tc main_v39) = val_main_v39 (F := F) x0)
    (h44 : W (Proc.devRef .tc main_v44) = val_main_v44 (F := F) x0)
    (h46 : W (Proc.devRef .tc main_v46) = val_main_v46 (F := F) x0) :
    after (ops1.take 7) W (Proc.devRef .tc main_v50) = val_main_v50 (F := F) x0
    ∧ after (ops1.take 7) W (Proc.devRef .tc main_v51) = val_main_v51 (F := F) x0
    ∧ after (ops1.take 7) W (Proc.devRef .tc main_v52) = val_main_v52 (F := F) x0
    ∧ after (ops1.take 7) W (Proc.devRef .tc main_v53) = val_main_v53 (F := F) x0 := by
  refine ⟨?_, ?_, ?_, ?_⟩
  all_goals
    show after (holes% 7) W _ = _
    after_results_simp
    simp only [hc, h29, h34, h39, h44, h46]
    rfl

/-- The first box in corner form: the eighth operation joins the four numbers along the last axis, and no later one
    writes its buffer. -/
private theorem w1_v54 (hc : W (Proc.devRef .tc main_cst_11) = val_main_cst_11 (F := F))
    (h29 : W (Proc.devRef .tc main_v29) = val_main_v29 (F := F) x0)
    (h34 : W (Proc.devRef .tc main_v34) = val_main_v34 (F := F) x0)
    (h39 : W (Proc.devRef .tc main_v39) = val_main_v39 (F := F) x0)
    (h44 : W (Proc.devRef .tc main_v44) = val_main_v44 (F := F) x0)
    (h46 : W (Proc.devRef .tc main_v46) = val_main_v46 (F := F) x0) :
    after ops1 W (Proc.devRef .tc main_v54) = val_main_v54 (F := F) x0 := by
  obtain ⟨e50, e51, e52, e53⟩ := w1_box1 W x0 hc h29 h34 h39 h44 h46
  rw [after_split 7 ops1 W, after_upto (r := main_v54) (wr1_spec.drop 7) 1 (by decide)]
  show after [_] _ _ = _
  simp only [after_cons, after_nil]
  rw [nary4_result, e50, e51, e52, e53]
  rfl

/-- The second box's four corner numbers, each with a last axis of one, after the first forty-nine operations: the
    forty-one after the first eight compute them from the first argument array, which those eight leave as it was. -/
private theorem w1_box2 (h0 : W (Proc.devRef .tc main_arg0) = x0) :
    after (ops1.take 49) W (Proc.devRef .tc main_v84) = val_main_v84 (F := F) x0
    ∧ after (ops1.take 49) W (Proc.devRef .tc main_v85) = val_main_v85 (F := F) x0
    ∧ after (ops1.take 49) W (Proc.devRef .tc main_v86) = val_main_v86 (F := F) x0
    ∧ after (ops1.take 49) W (Proc.devRef .tc main_v87) = val_main_v87 (F := F) x0 := by
  rw [after_split 8 (ops1.take 49) W]
  have hV : after ((ops1.take 49).take 8) W (Proc.devRef .tc main_arg0) = x0 :=
    (after_keep ((wr1_spec.take 49).take 8) (by decide) W).trans h0
  generalize after ((ops1.take 49).take 8) W = V at hV ⊢
  subst hV
  refine ⟨?_, ?_, ?_, ?_⟩
  all_goals
    show after (holes% 41) V _ = _
    after_results_simp <;> rfl

/-- The second box in corner form: the fiftieth operation joins the four numbers along the last axis, and no later one
    writes its buffer. -/
private theorem w1_v88 (h0 : W (Proc.devRef .tc main_arg0) = x0) :
    after ops1 W (Proc.devRef .tc main_v88) = val_main_v88 (F := F) x0 := by
  obtain ⟨e84, e85, e86, e87⟩ := w1_box2 W x0 h0
  rw [after_split 49 ops1 W, after_upto (r := main_v88) (wr1_spec.drop 49) 1 (by decide)]
  show after [_] _ _ = _
  simp only [after_cons, after_nil]
  rw [nary4_result, e84, e85, e86, e87]
  rfl

/-- The target box's four numbers, each a slice of the second argument array without its last axis, and the grid size
    at every cell: the last ten operations compute them, the first fifty leaving the second argument array as it was. -/
private theorem w1_target (h1 : W (Proc.devRef .tc main_arg1) = x1) :
    after ops1 W (Proc.devRef .tc main_v90) = val_main_v90 (F := F) x1
    ∧ after ops1 W (Proc.devRef .tc main_v92) = val_main_v92 (F := F) x1
    ∧ after ops1 W (Proc.devRef .tc main_v94) = val_main_v94 (F := F) x1
    ∧ after ops1 W (Proc.devRef .tc main_v96) = val_main_v96 (F := F) x1
    ∧ after ops1 W (Proc.devRef .tc main_v97) = val_main_v97 (F := F) := by
  rw [after_split 50 ops1 W]
  have hV : after (ops1.take 50) W (Proc.devRef .tc main_arg1) = x1 :=
    (after_keep (wr1_spec.take 50) (by decide) W).trans h1
  generalize after (ops1.take 50) W = V at hV ⊢
  subst hV
  refine ⟨?_, ?_, ?_, ?_, ?_⟩
  all_goals
    show after (holes% 10) V _ = _
    after_results_simp <;> rfl

/-- Window 1 carries what holds at cut 1 to what holds at cut 2. -/
theorem win1 (h : Cut1 W x0 x1 x2 x3) : Cut2 (after ops1 W) x0 x1 x2 x3 := by
  unfold Cut1 at h
  obtain ⟨h0, h1, h2, h3, hc11, hv0, hv8, hv20, hv29, hv34, hv39, hv44, hv46⟩ := h
  obtain ⟨e90, e92, e94, e96, e97⟩ := w1_target W x1 h1
  unfold Cut2
  exact ⟨(w1_arg0 W).trans h0, (w1_arg1 W).trans h1, (w1_arg2 W).trans h2, (w1_arg3 W).trans h3,
    (w1_v0 W).trans hv0, (w1_v8 W).trans hv8, (w1_v20 W).trans hv20,
    w1_v54 W x0 hc11 hv29 hv34 hv39 hv44 hv46, w1_v88 W x0 h0, e90, e92, e94, e96, e97⟩

end Cert.ReferenceIdeal.RunP

end
-- ==== Proof.RefWinB.lean ====
/-
  The reference's third and fourth windows of operations: the target box in corner form and transformed a second time,
  and the first overlap ratio with the clipped differences of the second.
-/
import proofs.«420472_j34711925687028_3_alg».proof.Proof.RefOps
import proofs.«420472_j34711925687028_3_alg».proof.Proof.RefCuts
import Idealize.ShloMosaic.Lib.StableHlo.Run
import Mathlib.Data.List.Basic
import Mathlib.Data.Finset.Insert
import Mathlib.Data.Finset.Dedup

set_option maxRecDepth 8192

noncomputable section

namespace Cert.ReferenceIdeal.RunP

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]
variable (W : Valuation τ sig (Elt F)) (x0 : (⟨S4096x14x14x30, .f32⟩ : BufTy).Contents (Elt F)) (x1 : (⟨S4096x14x14x4, .f32⟩ : BufTy).Contents (Elt F))
  (x2 : (⟨S4096x14x14x20, .f32⟩ : BufTy).Contents (Elt F)) (x3 : (⟨S4096x14x14, .i1⟩ : BufTy).Contents (Elt F))

/-! ## A line of operations, in parts

A line run from a valuation is its first `n` operations run from it, and then the rest run from what those left.  What
holds of every operation of a line holds of every operation of either part.  So a window is taken in three parts: the
operations before its one join of four arrays, the join alone, and the operations after it; each part is read from what
the part before left in the buffers it reads. -/

/-- A line run from `V` is its first `n` operations run from `V` and then the rest run from the outcome. -/
private theorem after_split (n : Nat) :
    ∀ (ops : List (HloOp τ sig (Elt F))) (V : Valuation τ sig (Elt F)),
      after ops V = after (ops.drop n) (after (ops.take n) V) := by
  induction n with
  | zero => intro ops V; rfl
  | succ n ih =>
    intro ops V
    cases ops with
    | nil => rfl
    | cons op ops => exact ih ops (op.result V)

/-- What holds of every operation of a line holds of every one of its first `n`. -/
private theorem forall_take {p : HloOp τ sig (Elt F) → Prop} {l : List (HloOp τ sig (Elt F))} (h : l.Forall p)
    (n : Nat) : (l.take n).Forall p :=
  List.forall_iff_forall_mem.mpr fun x hx => List.forall_iff_forall_mem.mp h x (List.mem_of_mem_take hx)

/-- What holds of every operation of a line holds of every one after its first `n`. -/
private theorem forall_drop {p : HloOp τ sig (Elt F) → Prop} {l : List (HloOp τ sig (Elt F))} (h : l.Forall p)
    (n : Nat) : (l.drop n).Forall p :=
  List.forall_iff_forall_mem.mpr fun x hx => List.forall_iff_forall_mem.mp h x (List.mem_of_mem_drop hx)

/-- The contents of a buffer after a line of operations, written out: an operation's result at its own buffer is its
    function of the contents its operands held before it, and at any other buffer it is what that buffer held before. -/
local macro "line_results" : tactic =>
  `(tactic| (simp (disch := decide) only [List.take_succ_cons, List.take_zero, List.drop_succ_cons, List.drop_zero,
      after_cons, after_nil,
      nullary_result', unary_result', binary_result', reshape_result',
      nullary_result_ne', unary_result_ne', binary_result_ne', reshape_result_ne', nary_result_ne']))

/-! ## Window 2

Sixty operations.  The first thirty take the target box's four numbers and the grid size from cut 2 and compute the
box's four corner numbers (centre over grid size, less or plus half the extent), each then given a last axis of one.
Operation thirty-one joins the four along that axis: the target box in corner form.  The last twenty-nine cut that box
into its four columns again and compute from them the first three corner numbers of its second transform.  No
operation writes an argument array or any of the five earlier buffers that cut 3 still lists. -/

/-- The references the operations of window 2 write, in order. -/
private noncomputable def wr2 : List (Ref sig .tc) :=
  [main_v98, main_cst_21, main_v99, main_v100, main_v101, main_cst_22, main_v102, main_v103, main_cst_23, main_v104,
   main_v105, main_v106, main_cst_24, main_v107, main_v108, main_cst_25, main_v109, main_v110, main_v111, main_cst_26,
   main_v112, main_v113, main_cst_27, main_v114, main_v115, main_v116, main_v117, main_v118, main_v119, main_v120,
   main_v121, main_v122, main_v123, main_v124, main_v125, main_v126, main_v127, main_v128, main_v129, main_cst_28,
   main_v130, main_v131, main_cst_29, main_v132, main_v133, main_v134, main_cst_30, main_v135, main_v136, main_cst_31,
   main_v137, main_v138, main_v139, main_cst_32, main_v140, main_v141, main_cst_33, main_v142, main_v143, main_v144]

set_option maxHeartbeats 1000000 in
/-- Each operation of window 2 writes a reference of that list. -/
private theorem wr2_sub : (ops2 : List (HloOp τ sig (Elt F))).Forall fun op =>
    op.writes ⊆ (wr2.map (Proc.devRef (τ := τ) .tc)).toFinset := by
  simp only [ops2, List.Forall, nullary_writes, unary_writes, binary_writes, reshape_writes, nary_writes,
    Finset.singleton_subset_iff, List.mem_toFinset]
  repeat' apply And.intro
  all_goals exact List.mem_map_of_mem (by decide)

/-- A buffer window 2 does not write keeps its contents. -/
private theorem keep2 (r : Ref sig .tc) (hr : r ∉ wr2) :
    after ops2 W (Proc.devRef .tc r) = W (Proc.devRef .tc r) :=
  after_of_writes_sub ops2 W wr2_sub hr

/-! ### The first thirty operations: the target box's four corner numbers -/

set_option maxHeartbeats 1000000 in
/-- The left edge: the first number over the grid size, less half the third. -/
private theorem w2_v117 (h90 : W (Proc.devRef .tc main_v90) = val_main_v90 (F := F) x1)
    (h94 : W (Proc.devRef .tc main_v94) = val_main_v94 (F := F) x1)
    (h97 : W (Proc.devRef .tc main_v97) = val_main_v97 (F := F)) :
    after (ops2.take 30) W (Proc.devRef .tc main_v117) = val_main_v117 (F := F) x1 := by
  line_results
  rw [h90, h97, h94]
  rfl

set_option maxHeartbeats 1000000 in
/-- The top edge: the second number over the grid size, less half the fourth. -/
private theorem w2_v118 (h92 : W (Proc.devRef .tc main_v92) = val_main_v92 (F := F) x1)
    (h96 : W (Proc.devRef .tc main_v96) = val_main_v96 (F := F) x1) :
    after (ops2.take 30) W (Proc.devRef .tc main_v118) = val_main_v118 (F := F) x1 := by
  line_results
  rw [h92, h96]
  rfl

set_option maxHeartbeats 1000000 in
/-- The right edge: the first number over the grid size, plus half the third. -/
private theorem w2_v119 (h90 : W (Proc.devRef .tc main_v90) = val_main_v90 (F := F) x1)
    (h94 : W (Proc.devRef .tc main_v94) = val_main_v94 (F := F) x1) :
    after (ops2.take 30) W (Proc.devRef .tc main_v119) = val_main_v119 (F := F) x1 := by
  line_results
  rw [h90, h94]
  rfl

set_option maxHeartbeats 1000000 in
/-- The bottom edge: the second number over the grid size, plus half the fourth. -/
private theorem w2_v120 (h92 : W (Proc.devRef .tc main_v92) = val_main_v92 (F := F) x1)
    (h96 : W (Proc.devRef .tc main_v96) = val_main_v96 (F := F) x1) :
    after (ops2.take 30) W (Proc.devRef .tc main_v120) = val_main_v120 (F := F) x1 := by
  line_results
  rw [h92, h96]
  rfl

/-! ### Operation thirty-one: the four corner numbers joined -/

set_option maxHeartbeats 1000000 in
/-- From any valuation holding the four corner numbers at their stages, the join leaves the target box in corner form. -/
private theorem w2_v121 (V : Valuation τ sig (Elt F))
    (h117 : V (Proc.devRef .tc main_v117) = val_main_v117 (F := F) x1)
    (h118 : V (Proc.devRef .tc main_v118) = val_main_v118 (F := F) x1)
    (h119 : V (Proc.devRef .tc main_v119) = val_main_v119 (F := F) x1)
    (h120 : V (Proc.devRef .tc main_v120) = val_main_v120 (F := F) x1) :
    after ((ops2.drop 30).take 1) V (Proc.devRef .tc main_v121) = val_main_v121 (F := F) x1 := by
  conv_lhs => arg 1; whnf
  simp only [List.take_zero, after_cons, after_nil]
  rw [nary4_result, h117, h118, h119, h120]
  rfl

/-! ### The last twenty-nine operations, from any valuation holding the joined box at its stage -/

set_option maxHeartbeats 1000000 in
/-- None of them writes the joined box. -/
private theorem w2_v121_kept (V : Valuation τ sig (Elt F))
    (h121 : V (Proc.devRef .tc main_v121) = val_main_v121 (F := F) x1) :
    after ((ops2.drop 30).drop 1) V (Proc.devRef .tc main_v121) = val_main_v121 (F := F) x1 := by
  conv_lhs => arg 1; whnf
  line_results
  exact h121

set_option maxHeartbeats 1000000 in
/-- The box's second column. -/
private theorem w2_v125 (V : Valuation τ sig (Elt F))
    (h121 : V (Proc.devRef .tc main_v121) = val_main_v121 (F := F) x1) :
    after ((ops2.drop 30).drop 1) V (Proc.devRef .tc main_v125) = val_main_v125 (F := F) x1 := by
  conv_lhs => arg 1; whnf
  line_results
  rw [h121]
  rfl

set_option maxHeartbeats 1000000 in
/-- The box's fourth column. -/
private theorem w2_v129 (V : Valuation τ sig (Elt F))
    (h121 : V (Proc.devRef .tc main_v121) = val_main_v121 (F := F) x1) :
    after ((ops2.drop 30).drop 1) V (Proc.devRef .tc main_v129) = val_main_v129 (F := F) x1 := by
  conv_lhs => arg 1; whnf
  line_results
  rw [h121]
  rfl

set_option maxHeartbeats 1000000 in
/-- The second transform's first number: the first column over the grid size, less half the third column. -/
private theorem w2_v134 (V : Valuation τ sig (Elt F))
    (h121 : V (Proc.devRef .tc main_v121) = val_main_v121 (F := F) x1) :
    after ((ops2.drop 30).drop 1) V (Proc.devRef .tc main_v134) = val_main_v134 (F := F) x1 := by
  conv_lhs => arg 1; whnf
  line_results
  rw [h121]
  rfl

set_option maxHeartbeats 1000000 in
/-- Its second number: the second column over the grid size, less half the fourth column. -/
private theorem w2_v139 (V : Valuation τ sig (Elt F))
    (h121 : V (Proc.devRef .tc main_v121) = val_main_v121 (F := F) x1) :
    after ((ops2.drop 30).drop 1) V (Proc.devRef .tc main_v139) = val_main_v139 (F := F) x1 := by
  conv_lhs => arg 1; whnf
  line_results
  rw [h121]
  rfl

set_option maxHeartbeats 1000000 in
/-- Its third number: the first column over the grid size, plus half the third column. -/
private theorem w2_v144 (V : Valuation τ sig (Elt F))
    (h121 : V (Proc.devRef .tc main_v121) = val_main_v121 (F := F) x1) :
    after ((ops2.drop 30).drop 1) V (Proc.devRef .tc main_v144) = val_main_v144 (F := F) x1 := by
  conv_lhs => arg 1; whnf
  line_results
  rw [h121]
  rfl

/-- Window 2 carries what holds at cut 2 to what holds at cut 3. -/
theorem win2 (h : Cut2 W x0 x1 x2 x3) : Cut3 (after ops2 W) x0 x1 x2 x3 := by
  unfold Cut2 at h
  obtain ⟨ha0, ha1, ha2, ha3, h0, h8, h20, h54, h88, h90, h92, h94, h96, h97⟩ := h
  have hs : after ops2 W
      = after ((ops2.drop 30).drop 1) (after ((ops2.drop 30).take 1) (after (ops2.take 30) W)) :=
    (after_split 30 ops2 W).trans (after_split 1 _ _)
  have m121 := w2_v121 x1 (after (ops2.take 30) W) (w2_v117 W x1 h90 h94 h97) (w2_v118 W x1 h92 h96)
    (w2_v119 W x1 h90 h94) (w2_v120 W x1 h92 h96)
  unfold Cut3
  exact ⟨(keep2 W main_arg0 (by decide)).trans ha0, (keep2 W main_arg1 (by decide)).trans ha1,
    (keep2 W main_arg2 (by decide)).trans ha2, (keep2 W main_arg3 (by decide)).trans ha3,
    (keep2 W main_v0 (by decide)).trans h0, (keep2 W main_v8 (by decide)).trans h8,
    (keep2 W main_v20 (by decide)).trans h20, (keep2 W main_v54 (by decide)).trans h54,
    (keep2 W main_v88 (by decide)).trans h88,
    (congrFun hs _).trans (w2_v121_kept x1 _ m121), (congrFun hs _).trans (w2_v125 x1 _ m121),
    (congrFun hs _).trans (w2_v129 x1 _ m121), (congrFun hs _).trans (w2_v134 x1 _ m121),
    (congrFun hs _).trans (w2_v139 x1 _ m121), (congrFun hs _).trans (w2_v144 x1 _ m121)⟩

/-! ## Window 3

Sixty-four operations.  The first eleven finish the second transform's fourth number from the box's second and fourth
columns and give all four numbers a last axis of one.  The twelfth joins them: the second transform of the target box.
The last fifty-two compute two things.  From the first predicted box and the target box in corner form: the
differences between the lesser of the far corners and the greater of the near corners, clipped below at zero, their
product (the overlap's area), the two boxes' areas, and the first overlap ratio, the overlap's area over the sum of the
two areas less it.  From the second predicted box and the joined second transform: the same clipped differences for
the second ratio.  Each clip is the maximum with zero spread over the array, taken by three operations of a called
function written in place.  No operation writes an argument array or any of the five earlier buffers of cut 4; the
first box, the second box and the target box in corner form are read but not written. -/

/-- The references the operations of window 3 write, in order. -/
private noncomputable def wr3 : List (Ref sig .tc) :=
  [main_cst_34, main_v145, main_v146, main_cst_35, main_v147, main_v148, main_v149, main_v150, main_v151, main_v152,
   main_v153, main_v154, main_v155, main_v156, main_v157, main_v158, main_v159, main_v160, main_v161, main_cst_36,
   main_call0_v0, main_call0_v1, main_v162, main_v163, main_v164, main_v165, main_v166, main_v167, main_v168,
   main_v169, main_v170, main_v171, main_v172, main_v173, main_v174, main_v175, main_v176, main_v177, main_v178,
   main_v179, main_v180, main_v181, main_v182, main_v183, main_v184, main_v185, main_v186, main_v187, main_v188,
   main_v189, main_v190, main_v191, main_v192, main_v193, main_v194, main_v195, main_v196, main_v197, main_v198,
   main_v199, main_cst_37, main_call1_v0, main_call1_v1, main_v200]

set_option maxHeartbeats 1000000 in
/-- Each operation of window 3 writes a reference of that list. -/
private theorem wr3_sub : (ops3 : List (HloOp τ sig (Elt F))).Forall fun op =>
    op.writes ⊆ (wr3.map (Proc.devRef (τ := τ) .tc)).toFinset := by
  simp only [ops3, List.Forall, nullary_writes, unary_writes, binary_writes, reshape_writes, nary_writes,
    Finset.singleton_subset_iff, List.mem_toFinset]
  repeat' apply And.intro
  all_goals exact List.mem_map_of_mem (by decide)

/-- A buffer window 3 does not write keeps its contents through the window, -/
private theorem keep3 (r : Ref sig .tc) (hr : r ∉ wr3) :
    after ops3 W (Proc.devRef .tc r) = W (Proc.devRef .tc r) :=
  after_of_writes_sub ops3 W wr3_sub hr

/-- through its first eleven operations, -/
private theorem keep3_first (V : Valuation τ sig (Elt F)) (r : Ref sig .tc) (hr : r ∉ wr3) :
    after (ops3.take 11) V (Proc.devRef .tc r) = V (Proc.devRef .tc r) :=
  after_of_writes_sub _ V (forall_take wr3_sub 11) hr

/-- and through its twelfth. -/
private theorem keep3_join (V : Valuation τ sig (Elt F)) (r : Ref sig .tc) (hr : r ∉ wr3) :
    after ((ops3.drop 11).take 1) V (Proc.devRef .tc r) = V (Proc.devRef .tc r) :=
  after_of_writes_sub _ V (forall_take (forall_drop wr3_sub 11) 1) hr

/-! ### The first eleven operations: the second transform's four numbers, each with a last axis of one -/

set_option maxHeartbeats 1000000 in
private theorem w3_v150 (h134 : W (Proc.devRef .tc main_v134) = val_main_v134 (F := F) x1) :
    after (ops3.take 11) W (Proc.devRef .tc main_v150) = val_main_v150 (F := F) x1 := by
  line_results
  rw [h134]
  rfl

set_option maxHeartbeats 1000000 in
private theorem w3_v151 (h139 : W (Proc.devRef .tc main_v139) = val_main_v139 (F := F) x1) :
    after (ops3.take 11) W (Proc.devRef .tc main_v151) = val_main_v151 (F := F) x1 := by
  line_results
  rw [h139]
  rfl

set_option maxHeartbeats 1000000 in
private theorem w3_v152 (h144 : W (Proc.devRef .tc main_v144) = val_main_v144 (F := F) x1) :
    after (ops3.take 11) W (Proc.devRef .tc main_v152) = val_main_v152 (F := F) x1 := by
  line_results
  rw [h144]
  rfl

set_option maxHeartbeats 1000000 in
/-- The fourth number is finished here: the second column over the grid size, plus half the fourth column. -/
private theorem w3_v153 (h125 : W (Proc.devRef .tc main_v125) = val_main_v125 (F := F) x1)
    (h129 : W (Proc.devRef .tc main_v129) = val_main_v129 (F := F) x1) :
    after (ops3.take 11) W (Proc.devRef .tc main_v153) = val_main_v153 (F := F) x1 := by
  line_results
  rw [h125, h129]
  rfl

/-! ### Operation twelve: the four numbers joined -/

set_option maxHeartbeats 1000000 in
/-- From any valuation holding the four numbers at their stages, the join leaves the second transform of the target box. -/
private theorem w3_v154 (V : Valuation τ sig (Elt F))
    (h150 : V (Proc.devRef .tc main_v150) = val_main_v150 (F := F) x1)
    (h151 : V (Proc.devRef .tc main_v151) = val_main_v151 (F := F) x1)
    (h152 : V (Proc.devRef .tc main_v152) = val_main_v152 (F := F) x1)
    (h153 : V (Proc.devRef .tc main_v153) = val_main_v153 (F := F) x1) :
    after ((ops3.drop 11).take 1) V (Proc.devRef .tc main_v154) = val_main_v154 (F := F) x1 := by
  conv_lhs => arg 1; whnf
  simp only [List.take_zero, after_cons, after_nil]
  rw [nary4_result, h150, h151, h152, h153]
  rfl

/-! ### The last fifty-two operations, from any valuation holding the buffers they read at their stages -/

set_option maxHeartbeats 1000000 in
/-- None of them writes the joined transform. -/
private theorem w3_v154_kept (V : Valuation τ sig (Elt F))
    (h154 : V (Proc.devRef .tc main_v154) = val_main_v154 (F := F) x1) :
    after ((ops3.drop 11).drop 1) V (Proc.devRef .tc main_v154) = val_main_v154 (F := F) x1 := by
  conv_lhs => arg 1; whnf
  line_results
  exact h154

set_option maxHeartbeats 1000000 in
/-- The first overlap ratio, from the first box and the target box in corner form. -/
private theorem w3_v192 (V : Valuation τ sig (Elt F))
    (h54 : V (Proc.devRef .tc main_v54) = val_main_v54 (F := F) x0)
    (h121 : V (Proc.devRef .tc main_v121) = val_main_v121 (F := F) x1) :
    after ((ops3.drop 11).drop 1) V (Proc.devRef .tc main_v192) = val_main_v192 (F := F) x0 x1 := by
  conv_lhs => arg 1; whnf
  line_results
  rw [h54, h121]
  rfl

set_option maxHeartbeats 1000000 in
/-- The second ratio's clipped corner differences, from the second box and the joined transform. -/
private theorem w3_v200 (V : Valuation τ sig (Elt F))
    (h88 : V (Proc.devRef .tc main_v88) = val_main_v88 (F := F) x0)
    (h154 : V (Proc.devRef .tc main_v154) = val_main_v154 (F := F) x1) :
    after ((ops3.drop 11).drop 1) V (Proc.devRef .tc main_v200) = val_main_v200 (F := F) x0 x1 := by
  conv_lhs => arg 1; whnf
  line_results
  rw [h88, h154]
  rfl

/-- Window 3 carries what holds at cut 3 to what holds at cut 4. -/
theorem win3 (h : Cut3 W x0 x1 x2 x3) : Cut4 (after ops3 W) x0 x1 x2 x3 := by
  unfold Cut3 at h
  obtain ⟨ha0, ha1, ha2, ha3, h0, h8, h20, h54, h88, h121, h125, h129, h134, h139, h144⟩ := h
  have hs : after ops3 W
      = after ((ops3.drop 11).drop 1) (after ((ops3.drop 11).take 1) (after (ops3.take 11) W)) :=
    (after_split 11 ops3 W).trans (after_split 1 _ _)
  have m154 := w3_v154 x1 (after (ops3.take 11) W) (w3_v150 W x1 h134) (w3_v151 W x1 h139) (w3_v152 W x1 h144)
    (w3_v153 W x1 h125 h129)
  have m54 := ((keep3_join (after (ops3.take 11) W) main_v54 (by decide)).trans
    (keep3_first W main_v54 (by decide))).trans h54
  have m88 := ((keep3_join (after (ops3.take 11) W) main_v88 (by decide)).trans
    (keep3_first W main_v88 (by decide))).trans h88
  have m121 := ((keep3_join (after (ops3.take 11) W) main_v121 (by decide)).trans
    (keep3_first W main_v121 (by decide))).trans h121
  unfold Cut4
  exact ⟨(keep3 W main_arg0 (by decide)).trans ha0, (keep3 W main_arg1 (by decide)).trans ha1,
    (keep3 W main_arg2 (by decide)).trans ha2, (keep3 W main_arg3 (by decide)).trans ha3,
    (keep3 W main_v0 (by decide)).trans h0, (keep3 W main_v8 (by decide)).trans h8,
    (keep3 W main_v20 (by decide)).trans h20, (keep3 W main_v54 (by decide)).trans h54,
    (keep3 W main_v88 (by decide)).trans h88,
    (congrFun hs _).trans (w3_v154_kept x1 _ m154), (congrFun hs _).trans (w3_v192 x0 x1 _ m54 m121),
    (congrFun hs _).trans (w3_v200 x0 x1 _ m88 m154)⟩

end Cert.ReferenceIdeal.RunP

end
-- ==== Proof.RefWinC.lean ====
/-
  The reference's last two windows of operations: the second overlap ratio, the choice between the boxes, the corner and
  confidence sums, the total, and the five results stacked.
-/
import proofs.«420472_j34711925687028_3_alg».proof.Proof.RefOps
import proofs.«420472_j34711925687028_3_alg».proof.Proof.RefCuts
import Idealize.ShloMosaic.Lib.StableHlo.Run

set_option maxRecDepth 8192

noncomputable section

namespace Cert.ReferenceIdeal.RunP

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]
variable (W : Valuation τ sig (Elt F)) (x0 : (⟨S4096x14x14x30, .f32⟩ : BufTy).Contents (Elt F)) (x1 : (⟨S4096x14x14x4, .f32⟩ : BufTy).Contents (Elt F))
  (x2 : (⟨S4096x14x14x20, .f32⟩ : BufTy).Contents (Elt F)) (x3 : (⟨S4096x14x14, .i1⟩ : BufTy).Contents (Elt F))

/-- No operation of a literal list writes a given literal buffer: each operation writes its own result buffer only,
    and that is another reference. -/
local macro "not_written" : tactic =>
  `(tactic| (simp only [ops4, ops5, List.Forall, nullary_writes, unary_writes, binary_writes, ternary_writes, reshape_writes,
               nary_writes, Finset.mem_singleton]
             repeat' apply And.intro
             all_goals exact devRef_ne_of_ne (by decide)))

/-! ## Window 4 -/

/-- A buffer that no operation of window 4 writes holds after the window what it held before. -/
private theorem keep4 {r : Ref sig .tc}
    (hr : (ops4 (F := F)).Forall fun op => Proc.devRef .tc r ∉ op.writes) :
    after ops4 W (Proc.devRef .tc r) = W (Proc.devRef .tc r) :=
  after_of_forall_not_mem ops4 W (List.forall_iff_forall_mem.mp hr)

/-- The corner sum: the masked squared differences between the first two coordinates of the chosen box and of the
    target box, summed over every cell and divided by the batch size. -/
private theorem win4_v243
    (h0 : W (Proc.devRef .tc main_v0) = val_main_v0 (F := F) x3)
    (h54 : W (Proc.devRef .tc main_v54) = val_main_v54 (F := F) x0)
    (h88 : W (Proc.devRef .tc main_v88) = val_main_v88 (F := F) x0)
    (h154 : W (Proc.devRef .tc main_v154) = val_main_v154 (F := F) x1)
    (h192 : W (Proc.devRef .tc main_v192) = val_main_v192 (F := F) x0 x1)
    (h200 : W (Proc.devRef .tc main_v200) = val_main_v200 (F := F) x0 x1) :
    after ops4 W (Proc.devRef .tc main_v243) = val_main_v243 (F := F) x0 x1 x3 := by
  after_results_simp
  simp only [TRef.ofBuf, TRef.toBuf, cast_eq]
  rw [h0, h54, h88, h154, h192, h200]
  rfl

/-- The confidence sum: the masked squared differences between the chosen box's confidence and the larger of the two
    overlap ratios, summed over every cell and divided by the batch size. -/
private theorem win4_v253
    (ha0 : W (Proc.devRef .tc main_arg0) = x0)
    (h0 : W (Proc.devRef .tc main_v0) = val_main_v0 (F := F) x3)
    (h88 : W (Proc.devRef .tc main_v88) = val_main_v88 (F := F) x0)
    (h154 : W (Proc.devRef .tc main_v154) = val_main_v154 (F := F) x1)
    (h192 : W (Proc.devRef .tc main_v192) = val_main_v192 (F := F) x0 x1)
    (h200 : W (Proc.devRef .tc main_v200) = val_main_v200 (F := F) x0 x1) :
    after ops4 W (Proc.devRef .tc main_v253) = val_main_v253 (F := F) x0 x1 x3 := by
  after_results_simp
  simp only [TRef.ofBuf, TRef.toBuf, cast_eq]
  rw [ha0, h0, h88, h154, h192, h200]
  rfl

/-- The total: the class sum, the no-object sum, the corner sum and the confidence sum added in that order. -/
private theorem win4_v256
    (ha0 : W (Proc.devRef .tc main_arg0) = x0)
    (h0 : W (Proc.devRef .tc main_v0) = val_main_v0 (F := F) x3)
    (h8 : W (Proc.devRef .tc main_v8) = val_main_v8 (F := F) x0 x2 x3)
    (h20 : W (Proc.devRef .tc main_v20) = val_main_v20 (F := F) x0 x3)
    (h54 : W (Proc.devRef .tc main_v54) = val_main_v54 (F := F) x0)
    (h88 : W (Proc.devRef .tc main_v88) = val_main_v88 (F := F) x0)
    (h154 : W (Proc.devRef .tc main_v154) = val_main_v154 (F := F) x1)
    (h192 : W (Proc.devRef .tc main_v192) = val_main_v192 (F := F) x0 x1)
    (h200 : W (Proc.devRef .tc main_v200) = val_main_v200 (F := F) x0 x1) :
    after ops4 W (Proc.devRef .tc main_v256) = val_main_v256 (F := F) x0 x1 x2 x3 := by
  after_results_simp
  simp only [TRef.ofBuf, TRef.toBuf, cast_eq]
  rw [ha0, h0, h8, h20, h54, h88, h154, h192, h200]
  rfl

/-- Window 4 carries what holds at cut 4 to what holds at cut 5. -/
theorem win4 (h : Cut4 W x0 x1 x2 x3) : Cut5 (after ops4 W) x0 x1 x2 x3 := by
  unfold Cut4 at h
  obtain ⟨ha0, ha1, ha2, ha3, h0, h8, h20, h54, h88, h154, h192, h200⟩ := h
  unfold Cut5
  refine ⟨?_, ?_, ?_, ?_, ?_, ?_, ?_, ?_, ?_⟩
  · exact (keep4 W (by not_written)).trans ha0
  · exact (keep4 W (by not_written)).trans ha1
  · exact (keep4 W (by not_written)).trans ha2
  · exact (keep4 W (by not_written)).trans ha3
  · exact (keep4 W (by not_written)).trans h8
  · exact (keep4 W (by not_written)).trans h20
  · exact win4_v243 W x0 x1 x3 h0 h54 h88 h154 h192 h200
  · exact win4_v253 W x0 x1 x3 ha0 h0 h88 h154 h192 h200
  · exact win4_v256 W x0 x1 x2 x3 ha0 h0 h8 h20 h54 h88 h154 h192 h200

/-! ## Window 5 -/

/-- An operation over a literal family of five operands: its result, with each operand's contents at its own
    reference. -/
private theorem nary5_result {τ' : Topo} {sig' : RefSig} {Val : EltTy → Type} {x a b c e y : Ref sig' .tc}
    (f : ((k : Fin 5) → ((![x, a, b, c, e] : Fin 5 → Ref sig' .tc) k).ty.Contents Val) → y.ty.Contents Val) (hxs hy)
    (V : Valuation τ' sig' Val) :
    (nary (τ := τ') ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

/-- A buffer that no operation of window 5 writes holds after the window what it held before. -/
private theorem keep5 {r : Ref sig .tc}
    (hr : (ops5 (F := F)).Forall fun op => Proc.devRef .tc r ∉ op.writes) :
    after ops5 W (Proc.devRef .tc r) = W (Proc.devRef .tc r) :=
  after_of_forall_not_mem ops5 W (List.forall_iff_forall_mem.mp hr)

/-- The five results stacked: the total, the corner sum, the confidence sum, the no-object sum and the class sum, each as
    a one-element array, joined in that order. -/
private theorem win5_v262
    (h8 : W (Proc.devRef .tc main_v8) = val_main_v8 (F := F) x0 x2 x3)
    (h20 : W (Proc.devRef .tc main_v20) = val_main_v20 (F := F) x0 x3)
    (h243 : W (Proc.devRef .tc main_v243) = val_main_v243 (F := F) x0 x1 x3)
    (h253 : W (Proc.devRef .tc main_v253) = val_main_v253 (F := F) x0 x1 x3)
    (h256 : W (Proc.devRef .tc main_v256) = val_main_v256 (F := F) x0 x1 x2 x3) :
    after ops5 W (Proc.devRef .tc main_v262) = val_main_v262 (F := F) x0 x1 x2 x3 := by
  simp only [ops5, after_cons, after_nil]
  rw [nary5_result]
  repeat (first | rw [unary_result] | (rw [unary_result_ne]; rotate_left; decide))
  rw [h8, h20, h243, h253, h256]
  rfl

/-- Window 5 carries what holds at cut 5 to what holds at cut 6. -/
theorem win5 (h : Cut5 W x0 x1 x2 x3) : Cut6 (after ops5 W) x0 x1 x2 x3 := by
  unfold Cut5 at h
  obtain ⟨ha0, ha1, ha2, ha3, h8, h20, h243, h253, h256⟩ := h
  unfold Cut6
  refine ⟨?_, ?_, ?_, ?_, ?_⟩
  · exact (keep5 W (by not_written)).trans ha0
  · exact (keep5 W (by not_written)).trans ha1
  · exact (keep5 W (by not_written)).trans ha2
  · exact (keep5 W (by not_written)).trans ha3
  · exact win5_v262 W x0 x1 x2 x3 h8 h20 h243 h253 h256

end Cert.ReferenceIdeal.RunP

end
-- ==== Proof.RefRun.lean ====
/-
  The reference's run, window by window.

  The reference's 311 operations are taken in the six windows in which they are printed.  Each operation writes one buffer
  that no other operation writes, so what a buffer holds after a window is its stage, a function of the four argument
  arrays; what holds at a cut is carried by the next window to the next cut.  At the end the result buffer holds the last
  stage and the argument arrays are as launched.
-/
import proofs.«420472_j34711925687028_3_alg».proof.Proof.RefWinA
import proofs.«420472_j34711925687028_3_alg».proof.Proof.RefWinB
import proofs.«420472_j34711925687028_3_alg».proof.Proof.RefWinC

set_option maxRecDepth 8192

noncomputable section

namespace Cert.ReferenceIdeal.RunP

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- All the operations: the six windows in order. -/
abbrev opsAll : List (HloOp τ sig (Elt F)) := ops0 ++ (ops1 ++ (ops2 ++ (ops3 ++ (ops4 ++ ops5))))

/-- @main is its operations in order. -/
theorem main_eq (c : Dev nD) : main (F := F) c = seq opsAll := by
  unfold main
  rw [main_part0_eq, main_part1_eq, main_part2_eq, main_part3_eq, main_part4_eq, main_part5_eq]
  simp only [opsAll, seq_append]

theorem opsAll_sub : (opsAll : List (HloOp τ sig (Elt F))).Forall fun op => op.bufs ⊆ tcRefs τ sig :=
  List.forall_iff_forall_mem.mpr fun op h => by
    simp only [opsAll, List.mem_append] at h
    rcases h with h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h

theorem opsAll_fresh : ∀ op ∈ (opsAll : List (HloOp τ sig (Elt F))), op.fresh = ∅ := fun op h => by
  simp only [opsAll, List.mem_append] at h
  rcases h with h | h | h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h
  · exact List.forall_iff_forall_mem.mp ops4_fresh op h
  · exact List.forall_iff_forall_mem.mp ops5_fresh op h

/-- Every weakly fair execution of the reference terminates with the result buffer at the last stage of the argument
    arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v262)
        = val_main_v262 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    have c0 : Cut0 (launchContents m c) (m ((c.tc : Thread nD τ).loc main_arg0)) (m ((c.tc : Thread nD τ).loc main_arg1))
        (m ((c.tc : Thread nD τ).loc main_arg2)) (m ((c.tc : Thread nD τ).loc main_arg3)) := ⟨rfl, rfl, rfl, rfl⟩
    have c6 := win5 _ _ _ _ _ (win4 _ _ _ _ _ (win3 _ _ _ _ _ (win2 _ _ _ _ _ (win1 _ _ _ _ _ (win0 _ _ _ _ _ c0)))))
    have e : after (opsAll (F := F)) (launchContents m c)
        = after ops5 (after ops4 (after ops3 (after ops2 (after ops1 (after ops0 (launchContents m c)))))) := by
      simp only [opsAll, after_append]
    obtain ⟨a0, a1, a2, a3, v⟩ := c6
    exact ⟨(h c main_v262).trans (by rw [e]; exact v), (h c main_arg0).trans (by rw [e]; exact a0),
      (h c main_arg1).trans (by rw [e]; exact a1), (h c main_arg2).trans (by rw [e]; exact a2),
      (h c main_arg3).trans (by rw [e]; exact a3)⟩)
    (run_seq scopedRefs_eq scopedSems_eq defs main (fun _ => opsAll) main_eq (fun _ => opsAll_sub) m ρ (fun _ => opsAll_fresh))

end Cert.ReferenceIdeal.RunP

end
-- ==== Proof.lean ====
/-
  The certificate's five claims.

  The kernel computes a detection loss over 4096 x 14 x 14 cells in two halves of 98 tiles of 4096 cells, each half's four
  sums divided by 4096 before the halves are added; the reference takes each sum over all cells at once.  On the extended
  reals both are the specification's five numbers in its two spellings, which are equal: a centre coordinate times the
  named one fourteenth is the coordinate divided by fourteen, products regroup, a factor distributes over a sum of two
  squares, and division by 4096 distributes over the sum of the halves.  The three frames are the runs themselves; the
  idealization's eight ledger entries all name the same constant.
-/
import proofs.«420472_j34711925687028_3_alg».proof.Defs
import proofs.«420472_j34711925687028_3_alg».proof.Proof.Gen.Kernel
import proofs.«420472_j34711925687028_3_alg».proof.Proof.Gen.Kernel.Skeleton
import proofs.«420472_j34711925687028_3_alg».proof.Proof.Gen.Kernel.Launch
import proofs.«420472_j34711925687028_3_alg».proof.Proof.Gen.Kernel.Points
import proofs.«420472_j34711925687028_3_alg».proof.Proof.Gen.Kernel.Frame
import proofs.«420472_j34711925687028_3_alg».proof.Proof.Gen.KernelIdeal
import proofs.«420472_j34711925687028_3_alg».proof.Proof.Gen.KernelIdeal.Skeleton
import proofs.«420472_j34711925687028_3_alg».proof.Proof.Gen.KernelIdeal.Launch
import proofs.«420472_j34711925687028_3_alg».proof.Proof.Gen.KernelIdeal.Points
import proofs.«420472_j34711925687028_3_alg».proof.Proof.Gen.KernelIdeal.Frame
import proofs.«420472_j34711925687028_3_alg».proof.Proof.Gen.ReferenceIdeal
import proofs.«420472_j34711925687028_3_alg».proof.Proof.Gen.Pre_finite_inputs
import proofs.«420472_j34711925687028_3_alg».proof.Proof.KernelFinal
import proofs.«420472_j34711925687028_3_alg».proof.Proof.SpecLaws
import proofs.«420472_j34711925687028_3_alg».proof.Proof.RefResult
import proofs.«420472_j34711925687028_3_alg».proof.Proof.RefRun
import Idealize.ShloMosaic.Adequacy
import Idealize.ShloMosaic.Init

noncomputable section

namespace Cert.Proof

open Idealize.ShloMosaic Idealize.SL.Sem Cert.LossSpec

/-- The word-level kernel runs and leaves its arguments. -/
theorem frame_kernel [Cert.Kernel.Facts] [Cert.Pre_finite_inputs.Facts] : Cert.frame_Kernel :=
  fun m ρ _ => Cert.Kernel.Gen.frame m ρ

/-- The idealized kernel runs and leaves its arguments. -/
theorem frame_kernelIdeal [Cert.KernelIdeal.Facts] [Cert.Pre_finite_inputs.Facts] : Cert.frame_KernelIdeal :=
  fun m ρ _ => Cert.KernelIdeal.Gen.frame m ρ

/-- The reference runs and leaves its arguments: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RunP.run (F := Ideal) m ρ)

/-- Each of the eight ledger entries: the certificate's table gives the name the value one fourteenth, and the printed
    constant is that value on the extended reals. -/
theorem inv14 : IdealRules.named_const.Statement Cert.KernelIdeal.κ "inv_14" .f32 0x3D924925#32 ((1 / 14 : ℝ) : EReal) :=
  IdealRules.named_const.statement Cert.KernelIdeal.κ "inv_14" .f32 0x3D924925#32 ((1 / 14 : ℝ) : EReal) rfl

theorem preserves : Cert.preserves_Kernel_KernelIdeal :=
  ⟨inv14, inv14, inv14, inv14, inv14, inv14, inv14, inv14⟩

/-- From arguments that agree, the idealized kernel ends at the second spelling of the specification's five numbers and
    the reference at the first; the two spellings are equal. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun j => resultB (Cert.KernelIdeal.Blocks.cells m c) (j 0)), Cert.KernelIdeal.Final.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2, Cert.RefSide.ref_result]
  funext j
  exact (congrFun (resultB_eq_resultA (Cert.KernelIdeal.Blocks.cells m c)) (j 0)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
